-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x6400000 : Shape := ⟨2, ![2, 6400000]⟩
abbrev S512x16 : Shape := ⟨2, ![512, 16]⟩
abbrev S16 : Shape := ⟨1, ![16]⟩
abbrev S16x5 : Shape := ⟨2, ![16, 5]⟩
abbrev S5 : Shape := ⟨1, ![5]⟩
abbrev S5x32 : Shape := ⟨2, ![5, 32]⟩
abbrev S32 : Shape := ⟨1, ![32]⟩
abbrev S32x5 : Shape := ⟨2, ![32, 5]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x5 : S_.BroadcastsInDim S16x5 (![] : Fin 0 → Fin S16x5.rank)
  reducesTo_S16x5_S_d0_1 : S16x5.ReducesTo [0, 1] S_
  bcast_S_S5 : S_.BroadcastsInDim S5 (![] : Fin 0 → Fin S5.rank)
  reducesTo_S5_S_d0 : S5.ReducesTo [0] S_
  bcast_S_S5x32 : S_.BroadcastsInDim S5x32 (![] : Fin 0 → Fin S5x32.rank)
  reducesTo_S5x32_S_d0_1 : S5x32.ReducesTo [0, 1] S_
  bcast_S_S32 : S_.BroadcastsInDim S32 (![] : Fin 0 → Fin S32.rank)
  reducesTo_S32_S_d0 : S32.ReducesTo [0] S_
  bcast_S_S32x5 : S_.BroadcastsInDim S32x5 (![] : Fin 0 → Fin S32x5.rank)
  reducesTo_S32x5_S_d0_1 : S32x5.ReducesTo [0, 1] S_

variable [Facts]

def fn_part2 {F : FTy → Type} [FloatOps F] (main_arg8 : FVec F S32x5 .f32) (main_arg9 : FVec F S5 .f32) (main_v33 : IVec S_ 1) : IVec S_ 1 :=
  let main_v34 : FVec F S32x5 .f32 := Host.absf main_arg8
  let main_cst_12 : FVec F S_ .f32 := constant S_ .f32 0x7F800000#32
  let main_v35 : FVec F S32x5 .f32 := broadcastInDim S32x5 ![] bcast_S_S32x5 main_cst_12
  let main_v36 : IVec S32x5 1 := cmpf .olt main_v34 main_v35
  let main_c_13 : IVec S_ 1 := constantI S_ 1 1#1
  let main_v37 : IVec S_ 1 := (fun x v => Host.reduce IntOp.andi x v reducesTo_S32x5_S_d0_1 h_S_) main_v36 main_c_13
  let main_v38 : IVec S_ 1 := andi main_v33 main_v37
  let main_v39 : FVec F S5 .f32 := Host.absf main_arg9
  let main_cst_14 : FVec F S_ .f32 := constant S_ .f32 0x7F800000#32
  let main_v40 : FVec F S5 .f32 := broadcastInDim S5 ![] bcast_S_S5 main_cst_14
  let main_v41 : IVec S5 1 := cmpf .olt main_v39 main_v40
  let main_c_15 : IVec S_ 1 := constantI S_ 1 1#1
  let main_v42 : IVec S_ 1 := (fun x v => Host.reduce IntOp.andi x v reducesTo_S5_S_d0 h_S_) main_v41 main_c_15
  let main_v43 : IVec S_ 1 := andi main_v38 main_v42
  main_v43

def fn_part1 {F : FTy → Type} [FloatOps F] (main_arg5 : FVec F S5 .f32) (main_arg6 : FVec F S5x32 .f32) (main_arg7 : FVec F S32 .f32) (main_arg8 : FVec F S32x5 .f32) (main_arg9 : FVec F S5 .f32) (main_v13 : IVec S_ 1) (main_v16 : IVec S16x5 1) : IVec S_ 1 :=
  let main_c_5 : IVec S_ 1 := constantI S_ 1 1#1
  let main_v17 : IVec S_ 1 := (fun x v => Host.reduce IntOp.andi x v reducesTo_S16x5_S_d0_1 h_S_) main_v16 main_c_5
  let main_v18 : IVec S_ 1 := andi main_v13 main_v17
  let main_v19 : FVec F S5 .f32 := Host.absf main_arg5
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  let main_v24 : FVec F S5x32 .f32 := Host.absf main_arg6
  let main_cst_8 : FVec F S_ .f32 := constant S_ .f32 0x7F800000#32
  let main_v25 : FVec F S5x32 .f32 := broadcastInDim S5x32 ![] bcast_S_S5x32 main_cst_8
  let main_v26 : IVec S5x32 1 := cmpf .olt main_v24 main_v25
  let main_c_9 : IVec S_ 1 := constantI S_ 1 1#1
  let main_v27 : IVec S_ 1 := (fun x v => Host.reduce IntOp.andi x v reducesTo_S5x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S100000x512 .f32) (main_arg1 : IVec S2x6400000 32) (main_arg2 : FVec F S512x16 .f32) (main_arg3 : FVec F S16 .f32) (main_arg4 : FVec F S16x5 .f32) (main_arg5 : FVec F S5 .f32) (main_arg6 : FVec F S5x32 .f32) (main_arg7 : FVec F S32 .f32) (main_arg8 : FVec F S32x5 .f32) (main_arg9 : FVec F S5 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x5 .f32 := Host.absf main_arg4
  let main_cst_4 : FVec F S_ .f32 := constant S_ .f32 0x7F800000#32
  let main_v15 : FVec F S16x5 .f32 := broadcastInDim S16x5 ![] bcast_S_S16x5 main_cst_4
  let main_v16 : IVec S16x5 1 := cmpf .olt main_v14 main_v15
  fn_part1 (F := F) main_arg5 main_arg6 main_arg7 main_arg8 main_arg9 main_v13 main_v16
-- ==== Kernel.lean ====
abbrev S100000x512 : Shape := ⟨2, ![100000, 512]⟩
abbrev S2x6400000 : Shape := ⟨2, ![2, 6400000]⟩
abbrev S512x16 : Shape := ⟨2, ![512, 16]⟩
abbrev S16 : Shape := ⟨1, ![16]⟩
abbrev S16x5 : Shape := ⟨2, ![16, 5]⟩
abbrev S5 : Shape := ⟨1, ![5]⟩
abbrev S5x32 : Shape := ⟨2, ![5, 32]⟩
abbrev S32 : Shape := ⟨1, ![32]⟩
abbrev S32x5 : Shape := ⟨2, ![32, 5]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x1 : Shape := ⟨2, ![100000, 1]⟩
abbrev S100000x16 : Shape := ⟨2, ![100000, 16]⟩
abbrev S5000x512 : Shape := ⟨2, ![5000, 512]⟩
abbrev S5000x1 : Shape := ⟨2, ![5000, 1]⟩
abbrev S5000x16 : Shape := ⟨2, ![5000, 16]⟩
abbrev S6500000x16 : Shape := ⟨2, ![6500000, 16]⟩
abbrev S1x16 : Shape := ⟨2, ![1, 16]⟩
abbrev S10000x16 : Shape := ⟨2, ![10000, 16]⟩
abbrev S10000x1 : Shape := ⟨2, ![10000, 1]⟩
abbrev S1x5 : Shape := ⟨2, ![1, 5]⟩
abbrev S1x32 : Shape := ⟨2, ![1, 32]⟩
abbrev S100000x5 : Shape := ⟨2, ![100000, 5]⟩
abbrev S10000x5 : Shape := ⟨2, ![10000, 5]⟩
abbrev S10000x32 : Shape := ⟨2, ![10000, 32]⟩
abbrev S10000 : Shape := ⟨1, ![10000]⟩

abbrev nBuf : Space → Nat
  | .hbm => 68
  | .vmem => 26
  | .smem => 0
  | _ => 0

abbrev bufTy : (tb : Table) → Fin (tcTables nBuf tb) → BufTy
  | .hbm, ⟨0, _⟩ => ⟨S100000x512, .f32⟩
  | .hbm, ⟨1, _⟩ => ⟨S2x6400000, .i32⟩
  | .hbm, ⟨2, _⟩ => ⟨S512x16, .f32⟩
  | .hbm, ⟨3, _⟩ => ⟨S16, .f32⟩
  | .hbm, ⟨4, _⟩ => ⟨S16x5, .f32⟩
  | .hbm, ⟨5, _⟩ => ⟨S5, .f32⟩
  | .hbm, ⟨6, _⟩ => ⟨S5x32, .f32⟩
  | .hbm, ⟨7, _⟩ => ⟨S32, .f32⟩
  | .hbm, ⟨8, _⟩ => ⟨S32x5, .f32⟩
  | .hbm, ⟨9, _⟩ => ⟨S5, .f32⟩
  | .hbm, ⟨10, _⟩ => ⟨S100000, .i32⟩
  | .hbm, ⟨11, _⟩ => ⟨S1x6400000, .i32⟩
  | .hbm, ⟨12, _⟩ => ⟨S6400000, .i32⟩
  | .hbm, ⟨13, _⟩ => ⟨S6500000, .i32⟩
  | .hbm, ⟨14, _⟩ => ⟨S1x6400000, .i32⟩
  | .hbm, ⟨15, _⟩ => ⟨S6400000, .i32⟩
  | .hbm, ⟨16, _⟩ => ⟨S6500000, .i32⟩
  | .hbm, ⟨17, _⟩ => ⟨S_, .f32⟩
  | .hbm, ⟨18, _⟩ => ⟨S6500000, .f32⟩
  | .hbm, ⟨19, _⟩ => ⟨S_, .f32⟩
  | .hbm, ⟨20, _⟩ => ⟨S100000, .f32⟩
  | .hbm, ⟨21, _⟩ => ⟨S6500000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x16, .f32⟩
  | .hbm, ⟨36, _⟩ => ⟨S_, .i32⟩
  | .hbm, ⟨37, _⟩ => ⟨S6500000, .i32⟩
  | .hbm, ⟨38, _⟩ => ⟨S6500000, .i1⟩
  | .hbm, ⟨39, _⟩ => ⟨S_, .i32⟩
  | .hbm, ⟨40, _⟩ => ⟨S6500000, .i32⟩
  | .hbm, ⟨41, _⟩ => ⟨S6500000, .i32⟩
  | .hbm, ⟨42, _⟩ => ⟨S6500000, .i32⟩
  | .hbm, ⟨43, _⟩ => ⟨S6500000x1, .i32⟩
  | .hbm, ⟨44, _⟩ => ⟨S6500000x16, .f32⟩
  | .hbm, ⟨45, _⟩ => ⟨S_, .f32⟩
  | .hbm, ⟨46, _⟩ => ⟨S100000x16, .f32⟩
  | .hbm, ⟨47, _⟩ => ⟨S6500000x1, .i32⟩
  | .hbm, ⟨48, _⟩ => ⟨S100000x16, .f32⟩
  | .hbm, ⟨49, _⟩ => ⟨S1x16, .f32⟩
  | .hbm, ⟨50, _⟩ => ⟨S100000x16, .f32⟩
  | .hbm, ⟨51, _⟩ => ⟨S_, .i32⟩
  | .hbm, ⟨52, _⟩ => ⟨S6500000, .i32⟩
  | .hbm, ⟨53, _⟩ => ⟨S6500000, .i1⟩
  | .hbm, ⟨54, _⟩ => ⟨S_, .i32⟩
  | .hbm, ⟨55, _⟩ => ⟨S6500000, .i32⟩
  | .hbm, ⟨56, _⟩ => ⟨S6500000, .i32⟩
  | .hbm, ⟨57, _⟩ => ⟨S6500000, .i32⟩
  | .hbm, ⟨58, _⟩ => ⟨S6500000x1, .i32⟩
  | .hbm, ⟨59, _⟩ => ⟨S6500000x16, .f32⟩
  | .hbm, ⟨60, _⟩ => ⟨S_, .f32⟩
  | .hbm, ⟨61, _⟩ => ⟨S100000x16, .f32⟩
  | .hbm, ⟨62, _⟩ => ⟨S6500000x1, .i32⟩
  | .hbm, ⟨63, _⟩ => ⟨S100000x16, .f32⟩
  | .hbm, ⟨64, _⟩ => ⟨S1x5, .f32⟩
  | .hbm, ⟨65, _⟩ => ⟨S1x32, .f32⟩
  | .hbm, ⟨66, _⟩ => ⟨S1x5, .f32⟩
  | .hbm, ⟨67, _⟩ => ⟨S100000x5, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x1, .f32⟩
  | .local _ .vmem, ⟨4, _⟩ => ⟨S5000x1, .f32⟩
  | .local _ .vmem, ⟨5, _⟩ => ⟨S5000x16, .f32⟩
  | .local _ .vmem, ⟨6, _⟩ => ⟨S5000x16, .f32⟩
  | .local _ .vmem, ⟨7, _⟩ => ⟨S10000x16, .f32⟩
  | .local _ .vmem, ⟨8, _⟩ => ⟨S10000x16, .f32⟩
  | .local _ .vmem, ⟨9, _⟩ => ⟨S10000x1, .f32⟩
  | .local _ .vmem, ⟨10, _⟩ => ⟨S10000x1, .f32⟩
  | .local _ .vmem, ⟨11, _⟩ => ⟨S1x16, .f32⟩
  | .local _ .vmem, ⟨12, _⟩ => ⟨S10000x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x1, .f32⟩
  | .local _ .vmem, ⟨17, _⟩ => ⟨S10000x1, .f32⟩
  | .local _ .vmem, ⟨18, _⟩ => ⟨S16x5, .f32⟩
  | .local _ .vmem, ⟨19, _⟩ => ⟨S1x5, .f32⟩
  | .local _ .vmem, ⟨20, _⟩ => ⟨S5x32, .f32⟩
  | .local _ .vmem, ⟨21, _⟩ => ⟨S1x32, .f32⟩
  | .local _ .vmem, ⟨22, _⟩ => ⟨S32x5, .f32⟩
  | .local _ .vmem, ⟨23, _⟩ => ⟨S1x5, .f32⟩
  | .local _ .vmem, ⟨24, _⟩ => ⟨S10000x5, .f32⟩
  | .local _ .vmem, ⟨25, _⟩ => ⟨S10000x5, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg8_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem8_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x5 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x5 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S5x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x5 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x5 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S10000x5 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  shapeCasts_S100000_S100000x1 : S100000.ShapeCasts S100000x1
  inb_S5000x512_S5000x512_0_0 : ∀ a, (![0, 0] : Fin 2 → Nat) a + S5000x512.size a ≤ S5000x512.size a
  h_S5000x512 : 0 < S5000x512.numel
  inb_S512x16_S512x16_0_0 : ∀ a, (![0, 0] : Fin 2 → Nat) a + S512x16.size a ≤ S512x16.size a
  h_S512x16 : 0 < S512x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S16_S1x16 : S16.ShapeCasts S1x16
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  broadcasts_S10000x1_S10000x16 : S10000x1.Broadcasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  shapeCasts_S5_S1x5 : S5.ShapeCasts S1x5
  shapeCasts_S32_S1x32 : S32.ShapeCasts S1x32
  inb_S16x5_S16x5_0_0 : ∀ a, (![0, 0] : Fin 2 → Nat) a + S16x5.size a ≤ S16x5.size a
  h_S16x5 : 0 < S16x5.numel
  broadcasts_S10000x1_S10000x5 : S10000x1.Broadcasts S10000x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S10000x5 : S1x5.Broadcasts S10000x5
  inb_S5x32_S5x32_0_0 : ∀ a, (![0, 0] : Fin 2 → Nat) a + S5x32.size a ≤ S5x32.size a
  h_S5x32 : 0 < S5x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x5_S32x5_0_0 : ∀ a, (![0, 0] : Fin 2 → Nat) a + S32x5.size a ≤ S32x5.size a
  h_S32x5 : 0 < S32x5.numel
  reduces_S10000x5_S10000 : S10000x5.Reduces [1] S10000
  shapeCasts_S10000_S10000x1 : S10000.ShapeCasts S10000x1
  inb_S10000x5_S10000x5_0_0 : ∀ a, (![0, 0] : Fin 2 → Nat) a + S10000x5.size a ≤ S10000x5.size a
  h_S10000x5 : 0 < S10000x5.numel
  scatter_S100000_S6500000x1_S6500000_n_0_0_1_wf : ScatterDims.WF S100000 S6500000x1 S6500000 [] [0] [0] 1
  dot_S5000x512_S512x16_S5000x16_1_0_0_1_n_n_wf : DotDims.WF S5000x512 S512x16 S5000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S10000x16_S16x5_S10000x5_1_0_0_1_n_n_wf : DotDims.WF S10000x16 S16x5 S10000x5 [1] [0] [0] [1] [] []
  dot_S10000x5_S5x32_S10000x32_1_0_0_1_n_n_wf : DotDims.WF S10000x5 S5x32 S10000x32 [1] [0] [0] [1] [] []
  dot_S10000x32_S32x5_S10000x5_1_0_0_1_n_n_wf : DotDims.WF S10000x32 S32x5 S10000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x5.size a ≤ S16x5.size a
  hwx2_2 : ∀ i : grid2.Coords, EltTy.bits .f32 = 32 ∨ (Rect.block (s := S16x5) S16x5.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x5.size a ≤ S1x5.size a
  hwx2_3 : ∀ i : grid2.Coords, EltTy.bits .f32 = 32 ∨ (Rect.block (s := S1x5) S1x5.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S5x32.size a ≤ S5x32.size a
  hwx2_4 : ∀ i : grid2.Coords, EltTy.bits .f32 = 32 ∨ (Rect.block (s := S5x32) S5x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x5.size a ≤ S32x5.size a
  hwx2_6 : ∀ i : grid2.Coords, EltTy.bits .f32 = 32 ∨ (Rect.block (s := S32x5) S32x5.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x5.size a ≤ S1x5.size a
  hwx2_7 : ∀ i : grid2.Coords, EltTy.bits .f32 = 32 ∨ (Rect.block (s := S1x5) S1x5.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S10000x5.size a ≤ S100000x5.size a
  hwx2_8 : ∀ i : grid2.Coords, EltTy.bits .f32 = 32 ∨ (Rect.block (s := S100000x5) S10000x5.size (cc2_transform_8 i) (hinb2_8 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S10000x16_S16x5_S10000x5_1_0_0_1_n_n : DotDims S10000x16 S16x5 S10000x5 where
  lhsContracting := [1]
  rhsContracting := [0]
  lhsNonContracting := [0]
  rhsNonContracting := [1]
  lhsBatch := []
  rhsBatch := []
  wf := dot_S10000x16_S16x5_S10000x5_1_0_0_1_n_n_wf
def dot_S10000x5_S5x32_S10000x32_1_0_0_1_n_n : DotDims S10000x5 S5x32 S10000x32 where
  lhsContracting := [1]
  rhsContracting := [0]
  lhsNonContracting := [0]
  rhsNonContracting := [1]
  lhsBatch := []
  rhsBatch := []
  wf := dot_S10000x5_S5x32_S10000x32_1_0_0_1_n_n_wf
def dot_S10000x32_S32x5_S10000x5_1_0_0_1_n_n : DotDims S10000x32 S32x5 S10000x5 where
  lhsContracting := [1]
  rhsContracting := [0]
  lhsNonContracting := [0]
  rhsNonContracting := [1]
  lhsBatch := []
  rhsBatch := []
  wf := dot_S10000x32_S32x5_S10000x5_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v40) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S16x5.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x5.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S5x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S32x5.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v43) S1x5.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v44) S10000x5.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x6400000 : Shape := ⟨2, ![2, 6400000]⟩
abbrev S512x16 : Shape := ⟨2, ![512, 16]⟩
abbrev S16 : Shape := ⟨1, ![16]⟩
abbrev S16x5 : Shape := ⟨2, ![16, 5]⟩
abbrev S5 : Shape := ⟨1, ![5]⟩
abbrev S5x32 : Shape := ⟨2, ![5, 32]⟩
abbrev S32 : Shape := ⟨1, ![32]⟩
abbrev S32x5 : Shape := ⟨2, ![32, 5]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x16 : Shape := ⟨2, ![100000, 16]⟩
abbrev S6500000x16 : Shape := ⟨2, ![6500000, 16]⟩
abbrev S1x16 : Shape := ⟨2, ![1, 16]⟩
abbrev S100000x5 : Shape := ⟨2, ![100000, 5]⟩
abbrev S6500000x5 : Shape := ⟨2, ![6500000, 5]⟩
abbrev S1x5 : Shape := ⟨2, ![1, 5]⟩
abbrev S100000x32 : Shape := ⟨2, ![100000, 32]⟩
abbrev S1x32 : Shape := ⟨2, ![1, 32]⟩
abbrev S100000x1 : Shape := ⟨2, ![100000, 1]⟩

abbrev nBuf : Space → Nat
  | .hbm => 122
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x6400000, .i32⟩
  | .hbm, ⟨2, _⟩ => ⟨S512x16, .f32⟩
  | .hbm, ⟨3, _⟩ => ⟨S16, .f32⟩
  | .hbm, ⟨4, _⟩ => ⟨S16x5, .f32⟩
  | .hbm, ⟨5, _⟩ => ⟨S5, .f32⟩
  | .hbm, ⟨6, _⟩ => ⟨S5x32, .f32⟩
  | .hbm, ⟨7, _⟩ => ⟨S32, .f32⟩
  | .hbm, ⟨8, _⟩ => ⟨S32x5, .f32⟩
  | .hbm, ⟨9, _⟩ => ⟨S5, .f32⟩
  | .hbm, ⟨10, _⟩ => ⟨S100000, .i32⟩
  | .hbm, ⟨11, _⟩ => ⟨S1x6400000, .i32⟩
  | .hbm, ⟨12, _⟩ => ⟨S6400000, .i32⟩
  | .hbm, ⟨13, _⟩ => ⟨S6500000, .i32⟩
  | .hbm, ⟨14, _⟩ => ⟨S1x6400000, .i32⟩
  | .hbm, ⟨15, _⟩ => ⟨S6400000, .i32⟩
  | .hbm, ⟨16, _⟩ => ⟨S6500000, .i32⟩
  | .hbm, ⟨17, _⟩ => ⟨S_, .f32⟩
  | .hbm, ⟨18, _⟩ => ⟨S6500000, .f32⟩
  | .hbm, ⟨19, _⟩ => ⟨S_, .f32⟩
  | .hbm, ⟨20, _⟩ => ⟨S100000, .f32⟩
  | .hbm, ⟨21, _⟩ => ⟨S6500000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S6500000, .i32⟩
  | .hbm, ⟨36, _⟩ => ⟨S6500000, .i1⟩
  | .hbm, ⟨37, _⟩ => ⟨S_, .i32⟩
  | .hbm, ⟨38, _⟩ => ⟨S6500000, .i32⟩
  | .hbm, ⟨39, _⟩ => ⟨S6500000, .i32⟩
  | .hbm, ⟨40, _⟩ => ⟨S6500000, .i32⟩
  | .hbm, ⟨41, _⟩ => ⟨S6500000x1, .i32⟩
  | .hbm, ⟨42, _⟩ => ⟨S6500000, .f32⟩
  | .hbm, ⟨43, _⟩ => ⟨S_, .i32⟩
  | .hbm, ⟨44, _⟩ => ⟨S6500000, .i32⟩
  | .hbm, ⟨45, _⟩ => ⟨S6500000, .i1⟩
  | .hbm, ⟨46, _⟩ => ⟨S_, .i32⟩
  | .hbm, ⟨47, _⟩ => ⟨S6500000, .i32⟩
  | .hbm, ⟨48, _⟩ => ⟨S6500000, .i32⟩
  | .hbm, ⟨49, _⟩ => ⟨S6500000, .i32⟩
  | .hbm, ⟨50, _⟩ => ⟨S6500000x1, .i32⟩
  | .hbm, ⟨51, _⟩ => ⟨S6500000, .f32⟩
  | .hbm, ⟨52, _⟩ => ⟨S6500000, .f32⟩
  | .hbm, ⟨53, _⟩ => ⟨S100000x16, .f32⟩
  | .hbm, ⟨54, _⟩ => ⟨S_, .i32⟩
  | .hbm, ⟨55, _⟩ => ⟨S6500000, .i32⟩
  | .hbm, ⟨56, _⟩ => ⟨S6500000, .i1⟩
  | .hbm, ⟨57, _⟩ => ⟨S_, .i32⟩
  | .hbm, ⟨58, _⟩ => ⟨S6500000, .i32⟩
  | .hbm, ⟨59, _⟩ => ⟨S6500000, .i32⟩
  | .hbm, ⟨60, _⟩ => ⟨S6500000, .i32⟩
  | .hbm, ⟨61, _⟩ => ⟨S6500000x1, .i32⟩
  | .hbm, ⟨62, _⟩ => ⟨S6500000x16, .f32⟩
  | .hbm, ⟨63, _⟩ => ⟨S6500000x1, .f32⟩
  | .hbm, ⟨64, _⟩ => ⟨S6500000x16, .f32⟩
  | .hbm, ⟨65, _⟩ => ⟨S6500000x16, .f32⟩
  | .hbm, ⟨66, _⟩ => ⟨S_, .f32⟩
  | .hbm, ⟨67, _⟩ => ⟨S100000x16, .f32⟩
  | .hbm, ⟨68, _⟩ => ⟨S6500000x1, .i32⟩
  | .hbm, ⟨69, _⟩ => ⟨S100000x16, .f32⟩
  | .hbm, ⟨70, _⟩ => ⟨S1x16, .f32⟩
  | .hbm, ⟨71, _⟩ => ⟨S100000x16, .f32⟩
  | .hbm, ⟨72, _⟩ => ⟨S100000x16, .f32⟩
  | .hbm, ⟨73, _⟩ => ⟨S_, .f32⟩
  | .hbm, ⟨74, _⟩ => ⟨S100000x16, .f32⟩
  | .hbm, ⟨75, _⟩ => ⟨S100000x16, .f32⟩
  | .hbm, ⟨76, _⟩ => ⟨S100000x5, .f32⟩
  | .hbm, ⟨77, _⟩ => ⟨S_, .i32⟩
  | .hbm, ⟨78, _⟩ => ⟨S6500000, .i32⟩
  | .hbm, ⟨79, _⟩ => ⟨S6500000, .i1⟩
  | .hbm, ⟨80, _⟩ => ⟨S_, .i32⟩
  | .hbm, ⟨81, _⟩ => ⟨S6500000, .i32⟩
  | .hbm, ⟨82, _⟩ => ⟨S6500000, .i32⟩
  | .hbm, ⟨83, _⟩ => ⟨S6500000, .i32⟩
  | .hbm, ⟨84, _⟩ => ⟨S6500000x1, .i32⟩
  | .hbm, ⟨85, _⟩ => ⟨S6500000x5, .f32⟩
  | .hbm, ⟨86, _⟩ => ⟨S6500000x1, .f32⟩
  | .hbm, ⟨87, _⟩ => ⟨S6500000x5, .f32⟩
  | .hbm, ⟨88, _⟩ => ⟨S6500000x5, .f32⟩
  | .hbm, ⟨89, _⟩ => ⟨S_, .f32⟩
  | .hbm, ⟨90, _⟩ => ⟨S100000x5, .f32⟩
  | .hbm, ⟨91, _⟩ => ⟨S6500000x1, .i32⟩
  | .hbm, ⟨92, _⟩ => ⟨S100000x5, .f32⟩
  | .hbm, ⟨93, _⟩ => ⟨S1x5, .f32⟩
  | .hbm, ⟨94, _⟩ => ⟨S100000x5, .f32⟩
  | .hbm, ⟨95, _⟩ => ⟨S100000x5, .f32⟩
  | .hbm, ⟨96, _⟩ => ⟨S100000x32, .f32⟩
  | .hbm, ⟨97, _⟩ => ⟨S1x32, .f32⟩
  | .hbm, ⟨98, _⟩ => ⟨S100000x32, .f32⟩
  | .hbm, ⟨99, _⟩ => ⟨S100000x32, .f32⟩
  | .hbm, ⟨100, _⟩ => ⟨S_, .f32⟩
  | .hbm, ⟨101, _⟩ => ⟨S100000x32, .f32⟩
  | .hbm, ⟨102, _⟩ => ⟨S100000x32, .f32⟩
  | .hbm, ⟨103, _⟩ => ⟨S100000x5, .f32⟩
  | .hbm, ⟨104, _⟩ => ⟨S1x5, .f32⟩
  | .hbm, ⟨105, _⟩ => ⟨S100000x5, .f32⟩
  | .hbm, ⟨106, _⟩ => ⟨S100000x5, .f32⟩
  | .hbm, ⟨107, _⟩ => ⟨S_, .f32⟩
  | .hbm, ⟨108, _⟩ => ⟨S100000, .f32⟩
  | .hbm, ⟨109, _⟩ => ⟨S_, .f32⟩
  | .hbm, ⟨110, _⟩ => ⟨S100000, .f32⟩
  | .hbm, ⟨111, _⟩ => ⟨S100000, .f32⟩
  | .hbm, ⟨112, _⟩ => ⟨S100000x1, .f32⟩
  | .hbm, ⟨113, _⟩ => ⟨S100000x5, .f32⟩
  | .hbm, ⟨114, _⟩ => ⟨S100000x5, .f32⟩
  | .hbm, ⟨115, _⟩ => ⟨S100000x5, .f32⟩
  | .hbm, ⟨116, _⟩ => ⟨S_, .f32⟩
  | .hbm, ⟨117, _⟩ => ⟨S100000, .f32⟩
  | .hbm, ⟨118, _⟩ => ⟨S100000x1, .f32⟩
  | .hbm, ⟨119, _⟩ => ⟨S100000x1, .f32⟩
  | .hbm, ⟨120, _⟩ => ⟨S100000x5, .f32⟩
  | .hbm, ⟨121, _⟩ => ⟨S100000x5, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_call2_cst : Ref sig .tc := ⟨.hbm, 100, rfl⟩
abbrev main_call2_v0 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_call3_cst : Ref sig .tc := ⟨.hbm, 107, rfl⟩
abbrev main_call3_v0 : Ref sig .tc := ⟨.hbm, 108, rfl⟩
abbrev main_call3_cst_0 : Ref sig .tc := ⟨.hbm, 109, rfl⟩
abbrev main_call3_v1 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_v5 : Ref sig .tc := ⟨.hbm, 114, rfl⟩
abbrev main_call3_v6 : Ref sig .tc := ⟨.hbm, 115, rfl⟩
abbrev main_call3_cst_1 : Ref sig .tc := ⟨.hbm, 116, rfl⟩
abbrev main_call3_v7 : Ref sig .tc := ⟨.hbm, 117, rfl⟩
abbrev main_call3_v8 : Ref sig .tc := ⟨.hbm, 118, rfl⟩
abbrev main_call3_v9 : Ref sig .tc := ⟨.hbm, 119, rfl⟩
abbrev main_call3_v10 : Ref sig .tc := ⟨.hbm, 120, rfl⟩
abbrev main_v76 : Ref sig .tc := ⟨.hbm, 121, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S6500000x1_S6500000x5_0_1 : S6500000x1.BroadcastsInDim S6500000x5 (![0, 1] : Fin 2 → Fin S6500000x5.rank)
  bcast_S_S100000x5 : S_.BroadcastsInDim S100000x5 (![] : Fin 0 → Fin S100000x5.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  reducesTo_S100000x5_S100000_d1 : S100000x5.ReducesTo [1] S100000
  h_S_ : 0 < S_.numel
  bcast_S100000_S100000x1_0 : S100000.BroadcastsInDim S100000x1 (![0] : Fin 1 → Fin S100000x1.rank)
  bcast_S100000x1_S100000x5_0_1 : S100000x1.BroadcastsInDim S100000x5 (![0, 1] : Fin 2 → Fin S100000x5.rank)
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S100000x512_S512x16_S100000x16_1_0_0_1_n_n_wf : DotDims.WF S100000x512 S512x16 S100000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S100000x16_S16x5_S100000x5_1_0_0_1_n_n_wf : DotDims.WF S100000x16 S16x5 S100000x5 [1] [0] [0] [1] [] []
  gather_S100000x5_S6500000x1_S6500000x5_1_0_n_n_0_1_15_wf : GatherDims.WF S100000x5 S6500000x1 S6500000x5 [1] [0] [] [0] [] 1 ![1, 5]
  scatter_S100000x5_S6500000x1_S6500000x5_1_0_0_1_wf : ScatterDims.WF S100000x5 S6500000x1 S6500000x5 [1] [0] [0] 1
  dot_S100000x5_S5x32_S100000x32_1_0_0_1_n_n_wf : DotDims.WF S100000x5 S5x32 S100000x32 [1] [0] [0] [1] [] []
  dot_S100000x32_S32x5_S100000x5_1_0_0_1_n_n_wf : DotDims.WF S100000x32 S32x5 S100000x5 [1] [0] [0] [1] [] []

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S100000x16_S16x5_S100000x5_1_0_0_1_n_n : DotDims S100000x16 S16x5 S100000x5 where
  lhsContracting := [1]
  rhsContracting := [0]
  lhsNonContracting := [0]
  rhsNonContracting := [1]
  lhsBatch := []
  rhsBatch := []
  wf := dot_S100000x16_S16x5_S100000x5_1_0_0_1_n_n_wf
def gather_S100000x5_S6500000x1_S6500000x5_1_0_n_n_0_1_15 : GatherDims S100000x5 S6500000x1 S6500000x5 where
  offsetDims := [1]
  collapsedSliceDims := [0]
  operandBatchingDims := []
  startIndicesBatchingDims := []
  startIndexMap := [0]
  indexVectorDim := 1
  sliceSizes := ![1, 5]
  wf := gather_S100000x5_S6500000x1_S6500000x5_1_0_n_n_0_1_15_wf
def scatter_S100000x5_S6500000x1_S6500000x5_1_0_0_1 : ScatterDims S100000x5 S6500000x1 S6500000x5 where
  updateWindowDims := [1]
  insertedWindowDims := [0]
  scatterDimsToOperandDims := [0]
  indexVectorDim := 1
  wf := scatter_S100000x5_S6500000x1_S6500000x5_1_0_0_1_wf
def dot_S100000x5_S5x32_S100000x32_1_0_0_1_n_n : DotDims S100000x5 S5x32 S100000x32 where
  lhsContracting := [1]
  rhsContracting := [0]
  lhsNonContracting := [0]
  rhsNonContracting := [1]
  lhsBatch := []
  rhsBatch := []
  wf := dot_S100000x5_S5x32_S100000x32_1_0_0_1_n_n_wf
def dot_S100000x32_S32x5_S100000x5_1_0_0_1_n_n : DotDims S100000x32 S32x5 S100000x5 where
  lhsContracting := [1]
  rhsContracting := [0]
  lhsNonContracting := [0]
  rhsNonContracting := [1]
  lhsBatch := []
  rhsBatch := []
  wf := dot_S100000x32_S32x5_S100000x5_1_0_0_1_n_n_wf

class Facts : Prop extends Facts₀ where

variable [Facts]
-- ==== Proof.Spec.lean ====
/-
  The mathematics of the two-layer graph convolution with an MLP head and a row-wise log-softmax, as plain
  functions of the argument arrays over the extended reals, index by index.

  Nodes are `Fin 100000`. A matrix is a function of a rank-2 index; a column or a bias is a function of one coordinate.
  * `lin`: the first linear map, each row scaled by its node's factor `d`.
  * `ep1`: the first layer's epilogue: scale the aggregated row by `d`, add the bias, clip at zero, scale by `d` again
    (so that the row is ready to be aggregated by the second layer).
  * `h2`: the second layer's epilogue: the aggregated row through the second weight, scaled by `d`, plus the bias.
  * `tail`: everything after the second layer, a function of ONE row: a linear map, a bias, a clip at zero, another linear map
    and bias, then the log-softmax of the row (the row minus its maximum minus the log of the sum of the exponentials of that).
-/
import Idealize.ShloMosaic.PureOps.Ideal
import Idealize.ShloMosaic.Lib.ValueIdx

noncomputable section

namespace Cert.Spec

open Idealize.ShloMosaic Idealize.ShloMosaic.ValueIdx

/-- A matrix of extended reals with `r` rows and `c` columns. -/
abbrev Mat (r c : Nat) : Type := (⟨2, ![r, c]⟩ : Shape).Idx → EReal

/-- Row `n` of `x · w` scaled by `d n`. -/
def lin (x : Mat 100000 512) (w : Mat 512 16) (d : Fin 100000 → EReal) (n : Fin 100000) (k : Fin 16) : EReal :=
  (∑ q : Fin 512, x (ix2 n q) * w (ix2 q k)) * d n

/-- The first layer's epilogue at node `n`, feature `k`. -/
def ep1 (a : Mat 100000 16) (d : Fin 100000 → EReal) (b : Fin 16 → EReal) (n : Fin 100000) (k : Fin 16) : EReal :=
  max (d n * a (ix2 n k) + b k) 0 * d n

/-- The second layer's epilogue at node `n`, class `c`. -/
def h2 (a : Mat 100000 16) (d : Fin 100000 → EReal) (w2 : Mat 16 5) (b2 : Fin 5 → EReal) (n : Fin 100000) (c : Fin 5) : EReal :=
  d n * (∑ k : Fin 16, a (ix2 n k) * w2 (ix2 k c)) + b2 c

/-- The hidden row of the head: linear, bias, clip at zero. -/
def hid (r : Fin 5 → EReal) (w3 : Mat 5 32) (b3 : Fin 32 → EReal) (j : Fin 32) : EReal :=
  max ((∑ c : Fin 5, r c * w3 (ix2 c j)) + b3 j) 0

/-- The logits of the head. -/
def logit (r : Fin 5 → EReal) (w3 : Mat 5 32) (b3 : Fin 32 → EReal) (w4 : Mat 32 5) (b4 : Fin 5 → EReal) (c : Fin 5) : EReal :=
  (∑ j : Fin 32, hid r w3 b3 j * w4 (ix2 j c)) + b4 c

/-- The maximum of a row of five, folded from minus infinity (the float pattern of `-inf`). -/
def rowMax (z : Fin 5 → EReal) : EReal :=
  (Finset.univ : Finset (Fin 5)).fold max (Ideal.ofBits .f32 0xFF800000#32) z

/-- The log-softmax of a row of five at class `c`. -/
def lsm (z : Fin 5 → EReal) (c : Fin 5) : EReal :=
  (z c - rowMax z) - Ideal.log (∑ c' : Fin 5, Ideal.exp (z c' - rowMax z))

/-- Everything after the second layer, on one row. -/
def tail (r : Fin 5 → EReal) (w3 : Mat 5 32) (b3 : Fin 32 → EReal) (w4 : Mat 32 5) (b4 : Fin 5 → EReal) (c : Fin 5) : EReal :=
  lsm (logit r w3 b3 w4 b4) c

/-- The last kernel's result at node `n`, class `c`, from the aggregated second-layer rows. -/
def out2 (a : Mat 100000 16) (d : Fin 100000 → EReal) (w2 : Mat 16 5) (b2 : Fin 5 → EReal) (w3 : Mat 5 32) (b3 : Fin 32 → EReal)
    (w4 : Mat 32 5) (b4 : Fin 5 → EReal) (n : Fin 100000) (c : Fin 5) : EReal :=
  tail (fun c' => h2 a d w2 b2 n c') w3 b3 w4 b4 c

end Cert.Spec

end
-- ==== Proof.Region0.lean ====
/-
  The first kernel's result array as ONE function of the arrays the region finds: twenty row blocks of 5000 rows, block `t`
  holding rows 5000·t … 5000·t+4999 of (x · W1) with each row scaled by its node's factor; the blocks tile the array.
-/
import proofs.«411965_j11527692222479_3_alg».proof.Proof.Gen.KernelIdeal.Frame
import proofs.«411965_j11527692222479_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## One entry of a block's product

The body multiplies the 5000×512 block of `x` with the whole 512×16 weight into a zero accumulator: entry (r, k) is the
sum over the 512 columns q of x(r, q) · w(q, k). The contraction's index set has one axis of extent 512; the operand
indices at output (r, k) and contraction coordinate q are (r, q) on the left and (q, k) on the right. -/

theorem lhs_axis0 (i : S5000x16.Idx) (q : dot_S5000x512_S512x16_S5000x16_1_0_0_1_n_n.contr.Idx) :
    (dot_S5000x512_S512x16_S5000x16_1_0_0_1_n_n.lhsIdx i q 0).val = (i 0).val := by
  unfold DotDims.lhsIdx
  rw [dif_neg (show ¬(0 : Fin S5000x512.rank) ∈ dot_S5000x512_S512x16_S5000x16_1_0_0_1_n_n.lhsBatch by decide), dif_pos (show (0 : Fin S5000x512.rank) ∈ dot_S5000x512_S512x16_S5000x16_1_0_0_1_n_n.lhsNonContracting by decide)]
  rfl
theorem lhs_axis1 (i : S5000x16.Idx) (q : dot_S5000x512_S512x16_S5000x16_1_0_0_1_n_n.contr.Idx) :
    (dot_S5000x512_S512x16_S5000x16_1_0_0_1_n_n.lhsIdx i q 1).val = (q ⟨0, by decide⟩).val :=
  dot_S5000x512_S512x16_S5000x16_1_0_0_1_n_n.lhsIdx_val_of_single rfl i q
theorem rhs_axis0 (i : S5000x16.Idx) (q : dot_S5000x512_S512x16_S5000x16_1_0_0_1_n_n.contr.Idx) :
    (dot_S5000x512_S512x16_S5000x16_1_0_0_1_n_n.rhsIdx i q 0).val = (q ⟨0, by decide⟩).val :=
  dot_S5000x512_S512x16_S5000x16_1_0_0_1_n_n.rhsIdx_val_of_single rfl i q
theorem rhs_axis1 (i : S5000x16.Idx) (q : dot_S5000x512_S512x16_S5000x16_1_0_0_1_n_n.contr.Idx) :
    (dot_S5000x512_S512x16_S5000x16_1_0_0_1_n_n.rhsIdx i q 1).val = (i 1).val := by
  unfold DotDims.rhsIdx
  rw [dif_neg (show ¬(1 : Fin S512x16.rank) ∈ dot_S5000x512_S512x16_S5000x16_1_0_0_1_n_n.rhsBatch by decide), dif_pos (show (1 : Fin S512x16.rank) ∈ dot_S5000x512_S512x16_S5000x16_1_0_0_1_n_n.rhsNonContracting by decide)]
  rfl

/-- The block product into the zero accumulator, at row `r` and lane `k`: the plain sum of products. -/
theorem prod_at (x : FVec Ideal S5000x512 .f32) (w : FVec Ideal S512x16 .f32) (r : Fin 5000) (k : Fin 16) :
    matmul dot_S5000x512_S512x16_S5000x16_1_0_0_1_n_n none x w (constant (F := Ideal) S5000x16 .f32 0x00000000#32) (ix2 r k)
      = ∑ q : Fin 512, x (ix2 r q) * w (ix2 q k) := by
  refine (Ideal.matmul_constant_zero_apply dot_S5000x512_S512x16_S5000x16_1_0_0_1_n_n none x w (ix2 r k)).trans ?_
  rw [← Equiv.sum_comp (ValueIdx.contrEquiv1 dot_S5000x512_S512x16_S5000x16_1_0_0_1_n_n 512 rfl rfl).symm]
  refine Finset.sum_congr rfl fun q _ => ?_
  have hq := ValueIdx.contrEquiv1_symm_val dot_S5000x512_S512x16_S5000x16_1_0_0_1_n_n 512 rfl rfl q
  have el : dot_S5000x512_S512x16_S5000x16_1_0_0_1_n_n.lhsIdx (ix2 r k) ((ValueIdx.contrEquiv1 dot_S5000x512_S512x16_S5000x16_1_0_0_1_n_n 512 rfl rfl).symm q) = ix2 r q := funext fun a => Fin.ext (by
    match a with
    | ⟨0, _⟩ => exact lhs_axis0 _ _
    | ⟨1, _⟩ => exact (lhs_axis1 _ _).trans hq)
  have er : dot_S5000x512_S512x16_S5000x16_1_0_0_1_n_n.rhsIdx (ix2 r k) ((ValueIdx.contrEquiv1 dot_S5000x512_S512x16_S5000x16_1_0_0_1_n_n 512 rfl rfl).symm q) = ix2 q k := funext fun a => Fin.ext (by
    match a with
    | ⟨0, _⟩ => exact (rhs_axis0 _ _).trans hq
    | ⟨1, _⟩ => exact rhs_axis1 _ _)
  rw [el, er]

/-- The factor column spread along the 16 lanes reads, at row `r` and any lane, the column's entry of row `r`. -/
theorem spread_at (d : Vec Ideal S5000x1 .f32) (r : Fin 5000) (k : Fin 16) :
    broadcastTo S5000x16 d broadcasts_S5000x1_S5000x16 (ix2 r k) = d (ix2 r 0) :=
  broadcastTo_apply d broadcasts_S5000x1_S5000x16 (ix2 r k) (ix2 r 0) (fun a => by
    match a with
    | ⟨0, _⟩ => show r.val = if (5000 : Nat) = 1 then 0 else r.val; rw [if_neg (by decide)]
    | ⟨1, _⟩ => show (0 : Nat) = if (1 : Nat) = 1 then 0 else _; rw [if_pos rfl])

/-- The body's stored value at row `r`, lane `k` of the block: the row of the product scaled by the row's factor. -/
theorem pay_at (x : Vec Ideal S5000x512 .f32) (w : Vec Ideal S512x16 .f32) (d : Vec Ideal S5000x1 .f32) (r : Fin 5000) (k : Fin 16) :
    (k0_pay1 (F := Ideal) x w d) (ix2 r k) = (∑ q : Fin 512, x (ix2 r q) * w (ix2 q k)) * d (ix2 r 0) := by
  unfold k0_pay1
  rw [mulf_apply, prod_at, shapeCast_self, spread_at]

/-! ## From a block to the array

Block `b` of the result holds rows 5000·b … 5000·b + 4999. An entry of a block, read where it sits in the array, is the
array's function there: the row of `x` and the factor come from the same row block, the weight is read whole. -/

/-- An entry of the stored block, over blocks that are rows `5000·b + ·` of the arrays: the array function at that row. -/
theorem block_entry (x : Vec Ideal S5000x512 .f32) (w : Vec Ideal S512x16 .f32) (d : Vec Ideal S5000x1 .f32)
    (X : S100000x512.Idx → EReal) (W : S512x16.Idx → EReal) (Dv : S100000x1.Idx → EReal) (b : Nat)
    (hx : ∀ (y : S5000x512.Idx) (i : S100000x512.Idx), (i 0).val = b * 5000 + (y 0).val → (i 1).val = (y 1).val → x y = X i)
    (hw : ∀ y : S512x16.Idx, w y = W y)
    (hd : ∀ (y : S5000x1.Idx) (i : S100000x1.Idx), (i 0).val = b * 5000 + (y 0).val → (i 1).val = (y 1).val → d y = Dv i)
    (j : S5000x16.Idx) (i : S100000x16.Idx) (hi0 : (i 0).val = b * 5000 + (j 0).val) (hi1 : (i 1).val = (j 1).val) :
    k0_pay1 (F := Ideal) x w d j = Cert.Spec.lin X W (fun n => Dv (ix2 n 0)) (i 0) (i 1) := by
  obtain ⟨r, k, rfl⟩ : ∃ (r : Fin 5000) (k : Fin 16), j = ix2 r k := ⟨j 0, j 1, eq_ix2 j⟩
  obtain ⟨n, l, rfl⟩ : ∃ (n : Fin 100000) (l : Fin 16), i = ix2 n l := ⟨i 0, i 1, eq_ix2 i⟩
  have hl : l = k := Fin.ext hi1
  subst hl
  rw [pay_at]
  unfold Cert.Spec.lin
  have hs : ∀ q : Fin 512, x (ix2 r q) * w (ix2 q l) = X (ix2 n q) * W (ix2 q l) := fun q => by
    rw [hx (ix2 r q) (ix2 n q) hi0 rfl, hw]
  rw [Finset.sum_congr rfl fun q _ => hs q, hd (ix2 r 0) (ix2 n 0) hi0 rfl]

theorem hz : (![0, 0] : Fin 2 → Nat) = fun _ => 0 := funext fun a => by fin_cases a <;> rfl

/-- The printed index maps over the grid: the row-blocked windows sit at row block `t`, column block 0; the weight at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

-- the TensorCore's buffer contents when the region is entered: a parameter
variable (V : (c : Dev nD) → (b : Ref sig .tc) → Buf (Elt Ideal) ((c : Thread nD τ).loc b))

/-- The result array as one function of the arrays the region finds. -/
abbrev rows (c : Dev nD) : S100000x16.Idx → EReal := fun i : S100000x16.Idx =>
  Cert.Spec.lin (V c main_arg0) (V c main_arg2) (fun n => V c main_v17 (ix2 n 0)) (i 0) (i 1)

/-- What point `t` writes back is block `t` of that function. -/
theorem flushed_eq (c : Dev nD) (t : Fin cfg0.N) :
    (dat0 (F := Ideal) V c).flushed 3 t = ((cfg0.win 3).blk t).view.read (Elt Ideal) (rows V c) := by
  show (cfg0.win 3).cut (grid0.coords t) ((dat0 V c).after 3 t) = _
  rw [after0_3]
  unfold out0_3
  rw [View.canon_unit_zero hz]
  simp only [View.ld_unit_zero (S := S5000x512) hz, View.ld_unit_zero (S := S512x16) hz, View.ld_unit_zero (S := S5000x1) hz]
  obtain ⟨e0, e1, e2, e3, e4, e5, e6, e7⟩ := idx_facts t
  funext j
  show k0_pay1 (F := Ideal) (iblk0 V c 0 t) (iblk0 V c 1 t) (iblk0 V c 2 t) j = rows V c (((cfg0.win 3).blk t).view.emb j)
  refine block_entry (iblk0 V c 0 t) (iblk0 V c 1 t) (iblk0 V c 2 t) (V c main_arg0) (V c main_arg2) (V c main_v17) t.val ?_ ?_ ?_ j (((cfg0.win 3).blk t).view.emb j) ?_ ?_
  · intro y i h0 h1
    show V c main_arg0 (((cfg0.win 0).blk t).view.emb y) = V c main_arg0 i
    refine congrArg (V c main_arg0) (funext fun a => Fin.ext ?_)
    match a with
    | ⟨0, _⟩ => show win0_0.index t (0 : Fin 2) * 5000 + 1 * (y 0).val = (i 0).val; omega
    | ⟨1, _⟩ => show win0_0.index t (1 : Fin 2) * 512 + 1 * (y 1).val = (i 1).val; omega
  · intro y
    show V c main_arg2 (((cfg0.win 1).blk t).view.emb y) = V c main_arg2 y
    refine congrArg (V c main_arg2) (funext fun a => Fin.ext ?_)
    match a with
    | ⟨0, _⟩ => show win0_1.index t (0 : Fin 2) * 512 + 1 * (y 0).val = (y 0).val; omega
    | ⟨1, _⟩ => show win0_1.index t (1 : Fin 2) * 16 + 1 * (y 1).val = (y 1).val; omega
  · intro y i h0 h1
    show V c main_v17 (((cfg0.win 2).blk t).view.emb y) = V c main_v17 i
    refine congrArg (V c main_v17) (funext fun a => Fin.ext ?_)
    match a with
    | ⟨0, _⟩ => show win0_2.index t (0 : Fin 2) * 5000 + 1 * (y 0).val = (i 0).val; omega
    | ⟨1, _⟩ => show win0_2.index t (1 : Fin 2) * 1 + 1 * (y 1).val = (i 1).val; omega
  · show win0_3.index t (0 : Fin 2) * 5000 + 1 * (j 0).val = t.val * 5000 + (j 0).val; omega
  · show win0_3.index t (1 : Fin 2) * 16 + 1 * (j 1).val = (j 1).val; omega

/-- An index of the array is in point `t`'s block iff each coordinate is in the block's range on its axis. -/
theorem mem_blk (t : Fin cfg0.N) (i : S100000x16.Idx) :
    i ∈ ((cfg0.win 3).blk t).view.set ↔ ∀ a : Fin 2, win0_3.index t a * S5000x16.size a ≤ (i a).val ∧ (i a).val < win0_3.index t a * S5000x16.size a + S5000x16.size a := by
  show i ∈ ((View.whole main_v18).slice (win0_3.rect t)).set ↔ _
  rw [View.set_slice_whole, Rect.mem_set_unit]
  exact Iff.rfl

/-- The twenty row blocks tile the array: row `n` lies in block `n / 5000`, and every block spans all 16 lanes. -/
theorem cover (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 16 ≤ (i 1).val ∧ (i 1).val < win0_3.index t (1 : Fin 2) * 16 + 16; omega

/-- After the region its output array is, row by row, `x · W1` scaled by the node's factor. -/
theorem arr0 (c : Dev nD) :
    (dat0 (F := Ideal) V c).arrAt 3 cfg0.N
      = (fun i : S100000x16.Idx =>
          Cert.Spec.lin (V c main_arg0) (V c main_arg2) (fun n => V c main_v17 (ix2 n 0)) (i 0) (i 1)) :=
  (dat0 (F := Ideal) V c).arrAt_eq_of_cover 3 (rows V c) (fun t _ => flushed_eq V c t) cover

end Cert.KernelIdeal.Region0

end
-- ==== Proof.Region1.lean ====
/-
  The second kernel's result array as ONE function of the arrays the region finds: ten row blocks of 10000 rows; at row `n`,
  feature `k` the aggregated entry scaled by the node's factor, plus the bias, clipped at zero, scaled by the factor again.
-/
import proofs.«411965_j11527692222479_3_alg».proof.Proof.Gen.KernelIdeal.Frame
import proofs.«411965_j11527692222479_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The zero offsets of a whole-block access, however they are spelt. -/
theorem zeroOff : (![0, 0] : Fin 2 → Nat) = fun _ => 0 :=
  funext fun a => by match a with | ⟨0, _⟩ => rfl | ⟨1, _⟩ => rfl

/-- A column of 10000 entries spread along 16 features reads, at row `r`, that row's one entry. -/
theorem spreadCol_apply {α : Type} (x : S10000x1.Idx → α) (h : S10000x1.Broadcasts S10000x16) (r : Fin 10000) (k : Fin 16) :
    broadcastTo S10000x16 x h (ix2 r k) = x (ix2 r (0 : Fin 1)) := by
  refine broadcastTo_apply x h (ix2 r k) (ix2 r (0 : Fin 1)) fun ax => ?_
  match ax with
  | ⟨0, _⟩ => rfl
  | ⟨1, _⟩ => rfl

/-- The body's stored value at row `r`, feature `k` of its blocks: the aggregated entry times the row's factor, plus the
    feature's bias, clipped at zero, times the factor again. -/
theorem payload_apply (d : FVec Ideal S10000x1 .f32) (a : FVec Ideal S10000x16 .f32) (b : FVec Ideal S1x16 .f32)
    (r : Fin 10000) (k : Fin 16) :
    k1_pay1 (F := Ideal) d a b (ix2 r k)
      = max (d (ix2 r (0 : Fin 1)) * a (ix2 r k) + b (ix2 (0 : Fin 1) k)) 0 * d (ix2 r (0 : Fin 1)) := by
  unfold k1_pay1
  simp only [shapeCast_self]
  rw [mulf_apply, maximumf_apply, addf_apply, mulf_apply, broadcast_apply, spreadCol_apply, broadcastTo_1b_ab_apply]
  have hzero : (FloatOps.ofBits (F := Ideal) .f32 0x00000000#32 : EReal) = 0 := Ideal.ofBits_zero_f32
  rw [hzero]

/-- The same at any index of the block. -/
theorem payload_at (d : FVec Ideal S10000x1 .f32) (a : FVec Ideal S10000x16 .f32) (b : FVec Ideal S1x16 .f32)
    (j : S10000x16.Idx) :
    k1_pay1 (F := Ideal) d a b j
      = max (d (ix2 (j 0) (0 : Fin 1)) * a j + b (ix2 (0 : Fin 1) (j 1))) 0 * d (ix2 (j 0) (0 : Fin 1)) := by
  obtain ⟨r, k, rfl⟩ : ∃ (r : Fin 10000) (k : Fin 16), j = ix2 r k := ⟨j 0, j 1, eq_ix2 j⟩
  exact payload_apply d a b r k

/-- The epilogue at an index of the result, from the three entries it reads: the aggregated entry at the index itself,
    the factor at the index's row, the bias at the index's feature. -/
theorem epi_at (A : S100000x16.Idx → EReal) (D : S100000x1.Idx → EReal) (B : S1x16.Idx → EReal)
    (r : Fin 100000) (k : Fin 16) (i0 : S100000x16.Idx) (i1 : S100000x1.Idx) (i2 : S1x16.Idx)
    (h0 : i0 = ix2 r k) (h1 : i1 = ix2 r (0 : Fin 1)) (h2 : i2 = ix2 (0 : Fin 1) k) :
    max (D i1 * A i0 + B i2) 0 * D i1
      = Cert.Spec.ep1 A (fun n => D (ix2 n 0)) (fun k => B (ix2 0 k)) r k := by
  subst h0 h1 h2
  rfl

-- the TensorCore's buffer contents when the region is entered: a parameter
variable (V : (c : Dev nD) → (b : Ref sig .tc) → Buf (Elt Ideal) ((c : Thread nD τ).loc b))

/-- The printed index maps over the grid: point `t` takes row block `t` of the aggregated array, of the factor column and of
    the result, and the bias row whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The first layer's epilogue of the arrays the region finds, as a function of the result's index. -/
abbrev epi (c : Dev nD) : S100000x16.Idx → EReal := fun i =>
  Cert.Spec.ep1 (V c main_v28) (fun n => V c main_v17 (ix2 n 0)) (fun k => V c main_v29 (ix2 0 k)) (i 0) (i 1)

/-- What point `t` writes back is row block `t` of the epilogue. -/
theorem flushed_eq (c : Dev nD) (t : Fin cfg1.N) :
    (dat1 (F := Ideal) V c).flushed 3 t = ((cfg1.win 3).blk t).view.read (Elt Ideal) (epi V c) := by
  show (cfg1.win 3).cut (grid1.coords t) ((dat1 (F := Ideal) V c).after 3 t) = _
  rw [after1_3]
  unfold out1_3
  rw [View.canon_unit_zero zeroOff]
  simp only [View.ld_unit_zero (S := S10000x16) zeroOff, View.ld_unit_zero (S := S10000x1) zeroOff, View.ld_unit_zero (S := S1x16) zeroOff]
  funext j
  obtain ⟨e0, e1, e2, e3, e4, e5, e6, e7⟩ := idx_facts t
  refine (payload_at (iblk1 V c 1 t) (iblk1 V c 0 t) (iblk1 V c 2 t) j).trans ?_
  refine epi_at (V c main_v28) (V c main_v17) (V c main_v29)
    ((((cfg1.win 3).blk t).view.emb j) 0) ((((cfg1.win 3).blk t).view.emb j) 1)
    (((cfg1.win 0).blk t).view.emb j) (((cfg1.win 1).blk t).view.emb (ix2 (j 0) (0 : Fin 1)))
    (((cfg1.win 2).blk t).view.emb (ix2 (0 : Fin 1) (j 1))) ?_ ?_ ?_
  · funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 16 + 1 * (j 1).val = win1_3.index t (1 : Fin 2) * 16 + 1 * (j 1).val; omega
  · funext a; apply Fin.ext
    match a with
    | ⟨0, _⟩ => show win1_1.index t (0 : Fin 2) * 10000 + 1 * (j 0).val = win1_3.index t (0 : Fin 2) * 10000 + 1 * (j 0).val; omega
    | ⟨1, _⟩ => show win1_1.index t (1 : Fin 2) * 1 + 1 * 0 = 0; omega
  · funext a; apply Fin.ext
    match a with
    | ⟨0, _⟩ => show win1_2.index t (0 : Fin 2) * 1 + 1 * 0 = 0; omega
    | ⟨1, _⟩ => show win1_2.index t (1 : Fin 2) * 16 + 1 * (j 1).val = win1_3.index t (1 : Fin 2) * 16 + 1 * (j 1).val; omega

/-- An index of the result array is in point `t`'s block iff each coordinate is in the block's range on its axis. -/
theorem mem_blk (t : Fin cfg1.N) (i : S100000x16.Idx) :
    i ∈ ((cfg1.win 3).blk t).view.set ↔ ∀ a : Fin 2, win1_3.index t a * S10000x16.size a ≤ (i a).val ∧ (i a).val < win1_3.index t a * S10000x16.size a + S10000x16.size a := by
  show i ∈ ((View.whole main_v30).slice (win1_3.rect t)).set ↔ _
  rw [View.set_slice_whole, Rect.mem_set_unit]
  exact Iff.rfl

/-- Every row of the result lies in the block of the point numbered by the row's ten-thousands. -/
theorem cover (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  have hN : grid1.N = 10 := N_1
  obtain ⟨t, ht⟩ : ∃ t : Fin cfg1.N, t.val = (i 0).val / 10000 :=
    ⟨⟨(i 0).val / 10000, by show (i 0).val / 10000 < grid1.N; rw [hN]; omega⟩, rfl⟩
  obtain ⟨-, -, -, -, -, -, e6, e7⟩ := idx_facts t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 16 ≤ (i 1).val ∧ (i 1).val < win1_3.index t (1 : Fin 2) * 16 + 16; omega

/-- After the region its output array is, entry by entry, the first layer's epilogue. -/
theorem arr1 (c : Dev nD) :
    (dat1 (F := Ideal) V c).arrAt 3 cfg1.N
      = (fun i : S100000x16.Idx =>
          Cert.Spec.ep1 (V c main_v28) (fun n => V c main_v17 (ix2 n 0)) (fun k => V c main_v29 (ix2 0 k)) (i 0) (i 1)) :=
  (dat1 (F := Ideal) V c).arrAt_eq_of_cover 3 (epi V c) (fun t _ => flushed_eq V c t) cover

end Cert.KernelIdeal.Region1

end
-- ==== Proof.Region2.lean ====
/-
  The third kernel's result array as ONE function of the arrays the region finds: ten row blocks of 10000 rows; row `n` is the
  head applied to the second layer's epilogue of row `n` of the aggregated array (Spec.lean `out2`): every operation of the body
  acts within a row, so a block's rows are the array's.
-/
import proofs.«411965_j11527692222479_3_alg».proof.Proof.Gen.KernelIdeal.Frame
import proofs.«411965_j11527692222479_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ### The product 10000×16 by 16×5: an entry is the sum over the 16 shared coordinates -/

theorem lhs_w2_0 (i : S10000x5.Idx) (q : dot_S10000x16_S16x5_S10000x5_1_0_0_1_n_n.contr.Idx) :
    (dot_S10000x16_S16x5_S10000x5_1_0_0_1_n_n.lhsIdx i q 0).val = (i 0).val := by
  unfold DotDims.lhsIdx
  rw [dif_neg (show ¬(0 : Fin S10000x16.rank) ∈ dot_S10000x16_S16x5_S10000x5_1_0_0_1_n_n.lhsBatch by decide), dif_pos (show (0 : Fin S10000x16.rank) ∈ dot_S10000x16_S16x5_S10000x5_1_0_0_1_n_n.lhsNonContracting by decide)]
  rfl
theorem lhs_w2_1 (i : S10000x5.Idx) (q : dot_S10000x16_S16x5_S10000x5_1_0_0_1_n_n.contr.Idx) :
    (dot_S10000x16_S16x5_S10000x5_1_0_0_1_n_n.lhsIdx i q 1).val = (q ⟨0, by decide⟩).val :=
  dot_S10000x16_S16x5_S10000x5_1_0_0_1_n_n.lhsIdx_val_of_single rfl i q
theorem rhs_w2_0 (i : S10000x5.Idx) (q : dot_S10000x16_S16x5_S10000x5_1_0_0_1_n_n.contr.Idx) :
    (dot_S10000x16_S16x5_S10000x5_1_0_0_1_n_n.rhsIdx i q 0).val = (q ⟨0, by decide⟩).val :=
  dot_S10000x16_S16x5_S10000x5_1_0_0_1_n_n.rhsIdx_val_of_single rfl i q
theorem rhs_w2_1 (i : S10000x5.Idx) (q : dot_S10000x16_S16x5_S10000x5_1_0_0_1_n_n.contr.Idx) :
    (dot_S10000x16_S16x5_S10000x5_1_0_0_1_n_n.rhsIdx i q 1).val = (i 1).val := by
  unfold DotDims.rhsIdx
  rw [dif_neg (show ¬(1 : Fin S16x5.rank) ∈ dot_S10000x16_S16x5_S10000x5_1_0_0_1_n_n.rhsBatch by decide), dif_pos (show (1 : Fin S16x5.rank) ∈ dot_S10000x16_S16x5_S10000x5_1_0_0_1_n_n.rhsNonContracting by decide)]
  rfl

/-- Into a zero accumulator the product's entry at row `r`, column `c` is `∑ k, l (r, k) * w (k, c)`. -/
theorem matmul_w2_apply (l : FVec Ideal S10000x16 .f32) (w : FVec Ideal S16x5 .f32) (r : Fin 10000) (c : Fin 5) :
    matmul dot_S10000x16_S16x5_S10000x5_1_0_0_1_n_n none l w (constant (F := Ideal) S10000x5 .f32 0x00000000#32) (ix2 r c)
      = ∑ k : Fin 16, l (ix2 r k) * w (ix2 k c) := by
  show FloatOps.matmul dot_S10000x16_S16x5_S10000x5_1_0_0_1_n_n none l w (constant (F := Ideal) S10000x5 .f32 0x00000000#32) (ix2 r c) = _
  rw [Ideal.matmul_constant_zero_apply, ← Equiv.sum_comp (contrEquiv1 dot_S10000x16_S16x5_S10000x5_1_0_0_1_n_n 16 rfl rfl).symm]
  refine Finset.sum_congr rfl fun k _ => ?_
  have hk := contrEquiv1_symm_val dot_S10000x16_S16x5_S10000x5_1_0_0_1_n_n 16 rfl rfl k
  have el : dot_S10000x16_S16x5_S10000x5_1_0_0_1_n_n.lhsIdx (ix2 r c) ((contrEquiv1 dot_S10000x16_S16x5_S10000x5_1_0_0_1_n_n 16 rfl rfl).symm k) = ix2 r k := funext fun a => Fin.ext (by
    match a with
    | ⟨0, _⟩ => exact lhs_w2_0 _ _
    | ⟨1, _⟩ => exact (lhs_w2_1 _ _).trans hk)
  have er : dot_S10000x16_S16x5_S10000x5_1_0_0_1_n_n.rhsIdx (ix2 r c) ((contrEquiv1 dot_S10000x16_S16x5_S10000x5_1_0_0_1_n_n 16 rfl rfl).symm k) = ix2 k c := funext fun a => Fin.ext (by
    match a with
    | ⟨0, _⟩ => exact (rhs_w2_0 _ _).trans hk
    | ⟨1, _⟩ => exact rhs_w2_1 _ _)
  rw [el, er]

/-! ### The product 10000×5 by 5×32: an entry is the sum over the 5 shared coordinates -/

theorem lhs_w3_0 (i : S10000x32.Idx) (q : dot_S10000x5_S5x32_S10000x32_1_0_0_1_n_n.contr.Idx) :
    (dot_S10000x5_S5x32_S10000x32_1_0_0_1_n_n.lhsIdx i q 0).val = (i 0).val := by
  unfold DotDims.lhsIdx
  rw [dif_neg (show ¬(0 : Fin S10000x5.rank) ∈ dot_S10000x5_S5x32_S10000x32_1_0_0_1_n_n.lhsBatch by decide), dif_pos (show (0 : Fin S10000x5.rank) ∈ dot_S10000x5_S5x32_S10000x32_1_0_0_1_n_n.lhsNonContracting by decide)]
  rfl
theorem lhs_w3_1 (i : S10000x32.Idx) (q : dot_S10000x5_S5x32_S10000x32_1_0_0_1_n_n.contr.Idx) :
    (dot_S10000x5_S5x32_S10000x32_1_0_0_1_n_n.lhsIdx i q 1).val = (q ⟨0, by decide⟩).val :=
  dot_S10000x5_S5x32_S10000x32_1_0_0_1_n_n.lhsIdx_val_of_single rfl i q
theorem rhs_w3_0 (i : S10000x32.Idx) (q : dot_S10000x5_S5x32_S10000x32_1_0_0_1_n_n.contr.Idx) :
    (dot_S10000x5_S5x32_S10000x32_1_0_0_1_n_n.rhsIdx i q 0).val = (q ⟨0, by decide⟩).val :=
  dot_S10000x5_S5x32_S10000x32_1_0_0_1_n_n.rhsIdx_val_of_single rfl i q
theorem rhs_w3_1 (i : S10000x32.Idx) (q : dot_S10000x5_S5x32_S10000x32_1_0_0_1_n_n.contr.Idx) :
    (dot_S10000x5_S5x32_S10000x32_1_0_0_1_n_n.rhsIdx i q 1).val = (i 1).val := by
  unfold DotDims.rhsIdx
  rw [dif_neg (show ¬(1 : Fin S5x32.rank) ∈ dot_S10000x5_S5x32_S10000x32_1_0_0_1_n_n.rhsBatch by decide), dif_pos (show (1 : Fin S5x32.rank) ∈ dot_S10000x5_S5x32_S10000x32_1_0_0_1_n_n.rhsNonContracting by decide)]
  rfl

/-- Into a zero accumulator the product's entry at row `r`, column `c` is `∑ k, l (r, k) * w (k, c)`. -/
theorem matmul_w3_apply (l : FVec Ideal S10000x5 .f32) (w : FVec Ideal S5x32 .f32) (r : Fin 10000) (c : Fin 32) :
    matmul dot_S10000x5_S5x32_S10000x32_1_0_0_1_n_n none l w (constant (F := Ideal) S10000x32 .f32 0x00000000#32) (ix2 r c)
      = ∑ k : Fin 5, l (ix2 r k) * w (ix2 k c) := by
  show FloatOps.matmul dot_S10000x5_S5x32_S10000x32_1_0_0_1_n_n none l w (constant (F := Ideal) S10000x32 .f32 0x00000000#32) (ix2 r c) = _
  rw [Ideal.matmul_constant_zero_apply, ← Equiv.sum_comp (contrEquiv1 dot_S10000x5_S5x32_S10000x32_1_0_0_1_n_n 5 rfl rfl).symm]
  refine Finset.sum_congr rfl fun k _ => ?_
  have hk := contrEquiv1_symm_val dot_S10000x5_S5x32_S10000x32_1_0_0_1_n_n 5 rfl rfl k
  have el : dot_S10000x5_S5x32_S10000x32_1_0_0_1_n_n.lhsIdx (ix2 r c) ((contrEquiv1 dot_S10000x5_S5x32_S10000x32_1_0_0_1_n_n 5 rfl rfl).symm k) = ix2 r k := funext fun a => Fin.ext (by
    match a with
    | ⟨0, _⟩ => exact lhs_w3_0 _ _
    | ⟨1, _⟩ => exact (lhs_w3_1 _ _).trans hk)
  have er : dot_S10000x5_S5x32_S10000x32_1_0_0_1_n_n.rhsIdx (ix2 r c) ((contrEquiv1 dot_S10000x5_S5x32_S10000x32_1_0_0_1_n_n 5 rfl rfl).symm k) = ix2 k c := funext fun a => Fin.ext (by
    match a with
    | ⟨0, _⟩ => exact (rhs_w3_0 _ _).trans hk
    | ⟨1, _⟩ => exact rhs_w3_1 _ _)
  rw [el, er]

/-! ### The product 10000×32 by 32×5: an entry is the sum over the 32 shared coordinates -/

theorem lhs_w4_0 (i : S10000x5.Idx) (q : dot_S10000x32_S32x5_S10000x5_1_0_0_1_n_n.contr.Idx) :
    (dot_S10000x32_S32x5_S10000x5_1_0_0_1_n_n.lhsIdx i q 0).val = (i 0).val := by
  unfold DotDims.lhsIdx
  rw [dif_neg (show ¬(0 : Fin S10000x32.rank) ∈ dot_S10000x32_S32x5_S10000x5_1_0_0_1_n_n.lhsBatch by decide), dif_pos (show (0 : Fin S10000x32.rank) ∈ dot_S10000x32_S32x5_S10000x5_1_0_0_1_n_n.lhsNonContracting by decide)]
  rfl
theorem lhs_w4_1 (i : S10000x5.Idx) (q : dot_S10000x32_S32x5_S10000x5_1_0_0_1_n_n.contr.Idx) :
    (dot_S10000x32_S32x5_S10000x5_1_0_0_1_n_n.lhsIdx i q 1).val = (q ⟨0, by decide⟩).val :=
  dot_S10000x32_S32x5_S10000x5_1_0_0_1_n_n.lhsIdx_val_of_single rfl i q
theorem rhs_w4_0 (i : S10000x5.Idx) (q : dot_S10000x32_S32x5_S10000x5_1_0_0_1_n_n.contr.Idx) :
    (dot_S10000x32_S32x5_S10000x5_1_0_0_1_n_n.rhsIdx i q 0).val = (q ⟨0, by decide⟩).val :=
  dot_S10000x32_S32x5_S10000x5_1_0_0_1_n_n.rhsIdx_val_of_single rfl i q
theorem rhs_w4_1 (i : S10000x5.Idx) (q : dot_S10000x32_S32x5_S10000x5_1_0_0_1_n_n.contr.Idx) :
    (dot_S10000x32_S32x5_S10000x5_1_0_0_1_n_n.rhsIdx i q 1).val = (i 1).val := by
  unfold DotDims.rhsIdx
  rw [dif_neg (show ¬(1 : Fin S32x5.rank) ∈ dot_S10000x32_S32x5_S10000x5_1_0_0_1_n_n.rhsBatch by decide), dif_pos (show (1 : Fin S32x5.rank) ∈ dot_S10000x32_S32x5_S10000x5_1_0_0_1_n_n.rhsNonContracting by decide)]
  rfl

/-- Into a zero accumulator the product's entry at row `r`, column `c` is `∑ k, l (r, k) * w (k, c)`. -/
theorem matmul_w4_apply (l : FVec Ideal S10000x32 .f32) (w : FVec Ideal S32x5 .f32) (r : Fin 10000) (c : Fin 5) :
    matmul dot_S10000x32_S32x5_S10000x5_1_0_0_1_n_n none l w (constant (F := Ideal) S10000x5 .f32 0x00000000#32) (ix2 r c)
      = ∑ k : Fin 32, l (ix2 r k) * w (ix2 k c) := by
  show FloatOps.matmul dot_S10000x32_S32x5_S10000x5_1_0_0_1_n_n none l w (constant (F := Ideal) S10000x5 .f32 0x00000000#32) (ix2 r c) = _
  rw [Ideal.matmul_constant_zero_apply, ← Equiv.sum_comp (contrEquiv1 dot_S10000x32_S32x5_S10000x5_1_0_0_1_n_n 32 rfl rfl).symm]
  refine Finset.sum_congr rfl fun k _ => ?_
  have hk := contrEquiv1_symm_val dot_S10000x32_S32x5_S10000x5_1_0_0_1_n_n 32 rfl rfl k
  have el : dot_S10000x32_S32x5_S10000x5_1_0_0_1_n_n.lhsIdx (ix2 r c) ((contrEquiv1 dot_S10000x32_S32x5_S10000x5_1_0_0_1_n_n 32 rfl rfl).symm k) = ix2 r k := funext fun a => Fin.ext (by
    match a with
    | ⟨0, _⟩ => exact lhs_w4_0 _ _
    | ⟨1, _⟩ => exact (lhs_w4_1 _ _).trans hk)
  have er : dot_S10000x32_S32x5_S10000x5_1_0_0_1_n_n.rhsIdx (ix2 r c) ((contrEquiv1 dot_S10000x32_S32x5_S10000x5_1_0_0_1_n_n 32 rfl rfl).symm k) = ix2 k c := funext fun a => Fin.ext (by
    match a with
    | ⟨0, _⟩ => exact (rhs_w4_0 _ _).trans hk
    | ⟨1, _⟩ => exact rhs_w4_1 _ _)
  rw [el, er]

/-! ### A column kept as an `[a, 1]` array: cast from a vector, and spread over the lanes -/

/-- An `[a]` vector cast to the column `[a, 1]` reads, at `(r, u)`, the vector at `r`. -/
theorem shapeCast_a_a1_apply {α : Type} {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` spread to `[a, b]` reads, at `(r, c)`, the column at row `r`. -/
theorem broadcastTo_a1_ab_apply {α : Type} {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ### The body's stages on a block of 10000 rows, each read at a row and a lane

  Every stage acts within a row: the second layer's epilogue `d · (a·W2) + b2`, the hidden row `max (· W3 + b3) 0`, the logits
  `· W4 + b4`, the row's maximum, and the log of the row's sum of exponentials. -/

/-- The second layer's epilogue on a block: the node factor times the product with the second weight, plus the bias row. -/
def epilogue (d : FVec Ideal S10000x1 .f32) (a : FVec Ideal S10000x16 .f32) (w2 : FVec Ideal S16x5 .f32) (b2 : FVec Ideal S1x5 .f32) :
    FVec Ideal S10000x5 .f32 :=
  addf (mulf (broadcastTo S10000x5 (shapeCast S10000x1 d shapeCasts_S10000x1_S10000x1) broadcasts_S10000x1_S10000x5)
      (matmul dot_S10000x16_S16x5_S10000x5_1_0_0_1_n_n none (shapeCast S10000x16 a shapeCasts_S10000x16_S10000x16) w2
        (constant (F := Ideal) S10000x5 .f32 0x00000000#32)))
    (broadcastTo S10000x5 (shapeCast S1x5 b2 shapeCasts_S1x5_S1x5) broadcasts_S1x5_S10000x5)

theorem epilogue_apply (d : FVec Ideal S10000x1 .f32) (a : FVec Ideal S10000x16 .f32) (w2 : FVec Ideal S16x5 .f32) (b2 : FVec Ideal S1x5 .f32)
    (r : Fin 10000) (c : Fin 5) :
    epilogue d a w2 b2 (ix2 r c) = d (ix2 r 0) * (∑ k : Fin 16, a (ix2 r k) * w2 (ix2 k c)) + b2 (ix2 0 c) := by
  unfold epilogue
  rw [addf_apply, mulf_apply, broadcastTo_a1_ab_apply, broadcastTo_1b_ab_apply, matmul_w2_apply, shapeCast_self, shapeCast_self,
    shapeCast_self]

/-- The hidden rows of the head on a block: the product with the third weight, plus the bias row, clipped at zero. -/
def hidden (e : FVec Ideal S10000x5 .f32) (w3 : FVec Ideal S5x32 .f32) (b3 : FVec Ideal S1x32 .f32) : FVec Ideal S10000x32 .f32 :=
  maximumf (addf (matmul dot_S10000x5_S5x32_S10000x32_1_0_0_1_n_n none e w3 (constant (F := Ideal) S10000x32 .f32 0x00000000#32))
      (broadcastTo S10000x32 (shapeCast S1x32 b3 shapeCasts_S1x32_S1x32) broadcasts_S1x32_S10000x32))
    (broadcast S10000x32 (Scalar.ofBits (F := Ideal) .f32 0x00000000#32))

theorem hidden_apply (e : FVec Ideal S10000x5 .f32) (w3 : FVec Ideal S5x32 .f32) (b3 : FVec Ideal S1x32 .f32) (r : Fin 10000) (j : Fin 32) :
    hidden e w3 b3 (ix2 r j) = Cert.Spec.hid (fun c => e (ix2 r c)) w3 (fun j => b3 (ix2 0 j)) j := by
  unfold hidden Cert.Spec.hid
  rw [maximumf_apply, addf_apply, broadcast_apply, broadcastTo_1b_ab_apply, matmul_w3_apply, shapeCast_self]
  show max _ (Ideal.ofBits .f32 0x00000000#32) = _
  rw [Ideal.ofBits_zero_f32]

/-- The logits on a block: the product with the fourth weight, plus the bias row. -/
def logits (h : FVec Ideal S10000x32 .f32) (w4 : FVec Ideal S32x5 .f32) (b4 : FVec Ideal S1x5 .f32) : FVec Ideal S10000x5 .f32 :=
  addf (matmul dot_S10000x32_S32x5_S10000x5_1_0_0_1_n_n none h w4 (constant (F := Ideal) S10000x5 .f32 0x00000000#32))
    (broadcastTo S10000x5 (shapeCast S1x5 b4 shapeCasts_S1x5_S1x5) broadcasts_S1x5_S10000x5)

theorem logits_apply (h : FVec Ideal S10000x32 .f32) (w4 : FVec Ideal S32x5 .f32) (b4 : FVec Ideal S1x5 .f32) (r : Fin 10000) (c : Fin 5) :
    logits h w4 b4 (ix2 r c) = (∑ j : Fin 32, h (ix2 r j) * w4 (ix2 j c)) + b4 (ix2 0 c) := by
  unfold logits
  rw [addf_apply, broadcastTo_1b_ab_apply, matmul_w4_apply, shapeCast_self]

/-- Row `r` with lane `c` put back on the reduced axis is the block's index `(r, c)`. -/
theorem lift_row (r : Fin 10000) (c : Fin 5) : reduces_S10000x5_S10000.lift (ix1 r) c = ix2 r c :=
  funext fun a => Fin.ext (by match a with | ⟨0, _⟩ => rfl | ⟨1, _⟩ => rfl)

/-- The rows' maxima as a column: the maximum over the five lanes, folded from minus infinity. -/
def rowMaxCol (z : FVec Ideal S10000x5 .f32) : FVec Ideal S10000x1 .f32 :=
  shapeCast S10000x1 (multiReduction (F := Ideal) .maximumf [1] S10000 z 0xFF800000#32 reduces_S10000x5_S10000 (.inl rfl) rfl)
    shapeCasts_S10000_S10000x1

theorem rowMaxCol_apply (z : FVec Ideal S10000x5 .f32) (r : Fin 10000) (u : Fin 1) :
    rowMaxCol z (ix2 r u) = Cert.Spec.rowMax (fun c => z (ix2 r c)) := by
  unfold rowMaxCol Cert.Spec.rowMax
  rw [shapeCast_a_a1_apply]
  refine (Ideal.multiReduction_maximumf_single z 0xFF800000#32 reduces_S10000x5_S10000 (.inl rfl) rfl (ix1 r)).trans ?_
  exact congrArg (fun f : Fin 5 → EReal => (Finset.univ : Finset (Fin 5)).fold max (Ideal.ofBits .f32 0xFF800000#32) f)
    (funext fun c => congrArg z (lift_row r c))

/-- The log of each row's sum of exponentials, as a column. -/
def logSumExpCol (y : FVec Ideal S10000x5 .f32) : FVec Ideal S10000x1 .f32 :=
  Idealize.ShloMosaic.log (shapeCast S10000x1
    (multiReduction (F := Ideal) .add [1] S10000 (Idealize.ShloMosaic.exp y) 0x00000000#32 reduces_S10000x5_S10000 (.inl rfl) rfl)
    shapeCasts_S10000_S10000x1)

theorem logSumExpCol_apply (y : FVec Ideal S10000x5 .f32) (r : Fin 10000) (u : Fin 1) :
    logSumExpCol y (ix2 r u) = Ideal.log (∑ c : Fin 5, Ideal.exp (y (ix2 r c))) := by
  unfold logSumExpCol
  show Ideal.log (shapeCast S10000x1 _ shapeCasts_S10000_S10000x1 (ix2 r u)) = _
  rw [shapeCast_a_a1_apply]
  refine congrArg Ideal.log ((Ideal.multiReduction_add_single (Idealize.ShloMosaic.exp y) 0x00000000#32 reduces_S10000x5_S10000
    (.inl rfl) rfl (ix1 r)).trans ?_)
  show ∑ c : Fin 5, Ideal.exp (y (reduces_S10000x5_S10000.lift (ix1 r) c)) = _
  simp only [lift_row]

/-- The log-softmax of each row of a block: the row minus its maximum, minus the log of the sum of the exponentials of that. -/
def logSoftmax (z : FVec Ideal S10000x5 .f32) : FVec Ideal S10000x5 .f32 :=
  subf (subf z (broadcastTo S10000x5 (rowMaxCol z) broadcasts_S10000x1_S10000x5))
    (broadcastTo S10000x5 (logSumExpCol (subf z (broadcastTo S10000x5 (rowMaxCol z) broadcasts_S10000x1_S10000x5)))
      broadcasts_S10000x1_S10000x5)

theorem logSoftmax_apply (z : FVec Ideal S10000x5 .f32) (r : Fin 10000) (c : Fin 5) :
    logSoftmax z (ix2 r c) = Cert.Spec.lsm (fun c' => z (ix2 r c')) c := by
  unfold logSoftmax Cert.Spec.lsm
  rw [subf_apply, subf_apply, broadcastTo_a1_ab_apply, broadcastTo_a1_ab_apply, rowMaxCol_apply, logSumExpCol_apply]
  simp only [subf_apply, broadcastTo_a1_ab_apply, rowMaxCol_apply]

/-- The body's stored value is the log-softmax of the logits of the hidden rows of the second layer's epilogue. -/
theorem body_eq (d : FVec Ideal S10000x1 .f32) (a : FVec Ideal S10000x16 .f32) (w2 : FVec Ideal S16x5 .f32) (b2 : FVec Ideal S1x5 .f32)
    (w3 : FVec Ideal S5x32 .f32) (b3 : FVec Ideal S1x32 .f32) (w4 : FVec Ideal S32x5 .f32) (b4 : FVec Ideal S1x5 .f32) :
    k2_pay1 (F := Ideal) (k2_pay4 (F := Ideal) d a w2 b2 w3 b3 w4 b4) (k2_pay5 (F := Ideal) d a w2 b2 w3 b3 w4 b4)
      = logSoftmax (logits (hidden (epilogue d a w2 b2) w3 b3) w4 b4) := rfl

/-- The body's stored value at row `r`, class `c` of a block: the tail of the network on the second layer's epilogue of that row. -/
theorem body_apply (d : FVec Ideal S10000x1 .f32) (a : FVec Ideal S10000x16 .f32) (w2 : FVec Ideal S16x5 .f32) (b2 : FVec Ideal S1x5 .f32)
    (w3 : FVec Ideal S5x32 .f32) (b3 : FVec Ideal S1x32 .f32) (w4 : FVec Ideal S32x5 .f32) (b4 : FVec Ideal S1x5 .f32)
    (r : Fin 10000) (c : Fin 5) :
    k2_pay1 (F := Ideal) (k2_pay4 (F := Ideal) d a w2 b2 w3 b3 w4 b4) (k2_pay5 (F := Ideal) d a w2 b2 w3 b3 w4 b4) (ix2 r c)
      = Cert.Spec.tail (fun c' => d (ix2 r 0) * (∑ k : Fin 16, a (ix2 r k) * w2 (ix2 k c')) + b2 (ix2 0 c')) w3
          (fun j => b3 (ix2 0 j)) w4 (fun k => b4 (ix2 0 k)) c := by
  rw [body_eq, logSoftmax_apply]
  unfold Cert.Spec.tail Cert.Spec.logit
  simp only [logits_apply, hidden_apply, epilogue_apply]

-- the TensorCore's buffer contents when the region is entered: a parameter
variable (V : (c : Dev nD) → (b : Ref sig .tc) → Buf (Elt Ideal) ((c : Thread nD τ).loc b))

/-! ### From the blocks to the array

  Point `t` of the ten stages rows `10000·t … 10000·t + 9999` of the aggregated array and of the node factors, and the weights and
  biases whole; it writes back the same rows of the result. -/

theorem zero_off : (![0, 0] : Fin 2 → Nat) = fun _ => 0 := funext fun a => by fin_cases a <;> rfl

/-- The printed index maps over the ten points: the three row windows sit at block `t`, the weights and biases at block zero. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- Row `r` of point `t`'s block of the aggregated array is the array's row `10000·t + r`. -/
theorem blk_agg (c : Dev nD) (t : Fin cfg2.N) (r : Fin 10000) (k : Fin 16) (n : Fin 100000) (hn : n.val = t.val * 10000 + r.val) :
    (iblk2 V c 0 t : Vec Ideal S10000x16 .f32) (ix2 r k) = (V c main_v40 : S100000x16.Idx → Elt Ideal .f32) (ix2 n k) := by
  obtain ⟨e0, e1, -⟩ := index_facts t
  unfold iblk2
  rw [View.read_apply]
  show (V c main_v40 : S100000x16.Idx → Elt Ideal .f32) _ = _
  refine congrArg (V c main_v40 : S100000x16.Idx → Elt Ideal .f32) (funext fun a => Fin.ext ?_)
  match a with
  | ⟨0, _⟩ => show win2_0.index t (0 : Fin 2) * 10000 + 1 * r.val = n.val; rw [e0, hn]; omega
  | ⟨1, _⟩ => show win2_0.index t (1 : Fin 2) * 16 + 1 * k.val = k.val; rw [e1]; omega

/-- Row `r` of point `t`'s block of the node factors is the column's row `10000·t + r`. -/
theorem blk_fac (c : Dev nD) (t : Fin cfg2.N) (r : Fin 10000) (n : Fin 100000) (hn : n.val = t.val * 10000 + r.val) :
    (iblk2 V c 1 t : Vec Ideal S10000x1 .f32) (ix2 r 0) = (V c main_v17 : S100000x1.Idx → Elt Ideal .f32) (ix2 n 0) := by
  obtain ⟨-, -, e0, e1, -⟩ := index_facts t
  unfold iblk2
  rw [View.read_apply]
  show (V c main_v17 : S100000x1.Idx → Elt Ideal .f32) _ = _
  refine congrArg (V c main_v17 : S100000x1.Idx → Elt Ideal .f32) (funext fun a => Fin.ext ?_)
  match a with
  | ⟨0, _⟩ => show win2_1.index t (0 : Fin 2) * 10000 + 1 * r.val = n.val; rw [e0, hn]; omega
  | ⟨1, _⟩ => show win2_1.index t (1 : Fin 2) * 1 + 1 * 0 = 0; rw [e1]

/-- The second weight is staged whole at every point. -/
theorem blk_w2 (c : Dev nD) (t : Fin cfg2.N) :
    (iblk2 V c 2 t : Vec Ideal S16x5 .f32) = (V c main_arg4 : S16x5.Idx → Elt Ideal .f32) := by
  obtain ⟨-, -, -, -, e0, e1, -⟩ := index_facts t
  funext x
  unfold iblk2
  rw [View.read_apply]
  show (V c main_arg4 : S16x5.Idx → Elt Ideal .f32) _ = _
  refine congrArg (V c main_arg4 : S16x5.Idx → Elt Ideal .f32) (funext fun a => Fin.ext ?_)
  match a with
  | ⟨0, _⟩ => show win2_2.index t (0 : Fin 2) * 16 + 1 * (x 0).val = (x 0).val; rw [e0]; omega
  | ⟨1, _⟩ => show win2_2.index t (1 : Fin 2) * 5 + 1 * (x 1).val = (x 1).val; rw [e1]; omega

/-- The second bias row is staged whole at every point. -/
theorem blk_b2 (c : Dev nD) (t : Fin cfg2.N) :
    (iblk2 V c 3 t : Vec Ideal S1x5 .f32) = (V c main_v41 : S1x5.Idx → Elt Ideal .f32) := by
  obtain ⟨-, -, -, -, -, -, e0, e1, -⟩ := index_facts t
  funext x
  unfold iblk2
  rw [View.read_apply]
  show (V c main_v41 : S1x5.Idx → Elt Ideal .f32) _ = _
  refine congrArg (V c main_v41 : S1x5.Idx → Elt Ideal .f32) (funext fun a => Fin.ext ?_)
  match a with
  | ⟨0, _⟩ => show win2_3.index t (0 : Fin 2) * 1 + 1 * (x 0).val = (x 0).val; rw [e0]; omega
  | ⟨1, _⟩ => show win2_3.index t (1 : Fin 2) * 5 + 1 * (x 1).val = (x 1).val; rw [e1]; omega

/-- The third weight is staged whole at every point. -/
theorem blk_w3 (c : Dev nD) (t : Fin cfg2.N) :
    (iblk2 V c 4 t : Vec Ideal S5x32 .f32) = (V c main_arg6 : S5x32.Idx → Elt Ideal .f32) := by
  obtain ⟨-, -, -, -, -, -, -, -, e0, e1, -⟩ := index_facts t
  funext x
  unfold iblk2
  rw [View.read_apply]
  show (V c main_arg6 : S5x32.Idx → Elt Ideal .f32) _ = _
  refine congrArg (V c main_arg6 : S5x32.Idx → Elt Ideal .f32) (funext fun a => Fin.ext ?_)
  match a with
  | ⟨0, _⟩ => show win2_4.index t (0 : Fin 2) * 5 + 1 * (x 0).val = (x 0).val; rw [e0]; omega
  | ⟨1, _⟩ => show win2_4.index t (1 : Fin 2) * 32 + 1 * (x 1).val = (x 1).val; rw [e1]; omega

/-- The third bias row is staged whole at every point. -/
theorem blk_b3 (c : Dev nD) (t : Fin cfg2.N) :
    (iblk2 V c 5 t : Vec Ideal S1x32 .f32) = (V c main_v42 : S1x32.Idx → Elt Ideal .f32) := by
  obtain ⟨-, -, -, -, -, -, -, -, -, -, e0, e1, -⟩ := index_facts t
  funext x
  unfold iblk2
  rw [View.read_apply]
  show (V c main_v42 : S1x32.Idx → Elt Ideal .f32) _ = _
  refine congrArg (V c main_v42 : S1x32.Idx → Elt Ideal .f32) (funext fun a => Fin.ext ?_)
  match a with
  | ⟨0, _⟩ => show win2_5.index t (0 : Fin 2) * 1 + 1 * (x 0).val = (x 0).val; rw [e0]; omega
  | ⟨1, _⟩ => show win2_5.index t (1 : Fin 2) * 32 + 1 * (x 1).val = (x 1).val; rw [e1]; omega

/-- The fourth weight is staged whole at every point. -/
theorem blk_w4 (c : Dev nD) (t : Fin cfg2.N) :
    (iblk2 V c 6 t : Vec Ideal S32x5 .f32) = (V c main_arg8 : S32x5.Idx → Elt Ideal .f32) := by
  obtain ⟨-, -, -, -, -, -, -, -, -, -, -, -, e0, e1, -⟩ := index_facts t
  funext x
  unfold iblk2
  rw [View.read_apply]
  show (V c main_arg8 : S32x5.Idx → Elt Ideal .f32) _ = _
  refine congrArg (V c main_arg8 : S32x5.Idx → Elt Ideal .f32) (funext fun a => Fin.ext ?_)
  match a with
  | ⟨0, _⟩ => show win2_6.index t (0 : Fin 2) * 32 + 1 * (x 0).val = (x 0).val; rw [e0]; omega
  | ⟨1, _⟩ => show win2_6.index t (1 : Fin 2) * 5 + 1 * (x 1).val = (x 1).val; rw [e1]; omega

/-- The fourth bias row is staged whole at every point. -/
theorem blk_b4 (c : Dev nD) (t : Fin cfg2.N) :
    (iblk2 V c 7 t : Vec Ideal S1x5 .f32) = (V c main_v43 : S1x5.Idx → Elt Ideal .f32) := by
  obtain ⟨-, -, -, -, -, -, -, -, -, -, -, -, -, -, e0, e1, -⟩ := index_facts t
  funext x
  unfold iblk2
  rw [View.read_apply]
  show (V c main_v43 : S1x5.Idx → Elt Ideal .f32) _ = _
  refine congrArg (V c main_v43 : S1x5.Idx → Elt Ideal .f32) (funext fun a => Fin.ext ?_)
  match a with
  | ⟨0, _⟩ => show win2_7.index t (0 : Fin 2) * 1 + 1 * (x 0).val = (x 0).val; rw [e0]; omega
  | ⟨1, _⟩ => show win2_7.index t (1 : Fin 2) * 5 + 1 * (x 1).val = (x 1).val; rw [e1]; omega

/-- An entry of the body's stored block, for a block whose rows are the arrays' rows from `o` on: the result's entry at the
    array row `o + r`. Stated over the block's and the array's own index types, the two indices tied by their coordinates. -/
theorem block_entry (A : S100000x16.Idx → EReal) (D : S100000x1.Idx → EReal) (w2 : FVec Ideal S16x5 .f32) (b2 : FVec Ideal S1x5 .f32)
    (w3 : FVec Ideal S5x32 .f32) (b3 : FVec Ideal S1x32 .f32) (w4 : FVec Ideal S32x5 .f32) (b4 : FVec Ideal S1x5 .f32)
    (a : FVec Ideal S10000x16 .f32) (d : FVec Ideal S10000x1 .f32) (y : S10000x5.Idx) (i : S100000x5.Idx) (o : Nat)
    (hi0 : (i 0).val = o + (y 0).val) (hi1 : (i 1).val = (y 1).val)
    (ha : ∀ (r : Fin 10000) (k : Fin 16) (n : Fin 100000), n.val = o + r.val → a (ix2 r k) = A (ix2 n k))
    (hd : ∀ (r : Fin 10000) (n : Fin 100000), n.val = o + r.val → d (ix2 r 0) = D (ix2 n 0)) :
    k2_pay1 (F := Ideal) (k2_pay4 (F := Ideal) d a w2 b2 w3 b3 w4 b4) (k2_pay5 (F := Ideal) d a w2 b2 w3 b3 w4 b4) y
      = Cert.Spec.out2 A (fun n => D (ix2 n 0)) w2 (fun k => b2 (ix2 0 k)) w3 (fun j => b3 (ix2 0 j)) w4 (fun k => b4 (ix2 0 k))
          (i 0) (i 1) := by
  obtain ⟨r, c', rfl⟩ : ∃ (r : Fin 10000) (c' : Fin 5), y = ix2 r c' := ⟨y 0, y 1, eq_ix2 y⟩
  obtain ⟨n, c'', rfl⟩ : ∃ (n : Fin 100000) (c'' : Fin 5), i = ix2 n c'' := ⟨i 0, i 1, eq_ix2 i⟩
  have hn : n.val = o + r.val := hi0
  have hc : c'' = c' := Fin.ext hi1
  subst hc
  rw [body_apply]
  show _ = Cert.Spec.out2 A (fun n => D (ix2 n 0)) w2 (fun k => b2 (ix2 0 k)) w3 (fun j => b3 (ix2 0 j)) w4 (fun k => b4 (ix2 0 k)) n c''
  unfold Cert.Spec.out2 Cert.Spec.h2
  simp only [ha r _ n hn, hd r n hn]

/-- The result array: row `n` is the tail of the network on the second layer's epilogue of row `n`. -/
abbrev result (c : Dev nD) : S100000x5.Idx → EReal := fun i =>
  Cert.Spec.out2 (V c main_v40) (fun n => V c main_v17 (ix2 n 0)) (V c main_arg4) (fun k => V c main_v41 (ix2 0 k))
    (V c main_arg6) (fun j => V c main_v42 (ix2 0 j)) (V c main_arg8) (fun k => V c main_v43 (ix2 0 k)) (i 0) (i 1)

/-- What point `t` writes back is block `t` of the result array. -/
theorem flushed_eq (c : Dev nD) (t : Fin cfg2.N) :
    (dat2 (F := Ideal) V c).flushed 8 t = ((cfg2.win 8).blk t).view.read (Elt Ideal) (result V c) := by
  show (cfg2.win 8).cut (grid2.coords t) ((dat2 (F := Ideal) V c).after 8 t) = _
  rw [after2_8]
  unfold out2_8
  rw [View.canon_unit_zero zero_off]
  simp only [View.ld_unit_zero (S := S10000x1) zero_off, View.ld_unit_zero (S := S10000x16) zero_off,
    View.ld_unit_zero (S := S16x5) zero_off, View.ld_unit_zero (S := S1x5) zero_off, View.ld_unit_zero (S := S5x32) zero_off,
    View.ld_unit_zero (S := S1x32) zero_off, View.ld_unit_zero (S := S32x5) zero_off]
  rw [blk_w2 V c t, blk_b2 V c t, blk_w3 V c t, blk_b3 V c t, blk_w4 V c t, blk_b4 V c t]
  obtain ⟨-, -, -, -, -, -, -, -, -, -, -, -, -, -, -, -, e0, e1⟩ := index_facts t
  funext y
  refine block_entry (V c main_v40) (V c main_v17) (V c main_arg4) (V c main_v41) (V c main_arg6) (V c main_v42) (V c main_arg8)
    (V c main_v43) (iblk2 V c 0 t) (iblk2 V c 1 t) ((cfg2.win 8).xinj (grid2.coords t) y) (((cfg2.win 8).blk t).view.emb y)
    (t.val * 10000) ?_ ?_ (fun r k n hn => blk_agg V c t r k n hn) (fun r n hn => blk_fac V c t r n hn)
  · show win2_8.index t (0 : Fin 2) * 10000 + 1 * (y 0).val = t.val * 10000 + (y 0).val
    rw [e0]; omega
  · show win2_8.index t (1 : Fin 2) * 5 + 1 * (y 1).val = (y 1).val
    rw [e1]; omega

/-- An index of the result array is in point `t`'s block iff each coordinate is in the block's range on its axis. -/
theorem mem_blk (t : Fin cfg2.N) (i : S100000x5.Idx) :
    i ∈ ((cfg2.win 8).blk t).view.set
      ↔ ∀ a : Fin 2, win2_8.index t a * S10000x5.size a ≤ (i a).val ∧ (i a).val < win2_8.index t a * S10000x5.size a + S10000x5.size a := by
  show i ∈ ((View.whole main_v44).slice (win2_8.rect t)).set ↔ _
  rw [View.set_slice_whole, Rect.mem_set_unit]
  exact Iff.rfl

/-- Row `n` of the result array is in the block of point `n / 10000`: the ten blocks cover the array. -/
theorem covered (i : S100000x5.Idx) :
    ∃ t : Fin cfg2.N, (cfg2.win 8).flush t = true ∧ i ∈ ((cfg2.win 8).blk t).view.set := by
  have hi0 : (i 0).val < 100000 := (i 0).isLt
  have hi1 : (i 1).val < 5 := (i 1).isLt
  have hN : cfg2.N = 10 := N_2
  have ht : (i 0).val / 10000 < cfg2.N := by rw [hN]; omega
  obtain ⟨-, -, -, -, -, -, -, -, -, -, -, -, -, -, -, -, e0, e1⟩ := index_facts ⟨(i 0).val / 10000, ht⟩
  refine ⟨⟨(i 0).val / 10000, ht⟩, flush2_8 _, ?_⟩
  rw [mem_blk]
  intro a
  match a with
  | ⟨0, _⟩ =>
    show win2_8.index ⟨(i 0).val / 10000, ht⟩ (0 : Fin 2) * 10000 ≤ (i 0).val
      ∧ (i 0).val < win2_8.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win2_8.index ⟨(i 0).val / 10000, ht⟩ (1 : Fin 2) * 5 ≤ (i 1).val
      ∧ (i 1).val < win2_8.index ⟨(i 0).val / 10000, ht⟩ (1 : Fin 2) * 5 + 5
    rw [e1]; omega

/-- After the region its output array is, row by row, the second layer's epilogue followed by the head and the log-softmax. -/
theorem arr2 (c : Dev nD) :
    (dat2 (F := Ideal) V c).arrAt 8 cfg2.N
      = (fun i : S100000x5.Idx =>
          Cert.Spec.out2 (V c main_v40) (fun n => V c main_v17 (ix2 n 0)) (V c main_arg4) (fun k => V c main_v41 (ix2 0 k))
            (V c main_arg6) (fun j => V c main_v42 (ix2 0 j)) (V c main_arg8) (fun k => V c main_v43 (ix2 0 k)) (i 0) (i 1)) :=
  (dat2 (F := Ideal) V c).arrAt_eq_of_cover 8 (result V c) (fun t _ => flushed_eq V c t) covered

end Cert.KernelIdeal.Region2

end
-- ==== Proof.KVal.lean ====
/-
  The idealized kernel's result as ONE function of the ten argument arrays: the three kernels' whole-array functions
  (Spec.lean) composed with the gathers along the edges' sources and the accumulating scatters onto their destinations.
  The graph's pieces shared by both programs — the node factor, the edges' source and destination words — are the reference's
  own stage functions, so that the two sides name them by one term.
-/
import proofs.«411965_j11527692222479_3_alg».proof.Proof.RefRead
import proofs.«411965_j11527692222479_3_alg».proof.Proof.Spec

noncomputable section

namespace Cert.KVal

open Cert.ReferenceIdeal Cert.ReferenceIdeal.ReadP Idealize.ShloMosaic Idealize.ShloMosaic.ValueIdx

/-- The node factor: the inverse square root of the in-degree (self loop counted), zero where the degree is not positive. -/
def dinv (x1 : (⟨S2x6400000, .i32⟩ : BufTy).Contents (Elt Ideal)) : Fin 100000 → EReal :=
  fun n => val_main_v16 (F := Ideal) x1 (ix1 n)

/-- The first table: the rows of `x · W1`, each scaled by its node's factor. -/
def T1 (x0 : (⟨S100000x512, .f32⟩ : BufTy).Contents (Elt Ideal)) (x1 : (⟨S2x6400000, .i32⟩ : BufTy).Contents (Elt Ideal)) (x2 : (⟨S512x16, .f32⟩ : BufTy).Contents (Elt Ideal)) : FVec Ideal S100000x16 .f32 :=
  fun i => Spec.lin x0 x2 (dinv x1) (i 0) (i 1)

/-- The first aggregation: for every edge, the source's row of the first table added onto the destination's row. -/
def A1 (x0 : (⟨S100000x512, .f32⟩ : BufTy).Contents (Elt Ideal)) (x1 : (⟨S2x6400000, .i32⟩ : BufTy).Contents (Elt Ideal)) (x2 : (⟨S512x16, .f32⟩ : BufTy).Contents (Elt Ideal)) : FVec Ideal S100000x16 .f32 :=
  Host.scatterAdd scatter_S100000x16_S6500000x1_S6500000x16_1_0_0_1 (val_main_v43 (F := Ideal)) (val_main_v44 (F := Ideal) x1)
    (Host.gather gather_S100000x16_S6500000x1_S6500000x16_1_0_n_n_0_1_116 (T1 x0 x1 x2) (val_main_v38 (F := Ideal) x1))

/-- The second table: the first layer's epilogue of the aggregated rows. -/
def T2 (x0 : (⟨S100000x512, .f32⟩ : BufTy).Contents (Elt Ideal)) (x1 : (⟨S2x6400000, .i32⟩ : BufTy).Contents (Elt Ideal)) (x2 : (⟨S512x16, .f32⟩ : BufTy).Contents (Elt Ideal)) (x3 : (⟨S16, .f32⟩ : BufTy).Contents (Elt Ideal)) : FVec Ideal S100000x16 .f32 :=
  fun i => Spec.ep1 (A1 x0 x1 x2) (dinv x1) (fun k => x3 (ix1 k)) (i 0) (i 1)

/-- The second aggregation, of the second table along the same edges. -/
def A2 (x0 : (⟨S100000x512, .f32⟩ : BufTy).Contents (Elt Ideal)) (x1 : (⟨S2x6400000, .i32⟩ : BufTy).Contents (Elt Ideal)) (x2 : (⟨S512x16, .f32⟩ : BufTy).Contents (Elt Ideal)) (x3 : (⟨S16, .f32⟩ : BufTy).Contents (Elt Ideal)) : FVec Ideal S100000x16 .f32 :=
  Host.scatterAdd scatter_S100000x16_S6500000x1_S6500000x16_1_0_0_1 (val_main_v43 (F := Ideal)) (val_main_v44 (F := Ideal) x1)
    (Host.gather gather_S100000x16_S6500000x1_S6500000x16_1_0_n_n_0_1_116 (T2 x0 x1 x2 x3) (val_main_v38 (F := Ideal) x1))

/-- The result: the second layer's epilogue and the head, row by row. -/
def out (x0 : (⟨S100000x512, .f32⟩ : BufTy).Contents (Elt Ideal)) (x1 : (⟨S2x6400000, .i32⟩ : BufTy).Contents (Elt Ideal)) (x2 : (⟨S512x16, .f32⟩ : BufTy).Contents (Elt Ideal)) (x3 : (⟨S16, .f32⟩ : BufTy).Contents (Elt Ideal)) (x4 : (⟨S16x5, .f32⟩ : BufTy).Contents (Elt Ideal)) (x5 : (⟨S5, .f32⟩ : BufTy).Contents (Elt Ideal)) (x6 : (⟨S5x32, .f32⟩ : BufTy).Contents (Elt Ideal)) (x7 : (⟨S32, .f32⟩ : BufTy).Contents (Elt Ideal)) (x8 : (⟨S32x5, .f32⟩ : BufTy).Contents (Elt Ideal)) (x9 : (⟨S5, .f32⟩ : BufTy).Contents (Elt Ideal)) : FVec Ideal S100000x5 .f32 :=
  fun i => Spec.out2 (A2 x0 x1 x2 x3) (dinv x1) x4 (fun c => x5 (ix1 c)) x6 (fun j => x7 (ix1 j)) x8 (fun c => x9 (ix1 c)) (i 0) (i 1)

end Cert.KVal

end
-- ==== Proof.HostK.lean ====
/-
  The idealized kernel's result buffer after the whole run, as the composed function of the argument arrays (KVal.lean):
  the contents at each boundary of @main read back through the host stretches (the node factor and the edge words before the
  first kernel; a gather, an accumulating scatter and a reshape of a bias before each of the other two) and through the three
  kernels' result arrays (taken here as hypotheses, each at any entry contents), every buffer a stretch or a region does not write carried over unchanged.
-/
import proofs.«411965_j11527692222479_3_alg».proof.Proof.Gen.KernelIdeal.Frame
import proofs.«411965_j11527692222479_3_alg».proof.Proof.KVal
import Idealize.ShloMosaic.Lib.StableHlo.Run
import Idealize.ShloMosaic.Lib.Pipeline.Value
import Idealize.ShloMosaic.Lib.ValueLayout

set_option maxRecDepth 16384

noncomputable section

namespace Cert.KernelIdeal.HostK

open Cert.KernelIdeal Cert.KernelIdeal.Gen
open Idealize.ShloMosaic Idealize.ShloMosaic.TcCoe Idealize.ShloMosaic.ValueIdx Idealize.SL.Sem

/-! ## What each host stretch writes, and that it leaves every other buffer as it found it -/

section Keep

variable (W : Valuation τ sig (Elt Ideal))

/-- The buffers the first stretch writes. -/
abbrev L0 : List (Ref sig .tc) :=
  [main_v0, main_v1, main_v2, main_v3, main_v4, main_v5, main_v6, main_cst, main_v7, main_cst_0, main_v8, main_v9, main_v10,
   main_cst_1, main_v11, main_v12, main_cst_2, main_v13, main_v14, main_v15, main_cst_3]
/-- The buffers the called function's stretch writes. -/
abbrev L01 : List (Ref sig .tc) := [main_call0_v0, main_call0_v1, main_v16]
/-- The buffer the column reshape writes. -/
abbrev L02 : List (Ref sig .tc) := [main_v17]
/-- The buffers the stretch before the second kernel writes. -/
abbrev L1 : List (Ref sig .tc) :=
  [main_c, main_v19, main_v20, main_c_4, main_v21, main_v22, main_v23, main_v24, main_v25, main_cst_5, main_v26, main_v27,
   main_v28, main_v29]
/-- The buffers the stretch before the third kernel writes. -/
abbrev L2 : List (Ref sig .tc) :=
  [main_c_6, main_v31, main_v32, main_c_7, main_v33, main_v34, main_v35, main_v36, main_v37, main_cst_8, main_v38, main_v39,
   main_v40, main_v41, main_v42, main_v43]

theorem sub0 : (hostOps0 (F := Ideal)).Forall fun op => op.writes ⊆ (L0.map (Proc.devRef (τ := τ) .tc)).toFinset := by
  simp only [hostOps0, L0, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]
theorem sub01 : (hostOps0_1 (F := Ideal)).Forall fun op => op.writes ⊆ (L01.map (Proc.devRef (τ := τ) .tc)).toFinset := by
  simp only [hostOps0_1, L01, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]
theorem sub02 : (hostOps0_2 (F := Ideal)).Forall fun op => op.writes ⊆ (L02.map (Proc.devRef (τ := τ) .tc)).toFinset := by
  simp only [hostOps0_2, L02, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]
theorem sub1 : (hostOps1 (F := Ideal)).Forall fun op => op.writes ⊆ (L1.map (Proc.devRef (τ := τ) .tc)).toFinset := by
  simp only [hostOps1, L1, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]
theorem sub2 : (hostOps2 (F := Ideal)).Forall fun op => op.writes ⊆ (L2.map (Proc.devRef (τ := τ) .tc)).toFinset := by
  simp only [hostOps2, L2, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]

theorem keep0 {r : Ref sig .tc} (hr : r ∉ L0) :
    StableHlo.after hostOps0 W (Proc.devRef .tc r) = W (Proc.devRef .tc r) := StableHlo.after_of_writes_sub _ _ sub0 hr
theorem keep01 {r : Ref sig .tc} (hr : r ∉ L01) :
    StableHlo.after hostOps0_1 W (Proc.devRef .tc r) = W (Proc.devRef .tc r) := StableHlo.after_of_writes_sub _ _ sub01 hr
theorem keep02 {r : Ref sig .tc} (hr : r ∉ L02) :
    StableHlo.after hostOps0_2 W (Proc.devRef .tc r) = W (Proc.devRef .tc r) := StableHlo.after_of_writes_sub _ _ sub02 hr
theorem keep1 {r : Ref sig .tc} (hr : r ∉ L1) :
    StableHlo.after hostOps1 W (Proc.devRef .tc r) = W (Proc.devRef .tc r) := StableHlo.after_of_writes_sub _ _ sub1 hr
theorem keep2 {r : Ref sig .tc} (hr : r ∉ L2) :
    StableHlo.after hostOps2 W (Proc.devRef .tc r) = W (Proc.devRef .tc r) := StableHlo.after_of_writes_sub _ _ sub2 hr

end Keep

/-! ## Reshapes read at an index -/

/-- An `[a]` array cast to the column `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## What each host stretch leaves in the buffers it writes, over any entry contents -/

section Stretch

variable (W : Valuation τ sig (Elt Ideal))

open Cert.ReferenceIdeal.ReadP in
/-- The edges' source words after the first stretch. -/
theorem s0_v3 : StableHlo.after hostOps0 W (Proc.devRef .tc main_v3) = val_main_v3 (F := Ideal) (W (Proc.devRef .tc main_arg1)) := by
  after_results; rfl

open Cert.ReferenceIdeal.ReadP in
/-- The edges' destination words after the first stretch. -/
theorem s0_v6 : StableHlo.after hostOps0 W (Proc.devRef .tc main_v6) = val_main_v6 (F := Ideal) (W (Proc.devRef .tc main_arg1)) := by
  after_results; rfl

open Cert.ReferenceIdeal.ReadP in
/-- Where the in-degree is positive, after the first stretch. -/
theorem s0_v12 : StableHlo.after hostOps0 W (Proc.devRef .tc main_v12) = val_main_v12 (F := Ideal) (W (Proc.devRef .tc main_arg1)) := by
  after_results; rfl

open Cert.ReferenceIdeal.ReadP in
/-- The inverse square root of the in-degree, after the first stretch. -/
theorem s0_v15 : StableHlo.after hostOps0 W (Proc.devRef .tc main_v15) = val_main_v15 (F := Ideal) (W (Proc.devRef .tc main_arg1)) := by
  after_results; rfl

open Cert.ReferenceIdeal.ReadP in
/-- The zero the node factor takes where the degree is not positive. -/
theorem s0_cst3 : StableHlo.after hostOps0 W (Proc.devRef .tc main_cst_3) = val_main_cst_3 (F := Ideal) := by
  after_results; rfl

/-- The node factor: the called function selects between the inverse square root and zero. -/
theorem s01_v16 : StableHlo.after hostOps0_1 W (Proc.devRef .tc main_v16)
    = select (W (Proc.devRef .tc main_v12)) (W (Proc.devRef .tc main_v15)) (broadcastInDim S100000 ![] bcast_S_S100000 (id (W (Proc.devRef .tc main_cst_3)))) := by
  after_results; rfl

end Stretch

/-! ## The aggregation along the edges -/

open Cert.ReferenceIdeal.ReadP in
/-- For every edge, the source's row of a table added onto the destination's row: the gather along the edges' source words
    followed by the accumulating scatter onto their destination words, from the zero table. -/
def agg (x1 : (⟨Cert.ReferenceIdeal.S2x6400000, .i32⟩ : BufTy).Contents (Elt Ideal)) (T : FVec Ideal Cert.ReferenceIdeal.S100000x16 .f32) :
    FVec Ideal Cert.ReferenceIdeal.S100000x16 .f32 :=
  Host.scatterAdd Cert.ReferenceIdeal.scatter_S100000x16_S6500000x1_S6500000x16_1_0_0_1 (val_main_v43 (F := Ideal)) (val_main_v44 (F := Ideal) x1)
    (Host.gather Cert.ReferenceIdeal.gather_S100000x16_S6500000x1_S6500000x16_1_0_n_n_0_1_116 T (val_main_v38 (F := Ideal) x1))

theorem A1_eq (x0 : (⟨Cert.ReferenceIdeal.S100000x512, .f32⟩ : BufTy).Contents (Elt Ideal)) (x1 : (⟨Cert.ReferenceIdeal.S2x6400000, .i32⟩ : BufTy).Contents (Elt Ideal))
    (x2 : (⟨Cert.ReferenceIdeal.S512x16, .f32⟩ : BufTy).Contents (Elt Ideal)) :
    Cert.KVal.A1 x0 x1 x2 = agg x1 (Cert.KVal.T1 x0 x1 x2) := rfl
theorem A2_eq (x0 : (⟨Cert.ReferenceIdeal.S100000x512, .f32⟩ : BufTy).Contents (Elt Ideal)) (x1 : (⟨Cert.ReferenceIdeal.S2x6400000, .i32⟩ : BufTy).Contents (Elt Ideal))
    (x2 : (⟨Cert.ReferenceIdeal.S512x16, .f32⟩ : BufTy).Contents (Elt Ideal)) (x3 : (⟨Cert.ReferenceIdeal.S16, .f32⟩ : BufTy).Contents (Elt Ideal)) :
    Cert.KVal.A2 x0 x1 x2 x3 = agg x1 (Cert.KVal.T2 x0 x1 x2 x3) := rfl

section Stretch3

variable (W : Valuation τ sig (Elt Ideal))

open Cert.ReferenceIdeal.ReadP in
/-- The stretch before the second kernel aggregates the first kernel's table. -/
theorem s1_v28 (x1 : (⟨Cert.ReferenceIdeal.S2x6400000, .i32⟩ : BufTy).Contents (Elt Ideal))
    (h3 : W (Proc.devRef .tc main_v3) = val_main_v3 (F := Ideal) x1) (h6 : W (Proc.devRef .tc main_v6) = val_main_v6 (F := Ideal) x1) :
    StableHlo.after hostOps1 W (Proc.devRef .tc main_v28) = agg x1 (W (Proc.devRef .tc main_v18)) := by
  after_results; rw [h3, h6]; rfl

open Cert.ReferenceIdeal.ReadP in
/-- The stretch before the third kernel aggregates the second kernel's table. -/
theorem s2_v40 (x1 : (⟨Cert.ReferenceIdeal.S2x6400000, .i32⟩ : BufTy).Contents (Elt Ideal))
    (h3 : W (Proc.devRef .tc main_v3) = val_main_v3 (F := Ideal) x1) (h6 : W (Proc.devRef .tc main_v6) = val_main_v6 (F := Ideal) x1) :
    StableHlo.after hostOps2 W (Proc.devRef .tc main_v40) = agg x1 (W (Proc.devRef .tc main_v30)) := by
  after_results; rw [h3, h6]; rfl

/-- The node factor as a column. -/
theorem s02_v17 (n : Fin 100000) :
    StableHlo.after hostOps0_2 W (Proc.devRef .tc main_v17) (ix2 n 0) = W (Proc.devRef .tc main_v16) (ix1 n) := by
  have e : StableHlo.after hostOps0_2 W (Proc.devRef .tc main_v17)
      = fun i => shapeCast S100000x1 (W (Proc.devRef .tc main_v16)) shapeCasts_S100000_S100000x1 i := by
    after_results; rfl
  rw [e]; exact shapeCast_a_a1_apply _ _ n 0

/-- The first bias as a row. -/
theorem s1_v29 (k : Fin 16) :
    StableHlo.after hostOps1 W (Proc.devRef .tc main_v29) (ix2 0 k) = W (Proc.devRef .tc main_arg3) (ix1 k) := by
  have e : StableHlo.after hostOps1 W (Proc.devRef .tc main_v29)
      = fun i => shapeCast S1x16 (W (Proc.devRef .tc main_arg3)) shapeCasts_S16_S1x16 i := by
    after_results; rfl
  rw [e]; exact shapeCast_a_1a_apply _ _ 0 k

/-- The second bias as a row. -/
theorem s2_v41 (k : Fin 5) :
    StableHlo.after hostOps2 W (Proc.devRef .tc main_v41) (ix2 0 k) = W (Proc.devRef .tc main_arg5) (ix1 k) := by
  have e : StableHlo.after hostOps2 W (Proc.devRef .tc main_v41)
      = fun i => shapeCast S1x5 (W (Proc.devRef .tc main_arg5)) shapeCasts_S5_S1x5 i := by
    after_results; rfl
  rw [e]; exact shapeCast_a_1a_apply _ _ 0 k

/-- The head's hidden bias as a row. -/
theorem s2_v42 (j : Fin 32) :
    StableHlo.after hostOps2 W (Proc.devRef .tc main_v42) (ix2 0 j) = W (Proc.devRef .tc main_arg7) (ix1 j) := by
  have e : StableHlo.after hostOps2 W (Proc.devRef .tc main_v42)
      = fun i => shapeCast S1x32 (W (Proc.devRef .tc main_arg7)) shapeCasts_S32_S1x32 i := by
    after_results; rfl
  rw [e]; exact shapeCast_a_1a_apply _ _ 0 j

/-- The head's last bias as a row. -/
theorem s2_v43 (k : Fin 5) :
    StableHlo.after hostOps2 W (Proc.devRef .tc main_v43) (ix2 0 k) = W (Proc.devRef .tc main_arg9) (ix1 k) := by
  have e : StableHlo.after hostOps2 W (Proc.devRef .tc main_v43)
      = fun i => shapeCast S1x5 (W (Proc.devRef .tc main_arg9)) shapeCasts_S5_S1x5 i := by
    after_results; rfl
  rw [e]; exact shapeCast_a_1a_apply _ _ 0 k

end Stretch3

/-! ## The run: the contents at each boundary of @main, from the launch contents of the arguments -/

section Run

variable (m : (ℓ : Loc nD τ sig) → Buf (Elt Ideal) ℓ) (ρ : Dev nD → PrngReg) (c : Dev nD)

/-- The launch contents of the ten arguments. -/
abbrev a0 : (⟨Cert.ReferenceIdeal.S100000x512, .f32⟩ : BufTy).Contents (Elt Ideal) := m ((c.tc : Thread nD τ).loc main_arg0)
abbrev a1 : (⟨Cert.ReferenceIdeal.S2x6400000, .i32⟩ : BufTy).Contents (Elt Ideal) := m ((c.tc : Thread nD τ).loc main_arg1)
abbrev a2 : (⟨Cert.ReferenceIdeal.S512x16, .f32⟩ : BufTy).Contents (Elt Ideal) := m ((c.tc : Thread nD τ).loc main_arg2)
abbrev a3 : (⟨Cert.ReferenceIdeal.S16, .f32⟩ : BufTy).Contents (Elt Ideal) := m ((c.tc : Thread nD τ).loc main_arg3)
abbrev a4 : (⟨Cert.ReferenceIdeal.S16x5, .f32⟩ : BufTy).Contents (Elt Ideal) := m ((c.tc : Thread nD τ).loc main_arg4)
abbrev a5 : (⟨Cert.ReferenceIdeal.S5, .f32⟩ : BufTy).Contents (Elt Ideal) := m ((c.tc : Thread nD τ).loc main_arg5)
abbrev a6 : (⟨Cert.ReferenceIdeal.S5x32, .f32⟩ : BufTy).Contents (Elt Ideal) := m ((c.tc : Thread nD τ).loc main_arg6)
abbrev a7 : (⟨Cert.ReferenceIdeal.S32, .f32⟩ : BufTy).Contents (Elt Ideal) := m ((c.tc : Thread nD τ).loc main_arg7)
abbrev a8 : (⟨Cert.ReferenceIdeal.S32x5, .f32⟩ : BufTy).Contents (Elt Ideal) := m ((c.tc : Thread nD τ).loc main_arg8)
abbrev a9 : (⟨Cert.ReferenceIdeal.S5, .f32⟩ : BufTy).Contents (Elt Ideal) := m ((c.tc : Thread nD τ).loc main_arg9)

/-! ### A buffer nothing writes holds its launch contents at every boundary -/

theorem W3_launch {r : Ref sig .tc} (h0 : r ∉ L0) (h01 : r ∉ L01) (h02 : r ∉ L02) :
    W3 m ρ c (Proc.devRef .tc r) = m ((c.tc : Thread nD τ).loc r) :=
  (keep02 _ h02).trans ((keep01 _ h01).trans (keep0 _ h0))
theorem W4_launch {r : Ref sig .tc} (hs0 : ∀ w, Pipeline.arrRef spec0 w ≠ r) (h0 : r ∉ L0) (h01 : r ∉ L01) (h02 : r ∉ L02) :
    W4 m ρ c (Proc.devRef .tc r) = m ((c.tc : Thread nD τ).loc r) :=
  (W4_of_ne m ρ c r hs0).trans (W3_launch m ρ c h0 h01 h02)
theorem W5_launch {r : Ref sig .tc} (h1 : r ∉ L1) (hs0 : ∀ w, Pipeline.arrRef spec0 w ≠ r) (h0 : r ∉ L0) (h01 : r ∉ L01) (h02 : r ∉ L02) :
    W5 m ρ c (Proc.devRef .tc r) = m ((c.tc : Thread nD τ).loc r) :=
  (keep1 _ h1).trans (W4_launch m ρ c hs0 h0 h01 h02)
theorem W6_launch {r : Ref sig .tc} (hs1 : ∀ w, Pipeline.arrRef spec1 w ≠ r) (h1 : r ∉ L1) (hs0 : ∀ w, Pipeline.arrRef spec0 w ≠ r)
    (h0 : r ∉ L0) (h01 : r ∉ L01) (h02 : r ∉ L02) :
    W6 m ρ c (Proc.devRef .tc r) = m ((c.tc : Thread nD τ).loc r) :=
  (W6_of_ne m ρ c r hs1).trans (W5_launch m ρ c h1 hs0 h0 h01 h02)
theorem W7_launch {r : Ref sig .tc} (h2 : r ∉ L2) (hs1 : ∀ w, Pipeline.arrRef spec1 w ≠ r) (h1 : r ∉ L1) (hs0 : ∀ w, Pipeline.arrRef spec0 w ≠ r)
    (h0 : r ∉ L0) (h01 : r ∉ L01) (h02 : r ∉ L02) :
    W7 m ρ c (Proc.devRef .tc r) = m ((c.tc : Thread nD τ).loc r) :=
  (keep2 _ h2).trans (W6_launch m ρ c hs1 h1 hs0 h0 h01 h02)

theorem W3_arg0 : V3 m ρ c main_arg0 = a0 m c := W3_launch m ρ c (by decide) (by decide) (by decide)
theorem W3_arg2 : V3 m ρ c main_arg2 = a2 m c := W3_launch m ρ c (by decide) (by decide) (by decide)
theorem W4_arg3 : W4 m ρ c (Proc.devRef .tc main_arg3) = a3 m c := W4_launch m ρ c (by decide) (by decide) (by decide) (by decide)
theorem W6_arg5 : W6 m ρ c (Proc.devRef .tc main_arg5) = a5 m c :=
  W6_launch m ρ c (by decide) (by decide) (by decide) (by decide) (by decide) (by decide)
theorem W6_arg7 : W6 m ρ c (Proc.devRef .tc main_arg7) = a7 m c :=
  W6_launch m ρ c (by decide) (by decide) (by decide) (by decide) (by decide) (by decide)
theorem W6_arg9 : W6 m ρ c (Proc.devRef .tc main_arg9) = a9 m c :=
  W6_launch m ρ c (by decide) (by decide) (by decide) (by decide) (by decide) (by decide)
theorem W7_arg4 : V7 m ρ c main_arg4 = a4 m c :=
  W7_launch m ρ c (by decide) (by decide) (by decide) (by decide) (by decide) (by decide) (by decide)
theorem W7_arg6 : V7 m ρ c main_arg6 = a6 m c :=
  W7_launch m ρ c (by decide) (by decide) (by decide) (by decide) (by decide) (by decide) (by decide)
theorem W7_arg8 : V7 m ρ c main_arg8 = a8 m c :=
  W7_launch m ρ c (by decide) (by decide) (by decide) (by decide) (by decide) (by decide) (by decide)

/-! ### The edge words: written by the first stretch, carried to every later boundary -/

open Cert.ReferenceIdeal.ReadP in
theorem W3_v3 : W3 m ρ c (Proc.devRef .tc main_v3) = val_main_v3 (F := Ideal) (a1 m c) :=
  (keep02 _ (by decide)).trans ((keep01 _ (by decide)).trans (s0_v3 (W0 m ρ c)))
open Cert.ReferenceIdeal.ReadP in
theorem W3_v6 : W3 m ρ c (Proc.devRef .tc main_v6) = val_main_v6 (F := Ideal) (a1 m c) :=
  (keep02 _ (by decide)).trans ((keep01 _ (by decide)).trans (s0_v6 (W0 m ρ c)))
open Cert.ReferenceIdeal.ReadP in
theorem W4_v3 : W4 m ρ c (Proc.devRef .tc main_v3) = val_main_v3 (F := Ideal) (a1 m c) :=
  (W4_of_ne m ρ c main_v3 (by decide)).trans (W3_v3 m ρ c)
open Cert.ReferenceIdeal.ReadP in
theorem W4_v6 : W4 m ρ c (Proc.devRef .tc main_v6) = val_main_v6 (F := Ideal) (a1 m c) :=
  (W4_of_ne m ρ c main_v6 (by decide)).trans (W3_v6 m ρ c)
open Cert.ReferenceIdeal.ReadP in
theorem W6_v3 : W6 m ρ c (Proc.devRef .tc main_v3) = val_main_v3 (F := Ideal) (a1 m c) :=
  (W6_of_ne m ρ c main_v3 (by decide)).trans ((keep1 _ (by decide)).trans (W4_v3 m ρ c))
open Cert.ReferenceIdeal.ReadP in
theorem W6_v6 : W6 m ρ c (Proc.devRef .tc main_v6) = val_main_v6 (F := Ideal) (a1 m c) :=
  (W6_of_ne m ρ c main_v6 (by decide)).trans ((keep1 _ (by decide)).trans (W4_v6 m ρ c))

/-! ### The node factor's column: written before the first kernel, an input of all three -/

open Cert.ReferenceIdeal.ReadP in
theorem W2_v16 : W2 m ρ c (Proc.devRef .tc main_v16) = val_main_v16 (F := Ideal) (a1 m c) := by
  have e12 : W1 m ρ c (Proc.devRef .tc main_v12) = val_main_v12 (F := Ideal) (a1 m c) := s0_v12 (W0 m ρ c)
  have e15 : W1 m ρ c (Proc.devRef .tc main_v15) = val_main_v15 (F := Ideal) (a1 m c) := s0_v15 (W0 m ρ c)
  have ec3 : W1 m ρ c (Proc.devRef .tc main_cst_3) = val_main_cst_3 (F := Ideal) := s0_cst3 (W0 m ρ c)
  refine (s01_v16 (W1 m ρ c)).trans ?_
  rw [e12, e15, ec3]
  rfl

theorem V3_v17 : (fun n : Fin 100000 => V3 m ρ c main_v17 (ix2 n 0)) = Cert.KVal.dinv (a1 m c) := by
  funext n
  refine (s02_v17 (W2 m ρ c) n).trans ?_
  rw [W2_v16]
  rfl

theorem V5_v17 : V5 m ρ c main_v17 = V3 m ρ c main_v17 :=
  (keep1 _ (by decide)).trans
    ((W4_arr m ρ c 2).trans (((dat0 (V3 m ρ) c).arrAt_in 2 rfl _).trans (A_eq0 (V3 m ρ) c 2)))

theorem V7_v17 : V7 m ρ c main_v17 = V3 m ρ c main_v17 :=
  (keep2 _ (by decide)).trans
    ((W6_arr m ρ c 1).trans ((((dat1 (V5 m ρ) c).arrAt_in 1 rfl _).trans (A_eq1 (V5 m ρ) c 1)).trans (V5_v17 m ρ c)))

/-! ### The three kernels' tables and the two aggregations -/

variable
    (h0 : ∀ (V : (c : Dev nD) → (b : Ref sig .tc) → Buf (Elt Ideal) ((c : Thread nD τ).loc b)) (c : Dev nD),
      (dat0 (F := Ideal) V c).arrAt 3 cfg0.N
        = (fun i : S100000x16.Idx =>
            Cert.Spec.lin (V c main_arg0) (V c main_arg2) (fun n => V c main_v17 (ix2 n 0)) (i 0) (i 1)))
    (h1 : ∀ (V : (c : Dev nD) → (b : Ref sig .tc) → Buf (Elt Ideal) ((c : Thread nD τ).loc b)) (c : Dev nD),
      (dat1 (F := Ideal) V c).arrAt 3 cfg1.N
        = (fun i : S100000x16.Idx =>
            Cert.Spec.ep1 (V c main_v28) (fun n => V c main_v17 (ix2 n 0)) (fun k => V c main_v29 (ix2 0 k)) (i 0) (i 1)))

include h0 in
/-- The first kernel leaves the first table. -/
theorem W4_v18 : W4 m ρ c (Proc.devRef .tc main_v18) = Cert.KVal.T1 (a0 m c) (a1 m c) (a2 m c) := by
  refine (W4_arr m ρ c 3).trans ((h0 (V3 m ρ) c).trans ?_)
  rw [W3_arg0, W3_arg2, V3_v17]
  rfl

include h0 in
/-- The stretch before the second kernel leaves the first aggregation. -/
theorem V5_v28 : V5 m ρ c main_v28 = Cert.KVal.A1 (a0 m c) (a1 m c) (a2 m c) := by
  rw [A1_eq]
  refine (s1_v28 (W4 m ρ c) (a1 m c) (W4_v3 m ρ c) (W4_v6 m ρ c)).trans ?_
  rw [W4_v18 m ρ c h0]

theorem V5_v29 : (fun k : Fin 16 => V5 m ρ c main_v29 (ix2 0 k)) = fun k => a3 m c (ix1 k) := by
  funext k
  refine (s1_v29 (W4 m ρ c) k).trans ?_
  rw [W4_arg3]

include h0 h1 in
/-- The second kernel leaves the second table. -/
theorem W6_v30 : W6 m ρ c (Proc.devRef .tc main_v30) = Cert.KVal.T2 (a0 m c) (a1 m c) (a2 m c) (a3 m c) := by
  refine (W6_arr m ρ c 3).trans ((h1 (V5 m ρ) c).trans ?_)
  rw [V5_v28 m ρ c h0, V5_v17 m ρ c, V3_v17, V5_v29]
  rfl

include h0 h1 in
/-- The stretch before the third kernel leaves the second aggregation. -/
theorem V7_v40 : V7 m ρ c main_v40 = Cert.KVal.A2 (a0 m c) (a1 m c) (a2 m c) (a3 m c) := by
  rw [A2_eq]
  refine (s2_v40 (W6 m ρ c) (a1 m c) (W6_v3 m ρ c) (W6_v6 m ρ c)).trans ?_
  rw [W6_v30 m ρ c h0 h1]

theorem V7_v41 : (fun k : Fin 5 => V7 m ρ c main_v41 (ix2 0 k)) = fun k => a5 m c (ix1 k) := by
  funext k
  refine (s2_v41 (W6 m ρ c) k).trans ?_
  rw [W6_arg5]

theorem V7_v42 : (fun j : Fin 32 => V7 m ρ c main_v42 (ix2 0 j)) = fun j => a7 m c (ix1 j) := by
  funext j
  refine (s2_v42 (W6 m ρ c) j).trans ?_
  rw [W6_arg7]

theorem V7_v43 : (fun k : Fin 5 => V7 m ρ c main_v43 (ix2 0 k)) = fun k => a9 m c (ix1 k) := by
  funext k
  refine (s2_v43 (W6 m ρ c) k).trans ?_
  rw [W6_arg9]

end Run

variable (m : (ℓ : Loc nD τ sig) → Buf (Elt Ideal) ℓ) (ρ : Dev nD → PrngReg)

/-- The result buffer at the last boundary is the composed function of the launch contents of the ten arguments, given what
    each kernel leaves in its result array as a function of the arrays it finds (`h0`, `h1`, `h2`: at any entry contents). -/
theorem W8_v44
    (h0 : ∀ (V : (c : Dev nD) → (b : Ref sig .tc) → Buf (Elt Ideal) ((c : Thread nD τ).loc b)) (c : Dev nD),
      (dat0 (F := Ideal) V c).arrAt 3 cfg0.N
        = (fun i : S100000x16.Idx =>
            Cert.Spec.lin (V c main_arg0) (V c main_arg2) (fun n => V c main_v17 (ix2 n 0)) (i 0) (i 1)))
    (h1 : ∀ (V : (c : Dev nD) → (b : Ref sig .tc) → Buf (Elt Ideal) ((c : Thread nD τ).loc b)) (c : Dev nD),
      (dat1 (F := Ideal) V c).arrAt 3 cfg1.N
        = (fun i : S100000x16.Idx =>
            Cert.Spec.ep1 (V c main_v28) (fun n => V c main_v17 (ix2 n 0)) (fun k => V c main_v29 (ix2 0 k)) (i 0) (i 1)))
    (h2 : ∀ (V : (c : Dev nD) → (b : Ref sig .tc) → Buf (Elt Ideal) ((c : Thread nD τ).loc b)) (c : Dev nD),
      (dat2 (F := Ideal) V c).arrAt 8 cfg2.N
        = (fun i : S100000x5.Idx =>
            Cert.Spec.out2 (V c main_v40) (fun n => V c main_v17 (ix2 n 0)) (V c main_arg4) (fun k => V c main_v41 (ix2 0 k))
              (V c main_arg6) (fun j => V c main_v42 (ix2 0 j)) (V c main_arg8) (fun k => V c main_v43 (ix2 0 k)) (i 0) (i 1)))
    (c : Dev nD) :
    W8 (F := Ideal) m ρ c (Proc.devRef .tc main_v44)
      = Cert.KVal.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W8_arr m ρ c 8).trans ((h2 (V7 m ρ) c).trans ?_)
  rw [V7_v40 m ρ c h0 h1, V7_v17 m ρ c, V3_v17, W7_arg4, V7_v41, W7_arg6, V7_v42, W7_arg8, V7_v43]
  rfl

end Cert.KernelIdeal.HostK

end
-- ==== Proof.Graph.lean ====
/-
  The edges, read off the index words. A gather along the edges reads, for edge `e`, the row its index word selects
  (read signed, clamped into the table); an accumulating scatter adds edge `e`'s update onto the row its index word names
  (read signed; an edge whose word is no row is dropped). Both are stated here at one element.
-/
import proofs.«411965_j11527692222479_3_alg».proof.Proof.RefRead
import Idealize.ShloMosaic.Lib.ValueIdx
import Idealize.ShloMosaic.Lib.StableHlo.Predicate

noncomputable section

namespace Cert.Graph

open Cert.ReferenceIdeal Cert.ReferenceIdeal.ReadP Idealize.ShloMosaic Idealize.ShloMosaic.ValueIdx

/-- The row a gather's index word selects for edge `e`: the word read signed, negatives at row 0, clamped to the last row. -/
def sel (I : IVec S6500000x1 32) (e : Fin 6500000) : Fin 100000 :=
  ⟨min (I (ix2 e 0)).toInt.toNat 99999, by omega⟩

/-- The edges whose scatter index word, read signed, is exactly row `n`. -/
def hit (I : IVec S6500000x1 32) (n : Fin 100000) : Finset (Fin 6500000) :=
  Finset.univ.filter fun e => (I (ix2 e 0)).toInt = (n.val : Int)

/-! ### The gathers: the operand index of result index `(e, k)`, one axis at a time -/

/-- The start-indices index at which result index `(e, k)` reads its one start-index component: `(e, 0)`. -/
theorem g16_siIdx (e : Fin 6500000) (k : Fin 16) (c : Fin gather_S100000x16_S6500000x1_S6500000x16_1_0_n_n_0_1_116.startIndexMap.length) :
    gather_S100000x16_S6500000x1_S6500000x16_1_0_n_n_0_1_116.siIdx (ix2 e k) c = ix2 e 0 := by
  funext b; refine Fin.ext ?_
  match b with
  | ⟨0, _⟩ => rfl
  | ⟨1, _⟩ =>
    have hc : c.val < 1 := c.isLt
    show c.val = 0
    omega

/-- Axis 0 (collapsed, in the start index map): the clamped start, nothing added. -/
theorem g16_axis0 (I : IVec S6500000x1 32) (e : Fin 6500000) (k : Fin 16) :
    (gather_S100000x16_S6500000x1_S6500000x16_1_0_n_n_0_1_116.operandIdx (ix2 e k) I 0).val
      = min (I (ix2 e 0)).toInt.toNat 99999 := by
  show gather_S100000x16_S6500000x1_S6500000x16_1_0_n_n_0_1_116.start (ix2 e k) I 0
    + gather_S100000x16_S6500000x1_S6500000x16_1_0_n_n_0_1_116.batchCoord (ix2 e k) 0
    + gather_S100000x16_S6500000x1_S6500000x16_1_0_n_n_0_1_116.offCoord (ix2 e k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S100000x16_S6500000x1_S6500000x16_1_0_n_n_0_1_116.startIndexMap from
    List.mem_singleton.mpr rfl), g16_siIdx]
  rfl

/-- Axis 1 (an offset axis, outside the start index map): the result's own coordinate. -/
theorem g16_axis1 (I : IVec S6500000x1 32) (e : Fin 6500000) (k : Fin 16) :
    (gather_S100000x16_S6500000x1_S6500000x16_1_0_n_n_0_1_116.operandIdx (ix2 e k) I 1).val = k.val := by
  show gather_S100000x16_S6500000x1_S6500000x16_1_0_n_n_0_1_116.start (ix2 e k) I 1
    + gather_S100000x16_S6500000x1_S6500000x16_1_0_n_n_0_1_116.batchCoord (ix2 e k) 1
    + gather_S100000x16_S6500000x1_S6500000x16_1_0_n_n_0_1_116.offCoord (ix2 e k) 1 = _
  rw [GatherDims.batchCoord_eq_zero _ _ _ List.not_mem_nil]
  unfold GatherDims.start GatherDims.offCoord
  rw [dif_neg (show (1 : Fin 2) ∉ gather_S100000x16_S6500000x1_S6500000x16_1_0_n_n_0_1_116.startIndexMap by decide),
    dif_pos (show (1 : Fin 2) ∈ gather_S100000x16_S6500000x1_S6500000x16_1_0_n_n_0_1_116.sKept by decide)]
  simp only [Nat.zero_add]
  rfl

theorem g16_operandIdx (I : IVec S6500000x1 32) (e : Fin 6500000) (k : Fin 16) :
    gather_S100000x16_S6500000x1_S6500000x16_1_0_n_n_0_1_116.operandIdx (ix2 e k) I = ix2 (sel I e) k := by
  funext a
  match a with
  | ⟨0, _⟩ => exact Fin.ext (g16_axis0 I e k)
  | ⟨1, _⟩ => exact Fin.ext (g16_axis1 I e k)

theorem gather16_apply {α : Type} (X : S100000x16.Idx → α) (I : IVec S6500000x1 32) (e : Fin 6500000) (k : Fin 16) :
    Host.gather gather_S100000x16_S6500000x1_S6500000x16_1_0_n_n_0_1_116 X I (ix2 e k) = X (ix2 (sel I e) k) := by
  unfold Host.gather
  rw [g16_operandIdx]

/-- The start-indices index at which result index `(e, k)` reads its one start-index component: `(e, 0)`. -/
theorem g5_siIdx (e : Fin 6500000) (k : Fin 5) (c : Fin gather_S100000x5_S6500000x1_S6500000x5_1_0_n_n_0_1_15.startIndexMap.length) :
    gather_S100000x5_S6500000x1_S6500000x5_1_0_n_n_0_1_15.siIdx (ix2 e k) c = ix2 e 0 := by
  funext b; refine Fin.ext ?_
  match b with
  | ⟨0, _⟩ => rfl
  | ⟨1, _⟩ =>
    have hc : c.val < 1 := c.isLt
    show c.val = 0
    omega

/-- Axis 0 (collapsed, in the start index map): the clamped start, nothing added. -/
theorem g5_axis0 (I : IVec S6500000x1 32) (e : Fin 6500000) (k : Fin 5) :
    (gather_S100000x5_S6500000x1_S6500000x5_1_0_n_n_0_1_15.operandIdx (ix2 e k) I 0).val
      = min (I (ix2 e 0)).toInt.toNat 99999 := by
  show gather_S100000x5_S6500000x1_S6500000x5_1_0_n_n_0_1_15.start (ix2 e k) I 0
    + gather_S100000x5_S6500000x1_S6500000x5_1_0_n_n_0_1_15.batchCoord (ix2 e k) 0
    + gather_S100000x5_S6500000x1_S6500000x5_1_0_n_n_0_1_15.offCoord (ix2 e k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S100000x5_S6500000x1_S6500000x5_1_0_n_n_0_1_15.startIndexMap from
    List.mem_singleton.mpr rfl), g5_siIdx]
  rfl

/-- Axis 1 (an offset axis, outside the start index map): the result's own coordinate. -/
theorem g5_axis1 (I : IVec S6500000x1 32) (e : Fin 6500000) (k : Fin 5) :
    (gather_S100000x5_S6500000x1_S6500000x5_1_0_n_n_0_1_15.operandIdx (ix2 e k) I 1).val = k.val := by
  show gather_S100000x5_S6500000x1_S6500000x5_1_0_n_n_0_1_15.start (ix2 e k) I 1
    + gather_S100000x5_S6500000x1_S6500000x5_1_0_n_n_0_1_15.batchCoord (ix2 e k) 1
    + gather_S100000x5_S6500000x1_S6500000x5_1_0_n_n_0_1_15.offCoord (ix2 e k) 1 = _
  rw [GatherDims.batchCoord_eq_zero _ _ _ List.not_mem_nil]
  unfold GatherDims.start GatherDims.offCoord
  rw [dif_neg (show (1 : Fin 2) ∉ gather_S100000x5_S6500000x1_S6500000x5_1_0_n_n_0_1_15.startIndexMap by decide),
    dif_pos (show (1 : Fin 2) ∈ gather_S100000x5_S6500000x1_S6500000x5_1_0_n_n_0_1_15.sKept by decide)]
  simp only [Nat.zero_add]
  rfl

theorem g5_operandIdx (I : IVec S6500000x1 32) (e : Fin 6500000) (k : Fin 5) :
    gather_S100000x5_S6500000x1_S6500000x5_1_0_n_n_0_1_15.operandIdx (ix2 e k) I = ix2 (sel I e) k := by
  funext a
  match a with
  | ⟨0, _⟩ => exact Fin.ext (g5_axis0 I e k)
  | ⟨1, _⟩ => exact Fin.ext (g5_axis1 I e k)

theorem gather5_apply {α : Type} (X : S100000x5.Idx → α) (I : IVec S6500000x1 32) (e : Fin 6500000) (c : Fin 5) :
    Host.gather gather_S100000x5_S6500000x1_S6500000x5_1_0_n_n_0_1_15 X I (ix2 e c) = X (ix2 (sel I e) c) := by
  unfold Host.gather
  rw [g5_operandIdx]

/-- The start-indices index at which result index `e` reads its one start-index component: `(e, 0)`. -/
theorem g1_siIdx (e : Fin 6500000) (c : Fin gather_S100000_S6500000x1_S6500000_n_0_n_n_0_1_1.startIndexMap.length) :
    gather_S100000_S6500000x1_S6500000_n_0_n_n_0_1_1.siIdx (ix1 e) c = ix2 e 0 := by
  funext b; refine Fin.ext ?_
  match b with
  | ⟨0, _⟩ => rfl
  | ⟨1, _⟩ =>
    have hc : c.val < 1 := c.isLt
    show c.val = 0
    omega

/-- The one axis (collapsed, in the start index map): the clamped start, nothing added. -/
theorem g1_axis0 (I : IVec S6500000x1 32) (e : Fin 6500000) :
    (gather_S100000_S6500000x1_S6500000_n_0_n_n_0_1_1.operandIdx (ix1 e) I 0).val
      = min (I (ix2 e 0)).toInt.toNat 99999 := by
  show gather_S100000_S6500000x1_S6500000_n_0_n_n_0_1_1.start (ix1 e) I 0
    + gather_S100000_S6500000x1_S6500000_n_0_n_n_0_1_1.batchCoord (ix1 e) 0
    + gather_S100000_S6500000x1_S6500000_n_0_n_n_0_1_1.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S100000_S6500000x1_S6500000_n_0_n_n_0_1_1.startIndexMap from
    List.mem_singleton.mpr rfl), g1_siIdx]
  rfl

theorem g1_operandIdx (I : IVec S6500000x1 32) (e : Fin 6500000) :
    gather_S100000_S6500000x1_S6500000_n_0_n_n_0_1_1.operandIdx (ix1 e) I = ix1 (sel I e) := by
  funext a
  match a with
  | ⟨0, _⟩ => exact Fin.ext (g1_axis0 I e)

theorem gather1_apply {α : Type} (X : S100000.Idx → α) (I : IVec S6500000x1 32) (e : Fin 6500000) :
    Host.gather gather_S100000_S6500000x1_S6500000_n_0_n_n_0_1_1 X I (ix1 e) = X (ix1 (sel I e)) := by
  unfold Host.gather
  rw [g1_operandIdx]

/-! ### The scatters: where update index `(e, k')` lands -/

/-- An update lands on operand index `i` exactly when, on every axis, its start plus its window coordinate is `i`'s. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hh
      have h0 := Option.some.inj h
      intro a
      have h1 : (d.start j idx a + (d.window j a : Int)).toNat = (i a).val := congrArg (fun f => (f a).val) h0
      have h2 := hh a
      omega
    · cases h
  · intro h
    have hh : ∀ a, 0 ≤ d.start j idx a + (d.window j a : Int) ∧ d.start j idx a + (d.window j a : Int) < s.size a := by
      intro a
      have h1 := h a
      have h2 := (i a).isLt
      omega
    rw [dif_pos hh]
    congr 1
    funext a
    apply Fin.ext
    show (d.start j idx a + (d.window j a : Int)).toNat = (i a).val
    have h1 := h a
    omega

/-- The scatter-indices index at which update index `(e, k')` reads its one start-index component: `(e, 0)`. -/
theorem s16_siIdx (e : Fin 6500000) (k' : Fin 16) (c : Fin scatter_S100000x16_S6500000x1_S6500000x16_1_0_0_1.scatterDimsToOperandDims.length) :
    scatter_S100000x16_S6500000x1_S6500000x16_1_0_0_1.siIdx (ix2 e k') c = ix2 e 0 := by
  funext b; refine Fin.ext ?_
  match b with
  | ⟨0, _⟩ => rfl
  | ⟨1, _⟩ =>
    have hc : c.val < 1 := c.isLt
    show c.val = 0
    omega

/-- Axis 0 (an inserted axis, named by the map): the index word read signed, no window coordinate. -/
theorem s16_axis0 (I : IVec S6500000x1 32) (e : Fin 6500000) (k' : Fin 16) :
    scatter_S100000x16_S6500000x1_S6500000x16_1_0_0_1.start (ix2 e k') I 0
      + (scatter_S100000x16_S6500000x1_S6500000x16_1_0_0_1.window (ix2 e k') 0 : Int) = (I (ix2 e 0)).toInt := by
  unfold ScatterDims.start ScatterDims.window
  rw [dif_pos (show (0 : Fin 2) ∈ scatter_S100000x16_S6500000x1_S6500000x16_1_0_0_1.scatterDimsToOperandDims from
    List.mem_singleton.mpr rfl), s16_siIdx,
    dif_neg (show (0 : Fin 2) ∉ scatter_S100000x16_S6500000x1_S6500000x16_1_0_0_1.sKept by decide)]
  simp

/-- Axis 1 (a window axis, outside the map): the update's own coordinate. -/
theorem s16_axis1 (I : IVec S6500000x1 32) (e : Fin 6500000) (k' : Fin 16) :
    scatter_S100000x16_S6500000x1_S6500000x16_1_0_0_1.start (ix2 e k') I 1
      + (scatter_S100000x16_S6500000x1_S6500000x16_1_0_0_1.window (ix2 e k') 1 : Int) = (k'.val : Int) := by
  unfold ScatterDims.start ScatterDims.window
  rw [dif_neg (show (1 : Fin 2) ∉ scatter_S100000x16_S6500000x1_S6500000x16_1_0_0_1.scatterDimsToOperandDims by decide),
    dif_pos (show (1 : Fin 2) ∈ scatter_S100000x16_S6500000x1_S6500000x16_1_0_0_1.sKept by decide)]
  rw [Int.zero_add]
  rfl

/-- Update `(e, k')` lands on `(n, k)` exactly when edge `e`'s word read signed is `n` and the columns agree. -/
theorem s16_lands (I : IVec S6500000x1 32) (e : Fin 6500000) (k' k : Fin 16) (n : Fin 100000) :
    scatter_S100000x16_S6500000x1_S6500000x16_1_0_0_1.resultIdx? (ix2 e k') I = some (ix2 n k)
      ↔ (I (ix2 e 0)).toInt = (n.val : Int) ∧ k' = k := by
  rw [resultIdx?_eq_some_iff]
  constructor
  · intro h
    have h0 := h 0
    have h1 := h 1
    rw [s16_axis0] at h0
    rw [s16_axis1] at h1
    refine ⟨h0, Fin.ext ?_⟩
    have h1' : (k'.val : Int) = (k.val : Int) := h1
    omega
  · rintro ⟨h0, rfl⟩ a
    match a with
    | ⟨0, _⟩ => exact (s16_axis0 I e k').trans h0
    | ⟨1, _⟩ => exact s16_axis1 I e k'

theorem scatter16_apply (X : FVec Ideal S100000x16 .f32) (I : IVec S6500000x1 32) (U : FVec Ideal S6500000x16 .f32)
    (n : Fin 100000) (k : Fin 16) :
    Host.scatterAdd scatter_S100000x16_S6500000x1_S6500000x16_1_0_0_1 X I U (ix2 n k)
      = X (ix2 n k) + ∑ e ∈ hit I n, U (ix2 e k) := by
  show Ideal.hostScatterAdd scatter_S100000x16_S6500000x1_S6500000x16_1_0_0_1 X I U (ix2 n k) = _
  unfold Ideal.hostScatterAdd hit
  refine congrArg (X (ix2 n k) + ·) ?_
  rw [Finset.sum_filter, Finset.sum_filter, sum_idx2]
  refine Finset.sum_congr rfl fun e _ => ?_
  simp only [s16_lands]
  by_cases he : (I (ix2 e 0)).toInt = (n.val : Int)
  · simp only [he, true_and, if_true]
    rw [Finset.sum_ite_eq' Finset.univ k (fun k' => U (ix2 e k'))]
    simp
  · simp [he]

/-- The scatter-indices index at which update index `(e, k')` reads its one start-index component: `(e, 0)`. -/
theorem s5_siIdx (e : Fin 6500000) (k' : Fin 5) (c : Fin scatter_S100000x5_S6500000x1_S6500000x5_1_0_0_1.scatterDimsToOperandDims.length) :
    scatter_S100000x5_S6500000x1_S6500000x5_1_0_0_1.siIdx (ix2 e k') c = ix2 e 0 := by
  funext b; refine Fin.ext ?_
  match b with
  | ⟨0, _⟩ => rfl
  | ⟨1, _⟩ =>
    have hc : c.val < 1 := c.isLt
    show c.val = 0
    omega

/-- Axis 0 (an inserted axis, named by the map): the index word read signed, no window coordinate. -/
theorem s5_axis0 (I : IVec S6500000x1 32) (e : Fin 6500000) (k' : Fin 5) :
    scatter_S100000x5_S6500000x1_S6500000x5_1_0_0_1.start (ix2 e k') I 0
      + (scatter_S100000x5_S6500000x1_S6500000x5_1_0_0_1.window (ix2 e k') 0 : Int) = (I (ix2 e 0)).toInt := by
  unfold ScatterDims.start ScatterDims.window
  rw [dif_pos (show (0 : Fin 2) ∈ scatter_S100000x5_S6500000x1_S6500000x5_1_0_0_1.scatterDimsToOperandDims from
    List.mem_singleton.mpr rfl), s5_siIdx,
    dif_neg (show (0 : Fin 2) ∉ scatter_S100000x5_S6500000x1_S6500000x5_1_0_0_1.sKept by decide)]
  simp

/-- Axis 1 (a window axis, outside the map): the update's own coordinate. -/
theorem s5_axis1 (I : IVec S6500000x1 32) (e : Fin 6500000) (k' : Fin 5) :
    scatter_S100000x5_S6500000x1_S6500000x5_1_0_0_1.start (ix2 e k') I 1
      + (scatter_S100000x5_S6500000x1_S6500000x5_1_0_0_1.window (ix2 e k') 1 : Int) = (k'.val : Int) := by
  unfold ScatterDims.start ScatterDims.window
  rw [dif_neg (show (1 : Fin 2) ∉ scatter_S100000x5_S6500000x1_S6500000x5_1_0_0_1.scatterDimsToOperandDims by decide),
    dif_pos (show (1 : Fin 2) ∈ scatter_S100000x5_S6500000x1_S6500000x5_1_0_0_1.sKept by decide)]
  rw [Int.zero_add]
  rfl

/-- Update `(e, k')` lands on `(n, k)` exactly when edge `e`'s word read signed is `n` and the columns agree. -/
theorem s5_lands (I : IVec S6500000x1 32) (e : Fin 6500000) (k' k : Fin 5) (n : Fin 100000) :
    scatter_S100000x5_S6500000x1_S6500000x5_1_0_0_1.resultIdx? (ix2 e k') I = some (ix2 n k)
      ↔ (I (ix2 e 0)).toInt = (n.val : Int) ∧ k' = k := by
  rw [resultIdx?_eq_some_iff]
  constructor
  · intro h
    have h0 := h 0
    have h1 := h 1
    rw [s5_axis0] at h0
    rw [s5_axis1] at h1
    refine ⟨h0, Fin.ext ?_⟩
    have h1' : (k'.val : Int) = (k.val : Int) := h1
    omega
  · rintro ⟨h0, rfl⟩ a
    match a with
    | ⟨0, _⟩ => exact (s5_axis0 I e k').trans h0
    | ⟨1, _⟩ => exact s5_axis1 I e k'

theorem scatter5_apply (X : FVec Ideal S100000x5 .f32) (I : IVec S6500000x1 32) (U : FVec Ideal S6500000x5 .f32)
    (n : Fin 100000) (c : Fin 5) :
    Host.scatterAdd scatter_S100000x5_S6500000x1_S6500000x5_1_0_0_1 X I U (ix2 n c)
      = X (ix2 n c) + ∑ e ∈ hit I n, U (ix2 e c) := by
  show Ideal.hostScatterAdd scatter_S100000x5_S6500000x1_S6500000x5_1_0_0_1 X I U (ix2 n c) = _
  unfold Ideal.hostScatterAdd hit
  refine congrArg (X (ix2 n c) + ·) ?_
  rw [Finset.sum_filter, Finset.sum_filter, sum_idx2]
  refine Finset.sum_congr rfl fun e _ => ?_
  simp only [s5_lands]
  by_cases he : (I (ix2 e 0)).toInt = (n.val : Int)
  · simp only [he, true_and, if_true]
    rw [Finset.sum_ite_eq' Finset.univ c (fun k' => U (ix2 e k'))]
    simp
  · simp [he]

/-- The same index words under their several names in the reference. -/
theorem v38_eq (x1 : (⟨S2x6400000, .i32⟩ : BufTy).Contents (Elt Ideal)) : val_main_v38 (F := Ideal) x1 = val_main_v22 (F := Ideal) x1 := by
  rfl
theorem v56_eq (x1 : (⟨S2x6400000, .i32⟩ : BufTy).Contents (Elt Ideal)) : val_main_v56 (F := Ideal) x1 = val_main_v22 (F := Ideal) x1 := by
  rfl
theorem v44_eq (x1 : (⟨S2x6400000, .i32⟩ : BufTy).Contents (Elt Ideal)) : val_main_v44 (F := Ideal) x1 = val_main_v9 (F := Ideal) x1 := by
  rfl
theorem v62_eq (x1 : (⟨S2x6400000, .i32⟩ : BufTy).Contents (Elt Ideal)) : val_main_v62 (F := Ideal) x1 = val_main_v9 (F := Ideal) x1 := by
  rfl

/-- An edge that lands on row `n` has, as its wrapped and clamped destination, row `n` itself: its word read signed is `n`,
    which is not negative (nothing is added) and below the extent (nothing is clamped). -/
theorem sel_of_hit (x1 : (⟨S2x6400000, .i32⟩ : BufTy).Contents (Elt Ideal)) (n : Fin 100000) (e : Fin 6500000)
    (h : e ∈ hit (val_main_v9 (F := Ideal) x1) n) : sel (val_main_v29 (F := Ideal) x1) e = n := by
  have hidx9 : idx_main_v9 (ix2 e (0 : Fin 1)) = ix1 e := by funext a; match a with | ⟨0, _⟩ => rfl
  have hidx29 : idx_main_v29 (ix2 e (0 : Fin 1)) = ix1 e := by funext a; match a with | ⟨0, _⟩ => rfl
  -- the raw destination word, read signed, is n
  have hw : (val_main_v6 (F := Ideal) x1 (ix1 e)).toInt = (n.val : Int) := by
    unfold hit at h
    have h2 := (Finset.mem_filter.mp h).2
    rw [val_main_v9_apply, hidx9] at h2
    exact h2
  -- so it is not below zero: the signed compare with 0 is the bit 0
  have hc : IntOp.cmpi .slt (val_main_v6 (F := Ideal) x1 (ix1 e)) 0#32 = 0#1 := by
    have hs : (val_main_v6 (F := Ideal) x1 (ix1 e)).slt 0#32 = false := by
      rw [BitVec.slt, hw]
      simp
    show BitVec.ofBool ((val_main_v6 (F := Ideal) x1 (ix1 e)).slt 0#32) = 0#1
    rw [hs]; rfl
  -- and the select keeps the word itself
  have hv : val_main_v29 (F := Ideal) x1 (ix2 e 0) = val_main_v6 (F := Ideal) x1 (ix1 e) := by
    rw [val_main_v29_apply, hidx29, val_main_v28_apply, val_main_v25_apply, val_main_v24_apply]
    show Scalar.select (IntOp.cmpi .slt (val_main_v6 (F := Ideal) x1 (ix1 e)) 0#32) _ _ = _
    rw [hc, select_zero]
  apply Fin.ext
  show min (val_main_v29 (F := Ideal) x1 (ix2 e 0)).toInt.toNat 99999 = n.val
  rw [hv, hw]
  have hn := n.isLt
  omega

/-- The inverse square root of an extended real that is at least one is a non-negative real: at `⊤` it is `0`, at a real
    `r ≥ 1` it is `(√r)⁻¹`. -/
theorem rsqrt_nonneg_real (y : EReal) (hy : 1 ≤ y) : ∃ r : ℝ, 0 ≤ r ∧ Ideal.rsqrt y = (r : EReal) := by
  induction y using EReal.rec with
  | bot => exact absurd hy (not_le.mpr (EReal.bot_lt_coe 1))
  | top => exact ⟨0, le_refl 0, by rw [Ideal.rsqrt_top]; rfl⟩
  | coe r =>
    have hr : (1 : ℝ) ≤ r := by exact_mod_cast hy
    refine ⟨(Real.sqrt r)⁻¹, inv_nonneg.mpr (Real.sqrt_nonneg r), ?_⟩
    rw [Ideal.rsqrt_coe, if_neg (by linarith), if_neg (by linarith)]

/-- The node factor is a non-negative real number at every node, whatever the index words: it is either the zero of the
    select or the inverse square root of an extended real that is at least one. -/
theorem dinv_nonneg_real (x1 : (⟨S2x6400000, .i32⟩ : BufTy).Contents (Elt Ideal)) (i : S100000.Idx) :
    ∃ r : ℝ, 0 ≤ r ∧ val_main_v16 (F := Ideal) x1 i = (r : EReal) := by
  rw [val_main_v16_apply]
  by_cases hb : val_main_v12 (F := Ideal) x1 i = 1#1
  · rw [hb, select_one, val_main_v15_apply, Ideal.hostUnary_rsqrt_def, val_main_v14_apply, val_main_v13_apply,
      val_main_cst_2_apply]
    show ∃ r : ℝ, 0 ≤ r ∧ Ideal.rsqrt (max (val_main_v10 (F := Ideal) x1 i) (Ideal.ofBits .f32 0x3F800000#32)) = (r : EReal)
    rw [show Ideal.ofBits .f32 0x3F800000#32 = 1 from IdealRules.sign_bit.ideal_onePat .f32]
    exact rsqrt_nonneg_real _ (le_max_right _ _)
  · rw [eq_zero_of_ne_one hb, select_zero, val_main_call0_v1_apply, val_main_call0_v0_apply, val_main_cst_3_apply]
    exact ⟨0, le_refl 0, Ideal.ofBits_zero_f32⟩

end Cert.Graph

end
-- ==== Proof.Algebra.lean ====
/-
  Two laws of the extended reals that carry the graph convolution's re-association. Multiplication by a NON-NEGATIVE REAL
  distributes over any sum of extended reals (no infinity can change sign under it), and a sum of NON-NEGATIVE extended reals
  distributes over any factor; with these, a factor depending only on the destination node moves in and out of the sum over
  the incoming edges, and a weight matrix moves across that sum, without any finiteness of the features.
-/
import Mathlib.Data.EReal.Operations
import Mathlib.Data.EReal.Inv
import Mathlib.Algebra.BigOperators.Group.Finset.Basic

namespace Cert.Algebra

open Finset

/-- A non-negative real factor distributes over a finite sum of extended reals. -/
theorem coe_mul_sum {ι : Type*} (s : Finset ι) (r : ℝ) (hr : 0 ≤ r) (f : ι → EReal) :
    (r : EReal) * ∑ e ∈ s, f e = ∑ e ∈ s, (r : EReal) * f e := by
  classical
  -- Induction on the index set: a non-negative finite factor distributes over a sum of two extended reals.
  induction s using Finset.induction_on with
  | empty => simp
  | insert a s ha ih =>
    rw [sum_insert ha, sum_insert ha,
      EReal.left_distrib_of_nonneg_of_ne_top (EReal.coe_nonneg.mpr hr) (EReal.coe_ne_top r), ih]

/-- A finite sum of non-negative extended reals distributes over any factor. -/
theorem sum_mul_of_nonneg {ι : Type*} (s : Finset ι) (f : ι → EReal) (hf : ∀ e ∈ s, 0 ≤ f e) (w : EReal) :
    (∑ e ∈ s, f e) * w = ∑ e ∈ s, f e * w := by
  classical
  -- Induction on the index set: the sum of two non-negative extended reals distributes over any factor.
  induction s using Finset.induction_on with
  | empty => simp
  | insert a s ha ih =>
    have hs : ∀ e ∈ s, 0 ≤ f e := fun e he => hf e (mem_insert_of_mem he)
    rw [sum_insert ha, sum_insert ha,
      EReal.right_distrib_of_nonneg (hf a (mem_insert_self a s)) (sum_nonneg hs), ih hs]

/-- First layer: the destination's factor `d` moves inside the sum over the incoming edges and joins each edge's
    source factor. (`h e` is any extended real.) -/
theorem law1 {ι : Type*} (s : Finset ι) (d : EReal) (hd : ∃ r : ℝ, 0 ≤ r ∧ d = (r : EReal)) (h ds : ι → EReal) :
    d * (0 + ∑ e ∈ s, h e * ds e) = 0 + ∑ e ∈ s, h e * (ds e * d) := by
  obtain ⟨r, hr, rfl⟩ := hd
  rw [zero_add, zero_add, coe_mul_sum s r hr]
  -- Termwise the two sides differ by commutativity and associativity of the product.
  refine sum_congr rfl fun e _ => ?_
  rw [mul_left_comm, mul_comm (r : EReal) (ds e)]

/-- Second layer: with non-negative features `p e k` (they come out of a clip at zero) and non-negative real factors, the
    weight `w k` and the destination's factor move across the sum over the incoming edges. -/
theorem law2 {ι κ : Type*} [Fintype κ] (s : Finset ι) (d : EReal) (hd : ∃ r : ℝ, 0 ≤ r ∧ d = (r : EReal))
    (p : ι → κ → EReal) (hp : ∀ e k, 0 ≤ p e k) (ds : ι → EReal) (hds : ∀ e, ∃ r : ℝ, 0 ≤ r ∧ ds e = (r : EReal))
    (w : κ → EReal) :
    d * ∑ k : κ, (0 + ∑ e ∈ s, p e k * ds e) * w k = 0 + ∑ e ∈ s, (∑ k : κ, p e k * w k) * (ds e * d) := by
  obtain ⟨r, hr, rfl⟩ := hd
  -- Every edge's source factor is a non-negative real.
  choose c hc hdc using hds
  have hds0 : ∀ e, 0 ≤ ds e := fun e => by rw [hdc e]; exact EReal.coe_nonneg.mpr (hc e)
  -- Left side: the destination's factor enters the sum over the channels, the weight enters the sum over the edges
  -- (a sum of non-negative terms), the factor enters that sum too, and the two sums are exchanged.
  have hL : (r : EReal) * ∑ k : κ, (0 + ∑ e ∈ s, p e k * ds e) * w k
      = ∑ e ∈ s, ∑ k : κ, (r : EReal) * (p e k * ds e * w k) := by
    rw [coe_mul_sum univ r hr, sum_comm]
    refine sum_congr rfl fun k _ => ?_
    rw [zero_add, sum_mul_of_nonneg s _ (fun e _ => mul_nonneg (hp e k) (hds0 e)) (w k), coe_mul_sum s r hr]
  -- Right side: the product of the two non-negative real factors is a non-negative real and enters the sum over the channels.
  have hR : ∀ e, (∑ k : κ, p e k * w k) * (ds e * (r : EReal))
      = ∑ k : κ, (r : EReal) * (p e k * ds e * w k) := by
    intro e
    rw [hdc e, ← EReal.coe_mul, mul_comm, coe_mul_sum univ (c e * r) (mul_nonneg (hc e) hr), EReal.coe_mul]
    refine sum_congr rfl fun k _ => ?_
    ac_rfl
  rw [hL, zero_add]
  exact sum_congr rfl fun e _ => (hR e).symm

end Cert.Algebra
-- ==== Proof.Bridge1.lean ====
/-
  The first graph convolution, the two ways. The reference scales every edge's message by the product of the source's and the
  destination's factors and then adds the messages onto the destination; the kernel scales the source rows beforehand, adds, and
  scales the destination row afterwards. At a destination row the destination's factor is common to all incoming edges and is a
  non-negative real, so it moves out of the sum (Algebra.lean `law1`); an edge that lands on the row has that row as its wrapped
  and clamped destination (Graph.lean `sel_of_hit`).
-/
import proofs.«411965_j11527692222479_3_alg».proof.Proof.RefRead
import proofs.«411965_j11527692222479_3_alg».proof.Proof.KVal
import proofs.«411965_j11527692222479_3_alg».proof.Proof.Graph
import proofs.«411965_j11527692222479_3_alg».proof.Proof.Algebra
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Cert.ReferenceIdeal Cert.ReferenceIdeal.ReadP Idealize.ShloMosaic Idealize.ShloMosaic.ValueIdx

/-- The reference's zero splat under the scatter is zero at every index. -/
theorem v43_zero (i : S100000x16.Idx) : val_main_v43 (F := Ideal) i = 0 := by
  rw [val_main_v43_apply, val_main_cst_9_apply]
  exact Ideal.ofBits_zero_f32

/-- The clip's zero splat is zero at every index. -/
theorem relu_zero (i : S100000x16.Idx) : val_main_call1_v0 (F := Ideal) i = 0 := by
  rw [val_main_call1_v0_apply, val_main_call1_cst_apply]
  exact Ideal.ofBits_zero_f32

/-- The bias broadcast over the nodes reads the bias at the feature. -/
theorem v47_at (x3 : (⟨S16, .f32⟩ : BufTy).Contents (Elt Ideal)) (n : Fin 100000) (k : Fin 16) :
    val_main_v47 (F := Ideal) x3 (ix2 n k) = x3 (ix1 k) := by
  rw [val_main_v47_apply, val_main_v46_apply]
  have hi : idx_main_v46 (idx_main_v47 (ix2 n k)) = ix1 k := by
    funext a; match a with | ⟨0, _⟩ => rfl
  rw [hi]

/-- The product of the features and the first weight at row `s`, feature `k`, as the sum over the 512 inputs. -/
theorem v32_at (x0 : (⟨S100000x512, .f32⟩ : BufTy).Contents (Elt Ideal)) (x2 : (⟨S512x16, .f32⟩ : BufTy).Contents (Elt Ideal))
    (s : Fin 100000) (k : Fin 16) :
    val_main_v32 (F := Ideal) x0 x2 (ix2 s k) = ∑ q : Fin 512, x0 (ix2 s q) * x2 (ix2 q k) := by
  rw [val_main_v32_apply]
  refine Finset.sum_congr rfl fun q _ => ?_
  have hl : lidx_main_v32 (ix2 s k) q = ix2 s q := by
    funext a; match a with | ⟨0, _⟩ => rfl | ⟨1, _⟩ => rfl
  have hr : ridx_main_v32 (ix2 s k) q = ix2 q k := by
    funext a; match a with | ⟨0, _⟩ => rfl | ⟨1, _⟩ => rfl
  rw [hl, hr]

/-- An edge's gathered row of the product: the row of the edge's source. -/
theorem v39_at (x0 : (⟨S100000x512, .f32⟩ : BufTy).Contents (Elt Ideal)) (x1 : (⟨S2x6400000, .i32⟩ : BufTy).Contents (Elt Ideal)) (x2 : (⟨S512x16, .f32⟩ : BufTy).Contents (Elt Ideal))
    (e : Fin 6500000) (k : Fin 16) :
    val_main_v39 (F := Ideal) x0 x1 x2 (ix2 e k)
      = val_main_v32 (F := Ideal) x0 x2 (ix2 (Cert.Graph.sel (val_main_v22 (F := Ideal) x1) e) k) := by
  unfold val_main_v39
  rw [Cert.Graph.gather16_apply, Cert.Graph.v38_eq]

/-- An edge's weight, broadcast over the features: the product of the source's and the destination's factors. -/
theorem v41_at (x1 : (⟨S2x6400000, .i32⟩ : BufTy).Contents (Elt Ideal)) (e : Fin 6500000) (k : Fin 16) :
    val_main_v41 (F := Ideal) x1 (ix2 e k)
      = Cert.KVal.dinv x1 (Cert.Graph.sel (val_main_v22 (F := Ideal) x1) e)
        * Cert.KVal.dinv x1 (Cert.Graph.sel (val_main_v29 (F := Ideal) x1) e) := by
  rw [val_main_v41_apply, val_main_v40_apply, val_main_v31_apply]
  have hi : idx_main_v40 (idx_main_v41 (ix2 e k)) = ix1 e := by
    funext a; match a with | ⟨0, _⟩ => rfl
  rw [hi, Ideal.mulf_def]
  unfold val_main_v23 val_main_v30
  rw [Cert.Graph.gather1_apply, Cert.Graph.gather1_apply]
  rfl

/-- The reference's aggregation at node `n`, feature `k`: over the edges that land on `n`, the source's row of the product
    times the source's factor times the factor of `n` (an edge that lands on `n` has `n` as its clamped destination). -/
theorem v45_at (x0 : (⟨S100000x512, .f32⟩ : BufTy).Contents (Elt Ideal)) (x1 : (⟨S2x6400000, .i32⟩ : BufTy).Contents (Elt Ideal)) (x2 : (⟨S512x16, .f32⟩ : BufTy).Contents (Elt Ideal))
    (n : Fin 100000) (k : Fin 16) :
    val_main_v45 (F := Ideal) x0 x1 x2 (ix2 n k)
      = 0 + ∑ e ∈ Cert.Graph.hit (val_main_v9 (F := Ideal) x1) n,
          val_main_v32 (F := Ideal) x0 x2 (ix2 (Cert.Graph.sel (val_main_v22 (F := Ideal) x1) e) k)
            * (Cert.KVal.dinv x1 (Cert.Graph.sel (val_main_v22 (F := Ideal) x1) e) * Cert.KVal.dinv x1 n) := by
  unfold val_main_v45
  rw [Cert.Graph.scatter16_apply, v43_zero, Cert.Graph.v44_eq]
  refine congrArg (fun t => 0 + t) (Finset.sum_congr rfl fun e he => ?_)
  rw [val_main_v42_apply, Ideal.mulf_def, v39_at, v41_at, Cert.Graph.sel_of_hit x1 n e he]

/-- The kernel's aggregation at node `n`, feature `k`: over the same edges, the source's row of the product times the
    source's factor. -/
theorem A1_at (x0 : (⟨S100000x512, .f32⟩ : BufTy).Contents (Elt Ideal)) (x1 : (⟨S2x6400000, .i32⟩ : BufTy).Contents (Elt Ideal)) (x2 : (⟨S512x16, .f32⟩ : BufTy).Contents (Elt Ideal))
    (n : Fin 100000) (k : Fin 16) :
    Cert.KVal.A1 x0 x1 x2 (ix2 n k)
      = 0 + ∑ e ∈ Cert.Graph.hit (val_main_v9 (F := Ideal) x1) n,
          val_main_v32 (F := Ideal) x0 x2 (ix2 (Cert.Graph.sel (val_main_v22 (F := Ideal) x1) e) k)
            * Cert.KVal.dinv x1 (Cert.Graph.sel (val_main_v22 (F := Ideal) x1) e) := by
  unfold Cert.KVal.A1
  rw [Cert.Graph.scatter16_apply, v43_zero, Cert.Graph.v44_eq]
  refine congrArg (fun t => 0 + t) (Finset.sum_congr rfl fun e _ => ?_)
  rw [Cert.Graph.gather16_apply, Cert.Graph.v38_eq, v32_at]
  rfl

/-- The reference's first layer after its clip at zero, at node `n`, feature `k`: the clip of the kernel's aggregated entry
    scaled by the node's factor, plus the bias. -/
theorem conv1 (x0 : (⟨S100000x512, .f32⟩ : BufTy).Contents (Elt Ideal)) (x1 : (⟨S2x6400000, .i32⟩ : BufTy).Contents (Elt Ideal)) (x2 : (⟨S512x16, .f32⟩ : BufTy).Contents (Elt Ideal)) (x3 : (⟨S16, .f32⟩ : BufTy).Contents (Elt Ideal)) (n : Fin 100000) (k : Fin 16) :
    val_main_v49 (F := Ideal) x0 x1 x2 x3 (ix2 n k)
      = max (Cert.KVal.dinv x1 n * Cert.KVal.A1 x0 x1 x2 (ix2 n k) + x3 (ix1 k)) 0 := by
  rw [val_main_v49_apply, Ideal.maximumf_def, relu_zero, val_main_v48_apply, Ideal.addf_def, v47_at, v45_at, A1_at]
  -- The destination's factor is a non-negative real: it moves inside the sum over the incoming edges.
  have key := Cert.Algebra.law1 (Cert.Graph.hit (val_main_v9 (F := Ideal) x1) n) (Cert.KVal.dinv x1 n)
    (Cert.Graph.dinv_nonneg_real x1 (ix1 n))
    (fun e => val_main_v32 (F := Ideal) x0 x2 (ix2 (Cert.Graph.sel (val_main_v22 (F := Ideal) x1) e) k))
    (fun e => Cert.KVal.dinv x1 (Cert.Graph.sel (val_main_v22 (F := Ideal) x1) e))
  rw [key]

/-- So the kernel's second table is the reference's first layer scaled by the node's factor. -/
theorem T2_eq (x0 : (⟨S100000x512, .f32⟩ : BufTy).Contents (Elt Ideal)) (x1 : (⟨S2x6400000, .i32⟩ : BufTy).Contents (Elt Ideal)) (x2 : (⟨S512x16, .f32⟩ : BufTy).Contents (Elt Ideal)) (x3 : (⟨S16, .f32⟩ : BufTy).Contents (Elt Ideal)) (n : Fin 100000) (k : Fin 16) :
    Cert.KVal.T2 x0 x1 x2 x3 (ix2 n k) = val_main_v49 (F := Ideal) x0 x1 x2 x3 (ix2 n k) * Cert.KVal.dinv x1 n := by
  rw [conv1]
  rfl

/-- The reference's first layer is non-negative: it is a maximum with zero. -/
theorem v49_nonneg (x0 : (⟨S100000x512, .f32⟩ : BufTy).Contents (Elt Ideal)) (x1 : (⟨S2x6400000, .i32⟩ : BufTy).Contents (Elt Ideal)) (x2 : (⟨S512x16, .f32⟩ : BufTy).Contents (Elt Ideal)) (x3 : (⟨S16, .f32⟩ : BufTy).Contents (Elt Ideal)) (i : S100000x16.Idx) :
    0 ≤ val_main_v49 (F := Ideal) x0 x1 x2 x3 i := by
  rw [val_main_v49_apply, Ideal.maximumf_def, relu_zero]
  exact le_max_right _ _

end Cert.Bridge

end
-- ==== Proof.Bridge2.lean ====
/-
  The second graph convolution, the two ways. The reference multiplies the first layer by the second weight at every node,
  gathers, scales every message by the two factors and adds; the kernel adds the factor-scaled first-layer rows and multiplies the
  sum by the weight at the destination. The first layer is non-negative (a clip at zero) and the factors are non-negative reals,
  so the weight and the destination's factor move across the sum over the incoming edges (Algebra.lean `law2`).
-/
import proofs.«411965_j11527692222479_3_alg».proof.Proof.RefRead
import proofs.«411965_j11527692222479_3_alg».proof.Proof.KVal
import proofs.«411965_j11527692222479_3_alg».proof.Proof.Graph
import proofs.«411965_j11527692222479_3_alg».proof.Proof.Algebra
import proofs.«411965_j11527692222479_3_alg».proof.Proof.Bridge1
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Cert.ReferenceIdeal Cert.ReferenceIdeal.ReadP Idealize.ShloMosaic Idealize.ShloMosaic.ValueIdx

/-- The reference's zero accumulator of the second layer is zero everywhere. -/
theorem v61_zero (i : S100000x5.Idx) : val_main_v61 (F := Ideal) i = 0 := by
  rw [val_main_v61_apply, val_main_cst_12_apply]
  exact Ideal.ofBits_zero_f32

/-- The bias, broadcast twice, read at node `n`, class `c`. -/
theorem v65_at (x5 : (⟨S5, .f32⟩ : BufTy).Contents (Elt Ideal)) (n : Fin 100000) (c : Fin 5) :
    val_main_v65 (F := Ideal) x5 (ix2 n c) = x5 (ix1 c) := by
  rw [val_main_v65_apply, val_main_v64_apply]
  congr 1
  funext a
  match a with
  | ⟨0, _⟩ => rfl

/-- The edge's scale, broadcast twice, read at edge `e`, class `c`: the product of the two ends' factors. -/
theorem v59_at (x1 : (⟨S2x6400000, .i32⟩ : BufTy).Contents (Elt Ideal)) (e : Fin 6500000) (c : Fin 5) :
    val_main_v59 (F := Ideal) x1 (ix2 e c)
      = Cert.KVal.dinv x1 (Cert.Graph.sel (val_main_v22 (F := Ideal) x1) e)
        * Cert.KVal.dinv x1 (Cert.Graph.sel (val_main_v29 (F := Ideal) x1) e) := by
  rw [val_main_v59_apply, val_main_v58_apply, val_main_v31_apply]
  have hi : idx_main_v58 (idx_main_v59 (ix2 e c)) = ix1 e := by
    funext a
    match a with
    | ⟨0, _⟩ => rfl
  rw [hi]
  unfold val_main_v23 val_main_v30
  rw [Cert.Graph.gather1_apply, Cert.Graph.gather1_apply]
  rfl

/-- The gathered message of the second layer at edge `e`, class `c`: the source's first-layer row through the weight. -/
theorem v57_at (x0 : (⟨S100000x512, .f32⟩ : BufTy).Contents (Elt Ideal)) (x1 : (⟨S2x6400000, .i32⟩ : BufTy).Contents (Elt Ideal)) (x2 : (⟨S512x16, .f32⟩ : BufTy).Contents (Elt Ideal)) (x3 : (⟨S16, .f32⟩ : BufTy).Contents (Elt Ideal)) (x4 : (⟨S16x5, .f32⟩ : BufTy).Contents (Elt Ideal)) (e : Fin 6500000) (c : Fin 5) :
    val_main_v57 (F := Ideal) x0 x1 x2 x3 x4 (ix2 e c)
      = ∑ k : Fin 16, val_main_v49 (F := Ideal) x0 x1 x2 x3 (ix2 (Cert.Graph.sel (val_main_v22 (F := Ideal) x1) e) k) * x4 (ix2 k c) := by
  unfold val_main_v57
  rw [Cert.Graph.gather5_apply, Cert.Graph.v56_eq, val_main_v50_apply]
  refine Finset.sum_congr rfl fun k _ => ?_
  have hl : lidx_main_v50 (ix2 (Cert.Graph.sel (val_main_v22 (F := Ideal) x1) e) c) k
      = ix2 (Cert.Graph.sel (val_main_v22 (F := Ideal) x1) e) k := by
    funext a
    match a with
    | ⟨0, _⟩ => rfl
    | ⟨1, _⟩ => rfl
  have hr : ridx_main_v50 (ix2 (Cert.Graph.sel (val_main_v22 (F := Ideal) x1) e) c) k = ix2 k c := by
    funext a
    match a with
    | ⟨0, _⟩ => rfl
    | ⟨1, _⟩ => rfl
  rw [hl, hr]

/-- The kernel's aggregated second table at node `n`, feature `k`. -/
theorem A2_at (x0 : (⟨S100000x512, .f32⟩ : BufTy).Contents (Elt Ideal)) (x1 : (⟨S2x6400000, .i32⟩ : BufTy).Contents (Elt Ideal)) (x2 : (⟨S512x16, .f32⟩ : BufTy).Contents (Elt Ideal)) (x3 : (⟨S16, .f32⟩ : BufTy).Contents (Elt Ideal)) (n : Fin 100000) (k : Fin 16) :
    Cert.KVal.A2 x0 x1 x2 x3 (ix2 n k)
      = 0 + ∑ e ∈ Cert.Graph.hit (val_main_v9 (F := Ideal) x1) n,
          val_main_v49 (F := Ideal) x0 x1 x2 x3 (ix2 (Cert.Graph.sel (val_main_v22 (F := Ideal) x1) e) k)
            * Cert.KVal.dinv x1 (Cert.Graph.sel (val_main_v22 (F := Ideal) x1) e) := by
  unfold Cert.KVal.A2
  rw [Cert.Graph.scatter16_apply, v43_zero, Cert.Graph.v44_eq, Cert.Graph.v38_eq]
  refine congrArg (HAdd.hAdd 0) (Finset.sum_congr rfl fun e _ => ?_)
  rw [Cert.Graph.gather16_apply, T2_eq]

/-- The reference's second layer at node `n`, class `c` is the kernel's second epilogue of its aggregated rows. -/
theorem conv2 (x0 : (⟨S100000x512, .f32⟩ : BufTy).Contents (Elt Ideal)) (x1 : (⟨S2x6400000, .i32⟩ : BufTy).Contents (Elt Ideal)) (x2 : (⟨S512x16, .f32⟩ : BufTy).Contents (Elt Ideal)) (x3 : (⟨S16, .f32⟩ : BufTy).Contents (Elt Ideal)) (x4 : (⟨S16x5, .f32⟩ : BufTy).Contents (Elt Ideal)) (x5 : (⟨S5, .f32⟩ : BufTy).Contents (Elt Ideal)) (n : Fin 100000) (c : Fin 5) :
    val_main_v66 (F := Ideal) x0 x1 x2 x3 x4 x5 (ix2 n c)
      = Cert.Spec.h2 (Cert.KVal.A2 x0 x1 x2 x3) (Cert.KVal.dinv x1) x4 (fun c' => x5 (ix1 c')) n c := by
  -- The reference side: zero plus the sum over the incoming edges of the message times the two factors, plus the bias.
  have hR : val_main_v66 (F := Ideal) x0 x1 x2 x3 x4 x5 (ix2 n c)
      = (0 + ∑ e ∈ Cert.Graph.hit (val_main_v9 (F := Ideal) x1) n,
          (∑ k : Fin 16, val_main_v49 (F := Ideal) x0 x1 x2 x3 (ix2 (Cert.Graph.sel (val_main_v22 (F := Ideal) x1) e) k) * x4 (ix2 k c))
            * (Cert.KVal.dinv x1 (Cert.Graph.sel (val_main_v22 (F := Ideal) x1) e) * Cert.KVal.dinv x1 n))
        + x5 (ix1 c) := by
    rw [val_main_v66_apply, v65_at]
    unfold val_main_v63
    rw [Cert.Graph.scatter5_apply, v61_zero, Cert.Graph.v62_eq]
    show _ + _ = _
    refine congrArg (fun t => t + x5 (ix1 c)) (congrArg (HAdd.hAdd 0) (Finset.sum_congr rfl fun e he => ?_))
    rw [val_main_v60_apply, v57_at, v59_at, Cert.Graph.sel_of_hit x1 n e he]
    rfl
  rw [hR]
  -- The kernel side, entry by entry of the aggregated row.
  unfold Cert.Spec.h2
  simp only [A2_at]
  -- The weight and the destination's factor cross the sum over the incoming edges.
  rw [Cert.Algebra.law2 (Cert.Graph.hit (val_main_v9 (F := Ideal) x1) n) (Cert.KVal.dinv x1 n)
    (Cert.Graph.dinv_nonneg_real x1 (ix1 n))
    (fun e k => val_main_v49 (F := Ideal) x0 x1 x2 x3 (ix2 (Cert.Graph.sel (val_main_v22 (F := Ideal) x1) e) k))
    (fun e k => v49_nonneg x0 x1 x2 x3 _)
    (fun e => Cert.KVal.dinv x1 (Cert.Graph.sel (val_main_v22 (F := Ideal) x1) e))
    (fun e => Cert.Graph.dinv_nonneg_real x1 (ix1 _))
    (fun k => x4 (ix2 k c))]

end Cert.Bridge

end
-- ==== Proof.Bridge3.lean ====
/-
  The reference's head, read at one element: from its second layer on, every operation acts within a row — two linear maps with
  their biases, a clip at zero, and the log-softmax (the row minus its maximum, minus the logarithm of the sum of the
  exponentials) — so the result at node `n`, class `c` is Spec.lean's `tail` of row `n` of the second layer.
-/
import proofs.«411965_j11527692222479_3_alg».proof.Proof.RefRead
import proofs.«411965_j11527692222479_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Cert.ReferenceIdeal Cert.ReferenceIdeal.ReadP Idealize.ShloMosaic Idealize.ShloMosaic.ValueIdx

/-! ## The indices the operations read, at an index given by its coordinates -/

/-- The left operand of the first linear map at (n, j), term k, is read at (n, k). -/
theorem lidx67_at (n : Fin 100000) (j : Fin 32) (k : Fin 5) : lidx_main_v67 (ix2 n j) k = ix2 n k :=
  funext fun a => match a with | ⟨0, _⟩ => rfl | ⟨1, _⟩ => rfl
/-- The right operand of the first linear map at (n, j), term k, is read at (k, j). -/
theorem ridx67_at (n : Fin 100000) (j : Fin 32) (k : Fin 5) : ridx_main_v67 (ix2 n j) k = ix2 k j :=
  funext fun a => match a with | ⟨0, _⟩ => rfl | ⟨1, _⟩ => rfl
/-- The first bias, broadcast over the nodes, is read at j. -/
theorem idx69_at (n : Fin 100000) (j : Fin 32) : idx_main_v68 (idx_main_v69 (ix2 n j)) = ix1 j :=
  funext fun a => match a with | ⟨0, _⟩ => rfl
/-- The left operand of the second linear map at (n, c), term j, is read at (n, j). -/
theorem lidx72_at (n : Fin 100000) (c : Fin 5) (j : Fin 32) : lidx_main_v72 (ix2 n c) j = ix2 n j :=
  funext fun a => match a with | ⟨0, _⟩ => rfl | ⟨1, _⟩ => rfl
/-- The right operand of the second linear map at (n, c), term j, is read at (j, c). -/
theorem ridx72_at (n : Fin 100000) (c : Fin 5) (j : Fin 32) : ridx_main_v72 (ix2 n c) j = ix2 j c :=
  funext fun a => match a with | ⟨0, _⟩ => rfl | ⟨1, _⟩ => rfl
/-- The second bias, broadcast over the nodes, is read at c. -/
theorem idx74_at (n : Fin 100000) (c : Fin 5) : idx_main_v73 (idx_main_v74 (ix2 n c)) = ix1 c :=
  funext fun a => match a with | ⟨0, _⟩ => rfl
/-- A per-node quantity broadcast along the classes is read at n. -/
theorem idx3_at (n : Fin 100000) (c : Fin 5) : idx_main_call3_v3 (idx_main_call3_v4 (ix2 n c)) = ix1 n :=
  funext fun a => match a with | ⟨0, _⟩ => rfl
/-- Likewise for the logarithm of the row's sum. -/
theorem idx8_at (n : Fin 100000) (c : Fin 5) : idx_main_call3_v8 (idx_main_call3_v10 (ix2 n c)) = ix1 n :=
  funext fun a => match a with | ⟨0, _⟩ => rfl
/-- The row sum at node n reads its term k at (n, k). -/
theorem idx7_at (n : Fin 100000) (k : Fin 5) : idx_main_call3_v7 (ix1 n) k = ix2 n k :=
  funext fun a => match a with | ⟨0, _⟩ => rfl | ⟨1, _⟩ => rfl

/-- The node index n with the class coordinate k put back on the reduced axis is (n, k). -/
theorem lift_at (h : S100000x5.Reduces [1] S100000) (n : Fin 100000) (k : Fin (S100000x5.size 1)) :
    h.lift (ix1 n) k = ix2 n (⟨k.val, k.isLt⟩ : Fin 5) := by
  funext c; apply Fin.ext
  match c with
  | ⟨0, _⟩ => rfl
  | ⟨1, _⟩ => rfl

/-- The float pattern of minus infinity is the bottom of the extended reals. -/
theorem ofBits_negInf : Ideal.ofBits .f32 0xFF800000#32 = (⊥ : EReal) := by simp [Ideal.ofBits, Ideal.ieee]

/-- For any array of logits: the reduce with a maximum body over the classes, from minus infinity, is the row's maximum. -/
theorem hostReduce_max_row (y : (⟨S100000x5, .f32⟩ : BufTy).Contents (Elt Ideal)) (n : Fin 100000) :
    Host.reduce (FloatOps.maximumf (F := Ideal) (φ := .f32)) y (val_main_call3_cst (F := Ideal)) Gen.reducesTo_S100000x5_S100000_d1 Gen.h_S_ (ix1 n)
      = Cert.Spec.rowMax (fun c' => y (ix2 n c')) := by
  rw [Host.reduce_eq_fold_single (FloatOps.maximumf (F := Ideal) (φ := .f32)) _ _ Gen.reducesTo_S100000x5_S100000_d1 (by decide) Gen.h_S_]
  have hf : (y ∘ Shape.Reduces.lift (by decide : S100000x5.Reduces [1] S100000) (ix1 n)) = fun c' : Fin 5 => y (ix2 n c') :=
    funext fun k => congrArg y (lift_at _ n k)
  rw [hf]
  rfl

section
variable (x0 : (⟨S100000x512, .f32⟩ : BufTy).Contents (Elt Ideal)) (x1 : (⟨S2x6400000, .i32⟩ : BufTy).Contents (Elt Ideal)) (x2 : (⟨S512x16, .f32⟩ : BufTy).Contents (Elt Ideal)) (x3 : (⟨S16, .f32⟩ : BufTy).Contents (Elt Ideal)) (x4 : (⟨S16x5, .f32⟩ : BufTy).Contents (Elt Ideal)) (x5 : (⟨S5, .f32⟩ : BufTy).Contents (Elt Ideal)) (x6 : (⟨S5x32, .f32⟩ : BufTy).Contents (Elt Ideal)) (x7 : (⟨S32, .f32⟩ : BufTy).Contents (Elt Ideal)) (x8 : (⟨S32x5, .f32⟩ : BufTy).Contents (Elt Ideal)) (x9 : (⟨S5, .f32⟩ : BufTy).Contents (Elt Ideal))

/-- The first linear map with its bias at (n, j). -/
theorem v70_at (n : Fin 100000) (j : Fin 32) :
    val_main_v70 (F := Ideal) x0 x1 x2 x3 x4 x5 x6 x7 (ix2 n j)
      = (∑ c' : Fin 5, val_main_v66 (F := Ideal) x0 x1 x2 x3 x4 x5 (ix2 n c') * x6 (ix2 c' j)) + x7 (ix1 j) := by
  rw [val_main_v70_apply, val_main_v67_apply, val_main_v69_apply, val_main_v68_apply, idx69_at]
  show _ + _ = _
  refine congrArg (· + x7 (ix1 j)) (Finset.sum_congr rfl fun k _ => ?_)
  rw [lidx67_at, ridx67_at]

/-- Clipped at zero it is the hidden row of the head. -/
theorem v71_at (n : Fin 100000) (j : Fin 32) :
    val_main_v71 (F := Ideal) x0 x1 x2 x3 x4 x5 x6 x7 (ix2 n j)
      = Cert.Spec.hid (fun c' => val_main_v66 (F := Ideal) x0 x1 x2 x3 x4 x5 (ix2 n c')) x6 (fun j => x7 (ix1 j)) j := by
  rw [val_main_v71_apply, v70_at, val_main_call2_v0_apply, val_main_call2_cst_apply]
  show max _ (Ideal.ofBits .f32 0x00000000#32) = _
  rw [Ideal.ofBits_zero_f32]
  rfl

/-- The second linear map with its bias gives the logits. -/
theorem v75_at (n : Fin 100000) (c : Fin 5) :
    val_main_v75 (F := Ideal) x0 x1 x2 x3 x4 x5 x6 x7 x8 x9 (ix2 n c)
      = Cert.Spec.logit (fun c' => val_main_v66 (F := Ideal) x0 x1 x2 x3 x4 x5 (ix2 n c')) x6 (fun j => x7 (ix1 j)) x8
          (fun c' => x9 (ix1 c')) c := by
  rw [val_main_v75_apply, val_main_v72_apply, val_main_v74_apply, val_main_v73_apply, idx74_at]
  show _ + _ = _
  unfold Cert.Spec.logit
  refine congrArg (· + x9 (ix1 c)) (Finset.sum_congr rfl fun k _ => ?_)
  rw [lidx72_at, ridx72_at, v71_at]

/-- The reduce with a maximum body over the classes, from minus infinity, is the row's maximum. -/
theorem v0_at (n : Fin 100000) :
    val_main_call3_v0 (F := Ideal) x0 x1 x2 x3 x4 x5 x6 x7 x8 x9 (ix1 n)
      = Cert.Spec.rowMax (fun c' => val_main_v75 (F := Ideal) x0 x1 x2 x3 x4 x5 x6 x7 x8 x9 (ix2 n c')) := by
  unfold val_main_call3_v0
  exact hostReduce_max_row _ n

/-- The maximum of minus infinity with the row's maximum is the row's maximum. -/
theorem v2_at (n : Fin 100000) :
    val_main_call3_v2 (F := Ideal) x0 x1 x2 x3 x4 x5 x6 x7 x8 x9 (ix1 n)
      = Cert.Spec.rowMax (fun c' => val_main_v75 (F := Ideal) x0 x1 x2 x3 x4 x5 x6 x7 x8 x9 (ix2 n c')) := by
  rw [val_main_call3_v2_apply, val_main_call3_v1_apply, val_main_call3_cst_0_apply, v0_at]
  show max (Ideal.ofBits .f32 0xFF800000#32) _ = _
  rw [ofBits_negInf]
  exact max_eq_right bot_le

/-- The logits minus their row's maximum. -/
theorem v5_at (n : Fin 100000) (c : Fin 5) :
    val_main_call3_v5 (F := Ideal) x0 x1 x2 x3 x4 x5 x6 x7 x8 x9 (ix2 n c)
      = val_main_v75 (F := Ideal) x0 x1 x2 x3 x4 x5 x6 x7 x8 x9 (ix2 n c)
          - Cert.Spec.rowMax (fun c' => val_main_v75 (F := Ideal) x0 x1 x2 x3 x4 x5 x6 x7 x8 x9 (ix2 n c')) := by
  rw [val_main_call3_v5_apply, val_main_call3_v4_apply, val_main_call3_v3_apply, idx3_at, v2_at]
  show _ - _ = _
  rfl

/-- The sum over the classes of the exponentials of the shifted logits. -/
theorem v7_at (n : Fin 100000) :
    val_main_call3_v7 (F := Ideal) x0 x1 x2 x3 x4 x5 x6 x7 x8 x9 (ix1 n)
      = ∑ c' : Fin 5, Ideal.exp (val_main_v75 (F := Ideal) x0 x1 x2 x3 x4 x5 x6 x7 x8 x9 (ix2 n c')
          - Cert.Spec.rowMax (fun c'' => val_main_v75 (F := Ideal) x0 x1 x2 x3 x4 x5 x6 x7 x8 x9 (ix2 n c''))) := by
  rw [val_main_call3_v7_apply, val_main_call3_cst_1_apply]
  show Ideal.ofBits .f32 0x00000000#32 + _ = _
  rw [Ideal.ofBits_zero_f32, zero_add]
  refine Finset.sum_congr rfl fun k _ => ?_
  rw [idx7_at, val_main_call3_v6_apply, v5_at]
  exact Ideal.hostUnary_exp_def _

end

/-- The reference's result at node `n`, class `c` is the head applied to row `n` of its second layer. -/
theorem tailR (x0 : (⟨S100000x512, .f32⟩ : BufTy).Contents (Elt Ideal)) (x1 : (⟨S2x6400000, .i32⟩ : BufTy).Contents (Elt Ideal)) (x2 : (⟨S512x16, .f32⟩ : BufTy).Contents (Elt Ideal)) (x3 : (⟨S16, .f32⟩ : BufTy).Contents (Elt Ideal)) (x4 : (⟨S16x5, .f32⟩ : BufTy).Contents (Elt Ideal)) (x5 : (⟨S5, .f32⟩ : BufTy).Contents (Elt Ideal)) (x6 : (⟨S5x32, .f32⟩ : BufTy).Contents (Elt Ideal)) (x7 : (⟨S32, .f32⟩ : BufTy).Contents (Elt Ideal)) (x8 : (⟨S32x5, .f32⟩ : BufTy).Contents (Elt Ideal)) (x9 : (⟨S5, .f32⟩ : BufTy).Contents (Elt Ideal)) (n : Fin 100000) (c : Fin 5) :
    val_main_v76 (F := Ideal) x0 x1 x2 x3 x4 x5 x6 x7 x8 x9 (ix2 n c)
      = Cert.Spec.tail (fun c' => val_main_v66 (F := Ideal) x0 x1 x2 x3 x4 x5 (ix2 n c')) x6 (fun j => x7 (ix1 j)) x8
          (fun c' => x9 (ix1 c')) c := by
  have hz : ∀ c' : Fin 5, val_main_v75 (F := Ideal) x0 x1 x2 x3 x4 x5 x6 x7 x8 x9 (ix2 n c')
      = Cert.Spec.logit (fun c' => val_main_v66 (F := Ideal) x0 x1 x2 x3 x4 x5 (ix2 n c')) x6 (fun j => x7 (ix1 j)) x8
          (fun c' => x9 (ix1 c')) c' := fun c' => v75_at x0 x1 x2 x3 x4 x5 x6 x7 x8 x9 n c'
  have hF : (fun c' : Fin 5 => val_main_v75 (F := Ideal) x0 x1 x2 x3 x4 x5 x6 x7 x8 x9 (ix2 n c'))
      = Cert.Spec.logit (fun c' => val_main_v66 (F := Ideal) x0 x1 x2 x3 x4 x5 (ix2 n c')) x6 (fun j => x7 (ix1 j)) x8
          (fun c' => x9 (ix1 c')) := funext hz
  unfold Cert.Spec.tail Cert.Spec.lsm
  rw [val_main_v76_apply, v5_at, val_main_call3_v10_apply, val_main_call3_v9_apply, val_main_call3_v8_apply, idx8_at, v7_at, hF,
    Ideal.subf_def, Ideal.hostUnary_log_def]
  simp only [hz]

end Cert.Bridge

end
-- ==== Proof.ResultEq.lean ====
/-
  The two programs compute one function of the ten arguments. The reference's result at node `n`, class `c` is the head applied
  to row `n` of its second layer (Bridge3.lean), the second layer is the kernel's second epilogue of its aggregated rows
  (Bridge2.lean), and the kernel's result is the head applied to that epilogue's row (KVal.lean, Spec.lean).
-/
import proofs.«411965_j11527692222479_3_alg».proof.Proof.Bridge2
import proofs.«411965_j11527692222479_3_alg».proof.Proof.Bridge3

noncomputable section

namespace Cert.Bridge

open Cert.ReferenceIdeal Cert.ReferenceIdeal.ReadP Idealize.ShloMosaic Idealize.ShloMosaic.ValueIdx

/-- The reference's result array is the kernel's composed function of the same arguments. -/
theorem result_eq (x0 : (⟨S100000x512, .f32⟩ : BufTy).Contents (Elt Ideal)) (x1 : (⟨S2x6400000, .i32⟩ : BufTy).Contents (Elt Ideal)) (x2 : (⟨S512x16, .f32⟩ : BufTy).Contents (Elt Ideal)) (x3 : (⟨S16, .f32⟩ : BufTy).Contents (Elt Ideal)) (x4 : (⟨S16x5, .f32⟩ : BufTy).Contents (Elt Ideal)) (x5 : (⟨S5, .f32⟩ : BufTy).Contents (Elt Ideal)) (x6 : (⟨S5x32, .f32⟩ : BufTy).Contents (Elt Ideal)) (x7 : (⟨S32, .f32⟩ : BufTy).Contents (Elt Ideal)) (x8 : (⟨S32x5, .f32⟩ : BufTy).Contents (Elt Ideal)) (x9 : (⟨S5, .f32⟩ : BufTy).Contents (Elt Ideal)) :
    val_main_v76 (F := Ideal) x0 x1 x2 x3 x4 x5 x6 x7 x8 x9 = Cert.KVal.out x0 x1 x2 x3 x4 x5 x6 x7 x8 x9 := by
  funext i
  obtain ⟨n, c, rfl⟩ : ∃ (n : Fin 100000) (c : Fin 5), i = ix2 n c := ⟨i 0, i 1, eq_ix2 i⟩
  rw [tailR]
  show _ = Cert.Spec.out2 (Cert.KVal.A2 x0 x1 x2 x3) (Cert.KVal.dinv x1) x4 (fun c' => x5 (ix1 c')) x6 (fun j => x7 (ix1 j)) x8
    (fun c' => x9 (ix1 c')) n c
  unfold Cert.Spec.out2
  rw [show (fun c' => val_main_v66 (F := Ideal) x0 x1 x2 x3 x4 x5 (ix2 n c'))
      = (fun c' => Cert.Spec.h2 (Cert.KVal.A2 x0 x1 x2 x3) (Cert.KVal.dinv x1) x4 (fun c'' => x5 (ix1 c'')) n c')
    from funext fun c' => conv2 x0 x1 x2 x3 x4 x5 n c']

end Cert.Bridge

end
-- ==== Proof.Assembly.lean ====
/-
  The two runs side by side. The idealized kernel's run ends with its result buffer at the last boundary's contents, which is
  the composed function of the arguments (the hypothesis `hK`, proved from the three kernels' result arrays and the host
  stretches between them); the reference's run ends with its result at its own composed term, which is its stage function of
  the arguments, and that is the same function (ResultEq.lean). The arguments agree, so the results are equal.
-/
import proofs.«411965_j11527692222479_3_alg».proof.Defs
import proofs.«411965_j11527692222479_3_alg».proof.Proof.KRun
import proofs.«411965_j11527692222479_3_alg».proof.Proof.RefRunThm
import proofs.«411965_j11527692222479_3_alg».proof.Proof.ResultEq

noncomputable section

namespace Cert.Assembly

open Idealize.ShloMosaic Idealize.ShloMosaic.TcCoe Idealize.SL.Sem

/-- The reference's frame: its run with the result dropped. -/
theorem frame_ri [hR : Cert.ReferenceIdeal.Facts] [hP : Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

/-- Equal results from agreeing arguments, given the kernel's result buffer as the composed function of its arguments. -/
theorem algebraic_of [hK : Cert.KernelIdeal.Facts] [hR : Cert.ReferenceIdeal.Facts] [hP : Cert.Pre_finite_inputs.Facts]
    (hval : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      Cert.KernelIdeal.Gen.W8 (F := Ideal) m ρ c (Proc.devRef .tc Cert.KernelIdeal.main_v44)
        = Cert.KVal.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) :
    Cert.algebraic_KernelIdeal_ReferenceIdeal := by
  intro m ρ m' ρ' _ hagree
  refine ⟨fun c => Cert.KVal.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (hval m ρ c), (h c).2⟩)
      (Cert.KernelIdeal.Run.run_main (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v76_eq, Cert.Bridge.result_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

end Cert.Assembly

end
-- ==== Proof.lean ====
/-
  A two-layer graph convolution with an MLP head and a row-wise log-softmax over 100000 nodes and 6.5 million edges (the
  given edges and one self loop per node), against its plain reference, over the extended reals.

  The reference scales every edge's message by the product of the inverse-square-root degree factors of its two ends, after
  transforming the node features; the kernel program scales the rows by the source factor before aggregating and by the
  destination factor afterwards, aggregates BEFORE the second layer's weight, and runs the three dense stages (the first linear
  map, the first epilogue, the second epilogue with the whole head) as tiled kernels. The two agree because the factor of a
  destination node is common to all its incoming edges and is a non-negative real (so it distributes over the sum whatever
  the features are), and because the first layer's output is non-negative (a clip at zero), so the second weight distributes
  over the sum of the factor-scaled rows. No finiteness of the float inputs is used.

  The pieces: Spec.lean (the mathematics, index by index), KVal.lean (the kernel program's composed function), Region0/1/2.lean
  (each kernel's result array), HostK.lean (the program's run read back to that function), Graph.lean (a gather and an
  accumulating scatter along the edges at one element), Algebra.lean (the two distributive laws), Bridge1/2/3.lean and
  ResultEq.lean (the reference is the same function), Assembly.lean (the two runs side by side).
-/
import proofs.«411965_j11527692222479_3_alg».proof.Defs
import proofs.«411965_j11527692222479_3_alg».proof.Proof.Gen.Kernel
import proofs.«411965_j11527692222479_3_alg».proof.Proof.Gen.Kernel.Frame
import proofs.«411965_j11527692222479_3_alg».proof.Proof.Gen.KernelIdeal
import proofs.«411965_j11527692222479_3_alg».proof.Proof.Gen.KernelIdeal.Frame
import proofs.«411965_j11527692222479_3_alg».proof.Proof.Gen.ReferenceIdeal
import proofs.«411965_j11527692222479_3_alg».proof.Proof.Gen.Pre_finite_inputs
import proofs.«411965_j11527692222479_3_alg».proof.Proof.Region0
import proofs.«411965_j11527692222479_3_alg».proof.Proof.Region1
import proofs.«411965_j11527692222479_3_alg».proof.Proof.Region2
import proofs.«411965_j11527692222479_3_alg».proof.Proof.HostK
import proofs.«411965_j11527692222479_3_alg».proof.Proof.Assembly

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Cert.Assembly.frame_ri (hR := Cert.ReferenceIdeal.Gen.facts) (hP := Cert.Pre_finite_inputs.Gen.facts),
    trivial,
    Cert.Assembly.algebraic_of (hK := Cert.KernelIdeal.Gen.facts) (hR := Cert.ReferenceIdeal.Gen.facts)
      (hP := Cert.Pre_finite_inputs.Gen.facts)
      (fun m ρ c => Cert.KernelIdeal.HostK.W8_v44 m ρ (fun V c => Cert.KernelIdeal.Region0.arr0 V c)
        (fun V c => Cert.KernelIdeal.Region1.arr1 V c) (fun V c => Cert.KernelIdeal.Region2.arr2 V c) c)⟩

end Cert.Proof

end
